-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1 : Shape := ⟨2, ![1, 1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1x1 32) (main_arg1 : FVec F S1x1x1024 .f32) (main_arg2 : FVec F S512x1024 .f32) (main_arg3 : FVec F S50257x1024 .f32) (main_arg4 : FVec F S512x2048 .f32) (main_arg5 : FVec F S512 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S512x2048 .f32 := Host.absf main_arg4
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg5 main_arg6 main_arg7 main_arg8 main_arg9 main_arg10 main_arg11 main_arg12 main_arg13 main_v13 main_v16
-- ==== Kernel.lean ====
abbrev S1x1 : Shape := ⟨2, ![1, 1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x512 : Shape := ⟨2, ![1, 512]⟩
abbrev S1x3072 : Shape := ⟨2, ![1, 3072]⟩
abbrev S1x50257 : Shape := ⟨2, ![1, 50257]⟩
abbrev S1 : Shape := ⟨1, ![1]⟩
abbrev S1024x1024 : Shape := ⟨2, ![1024, 1024]⟩
abbrev S3200x1024 : Shape := ⟨2, ![3200, 1024]⟩
abbrev S1x3200 : Shape := ⟨2, ![1, 3200]⟩

abbrev nBuf : Space → Nat
  | .hbm => 47
  | .vmem => 20
  | .smem => 0
  | _ => 0

abbrev bufTy : (tb : Table) → Fin (tcTables nBuf tb) → BufTy
  | .hbm, ⟨0, _⟩ => ⟨S1x1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1024, .f32⟩
  | .hbm, ⟨22, _⟩ => ⟨S1x1024, .f32⟩
  | .hbm, ⟨23, _⟩ => ⟨S1x512, .f32⟩
  | .hbm, ⟨24, _⟩ => ⟨S1x1024, .f32⟩
  | .hbm, ⟨25, _⟩ => ⟨S1x3072, .f32⟩
  | .hbm, ⟨26, _⟩ => ⟨S1x3072, .f32⟩
  | .hbm, ⟨27, _⟩ => ⟨S1x50257, .f32⟩
  | .hbm, ⟨28, _⟩ => ⟨S1x1024, .f32⟩
  | .hbm, ⟨29, _⟩ => ⟨S1x512, .f32⟩
  | .hbm, ⟨30, _⟩ => ⟨S1x50257, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1, .f32⟩
  | .hbm, ⟨37, _⟩ => ⟨S1x50257, .f32⟩
  | .hbm, ⟨38, _⟩ => ⟨S1x50257, .f32⟩
  | .hbm, ⟨39, _⟩ => ⟨S1x50257, .f32⟩
  | .hbm, ⟨40, _⟩ => ⟨S_, .f32⟩
  | .hbm, ⟨41, _⟩ => ⟨S1, .f32⟩
  | .hbm, ⟨42, _⟩ => ⟨S1x1, .f32⟩
  | .hbm, ⟨43, _⟩ => ⟨S1x1, .f32⟩
  | .hbm, ⟨44, _⟩ => ⟨S1x50257, .f32⟩
  | .hbm, ⟨45, _⟩ => ⟨S1x50257, .f32⟩
  | .hbm, ⟨46, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x2048, .f32⟩
  | .local _ .vmem, ⟨4, _⟩ => ⟨S1x512, .f32⟩
  | .local _ .vmem, ⟨5, _⟩ => ⟨S1024x2048, .f32⟩
  | .local _ .vmem, ⟨6, _⟩ => ⟨S1x1024, .f32⟩
  | .local _ .vmem, ⟨7, _⟩ => ⟨S3072x1024, .f32⟩
  | .local _ .vmem, ⟨8, _⟩ => ⟨S3072x1024, .f32⟩
  | .local _ .vmem, ⟨9, _⟩ => ⟨S1x3072, .f32⟩
  | .local _ .vmem, ⟨10, _⟩ => ⟨S1x3072, .f32⟩
  | .local _ .vmem, ⟨11, _⟩ => ⟨S1x1024, .f32⟩
  | .local _ .vmem, ⟨12, _⟩ => ⟨S1x512, .f32⟩
  | .local _ .vmem, ⟨13, _⟩ => ⟨S1x1024, .f32⟩
  | .local _ .vmem, ⟨14, _⟩ => ⟨S3200x1024, .f32⟩
  | .local _ .vmem, ⟨15, _⟩ => ⟨S3200x1024, .f32⟩
  | .local _ .vmem, ⟨16, _⟩ => ⟨S1x3200, .f32⟩
  | .local _ .vmem, ⟨17, _⟩ => ⟨S1x3200, .f32⟩
  | .local _ .vmem, ⟨18, _⟩ => ⟨S1x3200, .f32⟩
  | .local _ .vmem, ⟨19, _⟩ => ⟨S1x3200, .f32⟩
  | _, _ => ⟨S1x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v12 : Ref sig .tc := ⟨.hbm, 30, rfl⟩
abbrev main_call0_cst : Ref sig .tc := ⟨.hbm, 31, rfl⟩
abbrev main_call0_v0 : Ref sig .tc := ⟨.hbm, 32, rfl⟩
abbrev main_call0_cst_0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_cst_1 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_v13 : Ref sig .tc := ⟨.hbm, 45, rfl⟩
abbrev main_v14 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3072x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3200x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x1_S_ : S1x1.ShapeCasts S_
  sliceFits_S50257x1024_S1x1024 : S50257x1024.Slices (fun _ => 0) S1x1024
  h_S_ : 0 < S_.numel
  shapeCasts_S1x1x1024_S1x1024 : S1x1x1024.ShapeCasts S1x1024
  shapeCasts_S512_S1x512 : S512.ShapeCasts S1x512
  shapeCasts_S1024_S1x1024 : S1024.ShapeCasts S1x1024
  shapeCasts_S3072_S1x3072 : S3072.ShapeCasts S1x3072
  shapeCasts_S50257_S1x50257 : S50257.ShapeCasts S1x50257
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S512x2048_S512x1024_0_0 : ∀ a, (![0, 0] : Fin 2 → Nat) a + S512x1024.size a ≤ S512x2048.size a
  h_S512x1024 : 0 < S512x1024.numel
  inb_S512x2048_S512x1024_0_1024 : ∀ a, (![0, 1024] : Fin 2 → Nat) a + S512x1024.size a ≤ S512x2048.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S512x1024_S512x1024_0_0 : ∀ a, (![0, 0] : Fin 2 → Nat) a + S512x1024.size a ≤ S512x1024.size a
  inb_S1024x2048_S1024x1024_0_0 : ∀ a, (![0, 0] : Fin 2 → Nat) a + S1024x1024.size a ≤ S1024x2048.size a
  h_S1024x1024 : 0 < S1024x1024.numel
  inb_S1024x2048_S1024x1024_0_1024 : ∀ a, (![0, 1024] : Fin 2 → Nat) a + S1024x1024.size a ≤ S1024x2048.size a
  inb_S3072x1024_S1024x1024_0_0 : ∀ a, (![0, 0] : Fin 2 → Nat) a + S1024x1024.size a ≤ S3072x1024.size a
  inb_S1x3072_S1x1024_0_0 : ∀ a, (![0, 0] : Fin 2 → Nat) a + S1x1024.size a ≤ S1x3072.size a
  inb_S3072x1024_S1024x1024_1024_0 : ∀ a, (![1024, 0] : Fin 2 → Nat) a + S1024x1024.size a ≤ S3072x1024.size a
  inb_S1x3072_S1x1024_0_1024 : ∀ a, (![0, 1024] : Fin 2 → Nat) a + S1x1024.size a ≤ S1x3072.size a
  inb_S3072x1024_S1024x1024_2048_0 : ∀ a, (![2048, 0] : Fin 2 → Nat) a + S1024x1024.size a ≤ S3072x1024.size a
  inb_S1x3072_S1x1024_0_2048 : ∀ a, (![0, 2048] : Fin 2 → Nat) a + S1x1024.size a ≤ S1x3072.size a
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  reducesTo_S1x50257_S1_d1 : S1x50257.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x1024_S512x1024_S1x512_1_1_0_0_n_n_wf : DotDims.WF S1x1024 S512x1024 S1x512 [1] [1] [0] [0] [] []
  dot_S1x512_S512x1024_S1x1024_1_0_0_1_n_n_wf : DotDims.WF S1x512 S512x1024 S1x1024 [1] [0] [0] [1] [] []
  dot_S1x1024_S1024x1024_S1x1024_1_1_0_0_n_n_wf : DotDims.WF S1x1024 S1024x1024 S1x1024 [1] [1] [0] [0] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072x1024.size a ≤ S3072x1024.size a
  hwx0_7 : ∀ i : grid0.Coords, EltTy.bits .f32 = 32 ∨ (Rect.block (s := S3072x1024) S3072x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3072x1024.size a ≤ S3072x1024.size a
  hwx0_8 : ∀ i : grid0.Coords, EltTy.bits .f32 = 32 ∨ (Rect.block (s := S3072x1024) S3072x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3072.size a ≤ S1x3072.size a
  hwx0_9 : ∀ i : grid0.Coords, EltTy.bits .f32 = 32 ∨ (Rect.block (s := S1x3072) S1x3072.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3072.size a ≤ S1x3072.size a
  hwx0_10 : ∀ i : grid0.Coords, EltTy.bits .f32 = 32 ∨ (Rect.block (s := S1x3072) S1x3072.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S3200x1024.size a < S50257x1024.size a
  hwx1_1 : ∀ i : grid1.Coords, EltTy.bits .f32 = 32 ∨ (Rect.unit (s := S50257x1024) (fun a => cc1_transform_1 i a * S3200x1024.size a) (fun a => (Pipeline.Clip.of (cc1_transform_1 i a) (S3200x1024.size a) (S50257x1024.size a)).extent (S3200x1024.size a)) fun a => Pipeline.Clip.inb (Pipeline.Clip.ok_of (hstart1_1 i a))).WholeWords (EltTy.packing .f32)
  hwxs1_1 : ∀ i : grid1.Coords, EltTy.bits .f32 = 32 ∨ (Rect.unit (s := S3200x1024) (fun _ => 0) (fun a => (Pipeline.Clip.of (cc1_transform_1 i a) (S3200x1024.size a) (S50257x1024.size a)).extent (S3200x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x3200.size a < S1x50257.size a
  hwx1_2 : ∀ i : grid1.Coords, EltTy.bits .f32 = 32 ∨ (Rect.unit (s := S1x50257) (fun a => cc1_transform_2 i a * S1x3200.size a) (fun a => (Pipeline.Clip.of (cc1_transform_2 i a) (S1x3200.size a) (S1x50257.size a)).extent (S1x3200.size a)) fun a => Pipeline.Clip.inb (Pipeline.Clip.ok_of (hstart1_2 i a))).WholeWords (EltTy.packing .f32)
  hwxs1_2 : ∀ i : grid1.Coords, EltTy.bits .f32 = 32 ∨ (Rect.unit (s := S1x3200) (fun _ => 0) (fun a => (Pipeline.Clip.of (cc1_transform_2 i a) (S1x3200.size a) (S1x50257.size a)).extent (S1x3200.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x3200.size a < S1x50257.size a
  hwx1_3 : ∀ i : grid1.Coords, EltTy.bits .f32 = 32 ∨ (Rect.unit (s := S1x50257) (fun a => cc1_transform_3 i a * S1x3200.size a) (fun a => (Pipeline.Clip.of (cc1_transform_3 i a) (S1x3200.size a) (S1x50257.size a)).extent (S1x3200.size a)) fun a => Pipeline.Clip.inb (Pipeline.Clip.ok_of (hstart1_3 i a))).WholeWords (EltTy.packing .f32)
  hwxs1_3 : ∀ i : grid1.Coords, EltTy.bits .f32 = 32 ∨ (Rect.unit (s := S1x3200) (fun _ => 0) (fun a => (Pipeline.Clip.of (cc1_transform_3 i a) (S1x3200.size a) (S1x50257.size a)).extent (S1x3200.size a)) fun a => (Nat.zero_add _).trans_le (Pipeline.Clip.extent_le (Pipeline.Clip.ok_of (hstart1_3 i a)))).WholeWords (EltTy.packing .f32)

variable [Facts₀]

def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v4) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3072x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3072x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11_0) S1x1024.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11_1) S1x512.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v11_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg12) S3200x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v10) S1x3200.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v12) S1x3200.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x1 : Shape := ⟨2, ![1, 1]⟩
abbrev S1x1x1024 : Shape := ⟨3, ![1, 1, 1024]⟩
abbrev S512x1024 : Shape := ⟨2, ![512, 1024]⟩
abbrev S50257x1024 : Shape := ⟨2, ![50257, 1024]⟩
abbrev S512x2048 : Shape := ⟨2, ![512, 2048]⟩
abbrev S512 : Shape := ⟨1, ![512]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S2048x512 : Shape := ⟨2, ![2048, 512]⟩
abbrev S1x512 : Shape := ⟨2, ![1, 512]⟩
abbrev S1 : Shape := ⟨1, ![1]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 121
  | .vmem => 0
  | .smem => 0
  | _ => 0

abbrev bufTy : (tb : Table) → Fin (tcTables nBuf tb) → BufTy
  | .hbm, ⟨0, _⟩ => ⟨S1x1, .i32⟩
  | .hbm, ⟨1, _⟩ => ⟨S1x1x1024, .f32⟩
  | .hbm, ⟨2, _⟩ => ⟨S512x1024, .f32⟩
  | .hbm, ⟨3, _⟩ => ⟨S50257x1024, .f32⟩
  | .hbm, ⟨4, _⟩ => ⟨S512x2048, .f32⟩
  | .hbm, ⟨5, _⟩ => ⟨S512, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x2048, .f32⟩
  | .hbm, ⟨33, _⟩ => ⟨S2048x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x512, .f32⟩
  | .hbm, ⟨50, _⟩ => ⟨S1x512, .f32⟩
  | .hbm, ⟨51, _⟩ => ⟨S1x1024, .f32⟩
  | .hbm, ⟨52, _⟩ => ⟨S1x2048, .f32⟩
  | .hbm, ⟨53, _⟩ => ⟨S2048x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1024x3072, .f32⟩
  | .hbm, ⟨65, _⟩ => ⟨S1x3072, .f32⟩
  | .hbm, ⟨66, _⟩ => ⟨S1x3072, .f32⟩
  | .hbm, ⟨67, _⟩ => ⟨S1x3072, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1024x50257, .f32⟩
  | .hbm, ⟨102, _⟩ => ⟨S1x50257, .f32⟩
  | .hbm, ⟨103, _⟩ => ⟨S1x50257, .f32⟩
  | .hbm, ⟨104, _⟩ => ⟨S1x50257, .f32⟩
  | .hbm, ⟨105, _⟩ => ⟨S_, .f32⟩
  | .hbm, ⟨106, _⟩ => ⟨S1, .f32⟩
  | .hbm, ⟨107, _⟩ => ⟨S_, .f32⟩
  | .hbm, ⟨108, _⟩ => ⟨S1, .f32⟩
  | .hbm, ⟨109, _⟩ => ⟨S1, .f32⟩
  | .hbm, ⟨110, _⟩ => ⟨S1x1, .f32⟩
  | .hbm, ⟨111, _⟩ => ⟨S1x50257, .f32⟩
  | .hbm, ⟨112, _⟩ => ⟨S1x50257, .f32⟩
  | .hbm, ⟨113, _⟩ => ⟨S1x50257, .f32⟩
  | .hbm, ⟨114, _⟩ => ⟨S_, .f32⟩
  | .hbm, ⟨115, _⟩ => ⟨S1, .f32⟩
  | .hbm, ⟨116, _⟩ => ⟨S1x1, .f32⟩
  | .hbm, ⟨117, _⟩ => ⟨S1x1, .f32⟩
  | .hbm, ⟨118, _⟩ => ⟨S1x50257, .f32⟩
  | .hbm, ⟨119, _⟩ => ⟨S1x50257, .f32⟩
  | .hbm, ⟨120, _⟩ => ⟨S1x1x1024, .f32⟩
  | _, _ => ⟨S1x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_call1_cst_0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_cst_1 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_v74 : Ref sig .tc := ⟨.hbm, 119, rfl⟩
abbrev main_v75 : Ref sig .tc := ⟨.hbm, 120, rfl⟩

abbrev nD : Nat := 1
abbrev τ : Topo := Topo.v7x

variable {F : FTy → Type} [FloatOps F]

class Facts₀ : Prop where
  shapeCasts_S1x1_S_ : S1x1.ShapeCasts S_
  sliceFits_S50257x1024_S1x1024 : S50257x1024.Slices (fun _ => 0) S1x1024
  h_S_ : 0 < S_.numel
  shapeCasts_S1x1024_S1024 : S1x1024.ShapeCasts S1024
  shapeCasts_S1024_S1x1024 : S1024.ShapeCasts S1x1024
  shapeCasts_S1x1x1024_S1x1024 : S1x1x1024.ShapeCasts S1x1024
  concatenates_S1x1024_S1x1024_S1x2048_d1 : Shape.Concatenates [S1x1024, S1x1024] S1x2048 1
  transposes_S512x2048_S2048x512_1_0 : S512x2048.Transposes [1, 0] S2048x512
  bcast_S512_S1x512_1 : S512.BroadcastsInDim S1x512 (![1] : Fin 1 → Fin S1x512.rank)
  reducesTo_S1x512_S1_d1 : S1x512.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x512_0_1 : S1x1.BroadcastsInDim S1x512 (![0, 1] : Fin 2 → Fin S1x512.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S2048x512_S1x512_1_0_0_1_n_n_wf : DotDims.WF S1x2048 S2048x512 S1x512 [1] [0] [0] [1] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KB.Run.lean ====
/-
  The word-level kernel program's frame: from any memory with zero counters the program terminates, nothing faulting,
  and every argument array ends as launched.

  The first kernel's two results are named by its exact proof data. The second kernel's last tile reads rows of out_W
  and entries of out_b past the arrays' ends, which are words nothing names, and at the word level the matrix unit's
  product is not read entry by entry: so of the two tiles' buffers and the logits tile's buffer the proof data says
  nothing, and the logits array after the second kernel is held at SOME contents v. The kernel's three operand arrays
  are input windows' arrays, never written back, so they hold what they held at entry.

  The two host lines after it (log_softmax, which reads the logits, and the hidden state's broadcast) are run from a
  memory that holds the logits array at v, whatever v is: a host operation is a total function of its operands'
  contents, takes no address, branch or trip count from them, and writes only its own result buffers, none of which is
  an argument. So at every v the last valuation at an argument's buffer walks back to the launch memory.
-/
import proofs.«414457_j10170482557153_3_alg».proof.Defs
import proofs.«414457_j10170482557153_3_alg».proof.Proof.KB.R1
import proofs.«414457_j10170482557153_3_alg».proof.Proof.Gen.Kernel.Regions
import proofs.«414457_j10170482557153_3_alg».proof.Proof.Gen.Pre_finite_inputs
import Idealize.ShloMosaic.Adequacy
import Idealize.ShloMosaic.Init

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents at the boundaries of the program

From the launch memory: after the first host line; after the first kernel (its two results at what its one
write-back leaves, which the proof data names); after the second kernel, where the logits array holds contents
`v` that nothing names — every boundary after it is a function of `v`. -/

/-- Core `c`'s buffers at launch. -/
abbrev W0 : Dev nD → Valuation τ sig (Elt F) := fun c b => m (c, b)
/-- After the first host line (the first kernel's entry). -/
abbrev W1 : Dev nD → Valuation τ sig (Elt F) := fun c => StableHlo.after hostOps0 (W0 m c)
/-- The same read at the TensorCore's references. -/
abbrev Vr0 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (Vr0 m) c).arrAt w cfg0.N
theorem W2_arr (c : Dev nD) (w : Fin cfg0.W) :
    W2 m c (Proc.devRef .tc (Pipeline.arrRef spec0 w)) = (dat0 (Vr0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second kernel's entry contents). -/
abbrev Vr1 : (c : Dev nD) → (b : Ref sig .tc) → Buf (Elt F) ((c : Thread nD τ).loc b) := fun c b => W2 m c b
theorem hF0 (c : Dev nD) (w : Fin cfg0.W) : (dat0 (Vr0 m) c).arrAt w cfg0.N = Vr1 m c (Pipeline.arrRef spec0 w) :=
  (W2_arr m c w).symm
theorem hrest0 (c : Dev nD) : ∀ b, b ∉ Finset.univ.image (Pipeline.arrRef spec0) → Vr1 m c b = Vr0 m c b :=
  fun b hb => W2_of_ne m c b fun w e => hb (Finset.mem_image.mpr ⟨w, Finset.mem_univ _, e⟩)

/-- The logits array's contents: a value per entry. -/
abbrev Logits : Type := (Proc.devRef .tc main_v12 : DevRef τ sig).ty.Contents (Elt F)

/-- At the second kernel's exit, the logits array holding `v`: every other buffer as the kernel was entered (its three
    operand arrays are never written). -/
def W3 (c : Dev nD) (v : Logits (F := F)) : Valuation τ sig (Elt F) :=
  Function.update (W2 m c) (Proc.devRef .tc main_v12) v
theorem W3_self (c : Dev nD) (v : Logits (F := F)) : W3 m c v (Proc.devRef .tc main_v12) = v := by
  unfold W3; exact Function.update_self _ _ _
theorem W3_of_ne (c : Dev nD) (v : Logits (F := F)) (b : Ref sig .tc) (hb : b ≠ main_v12) :
    W3 m c v (Proc.devRef .tc b) = W2 m c (Proc.devRef .tc b) := by
  unfold W3; exact Function.update_of_ne (StableHlo.devRef_ne_of_ne hb) _ _
/-- After log_softmax's operations, and after the closing broadcast. -/
abbrev W4 (c : Dev nD) (v : Logits (F := F)) : Valuation τ sig (Elt F) := StableHlo.after hostOps2 (W3 m c v)
abbrev W5 (c : Dev nD) (v : Logits (F := F)) : Valuation τ sig (Elt F) := StableHlo.after hostOps2_1 (W4 m c v)

/-! ## The proof data and the thread state -/

/-- Every pipeline's exact proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
/-- The same as relations: the first kernel's exact; of the second kernel's two tiles and logits tile nothing is said. -/
def rdats : (p : Fin 2) → (c : Dev nD) → Pipeline.RDat τ (Elt F) Unit ℕ (UR sig nD τ) ℕ (Pipeline.pin (pcfgs (F := F)) adm p) c
  | ⟨0, _⟩ => fun c => (dat0 (Vr0 m) c).toR
  | ⟨1, _⟩ => fun c => (dat1 (Vr1 m) c).toRForget fgt1
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-! ## The first kernel as a segment -/

set_option backward.isDefEq.respectTransparency.types false in
/-- The first kernel: entered from every unscoped buffer at `W1`, left at `W2`. Its arrays are split out of the unscoped
    buffers and put back at the contents its write-backs leave, which its exact proof data names. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (dat0 (Vr0 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The second kernel as a segment -/

/-- The logits array is the second kernel's window 3; its three operand arrays are other buffers. -/
theorem W3_arr0 (c : Dev nD) (v : Logits (F := F)) : W3 m c v (Proc.devRef .tc (Pipeline.arrRef spec1 0)) = (rdats m 1 c).A 0 :=
  W3_of_ne m c v _ (by decide)
theorem W3_arr1 (c : Dev nD) (v : Logits (F := F)) : W3 m c v (Proc.devRef .tc (Pipeline.arrRef spec1 1)) = (rdats m 1 c).A 1 :=
  W3_of_ne m c v _ (by decide)
theorem W3_arr2 (c : Dev nD) (v : Logits (F := F)) : W3 m c v (Proc.devRef .tc (Pipeline.arrRef spec1 2)) = (rdats m 1 c).A 2 :=
  W3_of_ne m c v _ (by decide)
theorem W3_arr3 (c : Dev nD) (v : Logits (F := F)) : W3 m c v (Proc.devRef .tc (Pipeline.arrRef spec1 3)) = v :=
  W3_self m c v

set_option backward.isDefEq.respectTransparency.types false in
/-- At the second kernel's exit its three operand arrays hold what they held at entry (an input window's array is never
    written back) and the logits array holds SOME contents: those are the core's arrays at the valuation `W3` of them. -/
theorem arraysAt1 (c : Dev nD) :
    ((rdats m 1 c).arraysAt (Pipeline.pin (pcfgs (F := F)) adm 1).N : sProp 𝕄)
      ⊢ iprop(∃ v : Logits (F := F), (pdats m 1 c).arrays fun w => W3 m c v (Proc.devRef .tc (Pipeline.arrRef spec1 w))) := by
  unfold Pipeline.RDat.arraysAt Pipeline.Dat.arrays
  refine (Entails.of_eq (bigSep_W1 _)).trans ?_
  iintro ⟨⟨%F0, %h0, H0⟩, ⟨%F1, %h1, H1⟩, ⟨%F2, %h2, H2⟩, ⟨%F3, -, H3⟩⟩
  rw [Pipeline.RDat.ArrAt_in _ 0 rfl] at h0
  rw [Pipeline.RDat.ArrAt_in _ 1 rfl] at h1
  rw [Pipeline.RDat.ArrAt_in _ 2 rfl] at h2
  subst h0 h1 h2
  iexists F3
  rw [bigSep_W1]
  beta_reduce
  rw [W3_arr0, W3_arr1, W3_arr2, W3_arr3]
  isplitl [H0]; · iexact H0
  isplitl [H1]; · iexact H1
  isplitl [H2]; · iexact H2
  iexact H3

set_option backward.isDefEq.respectTransparency.types false in
/-- The second kernel: entered from every unscoped buffer at `W2`, left with the logits array at SOME contents `v` and every
    other unscoped buffer as entered. Of its two tiles and its logits tile the proof data says nothing, so the body's
    obligation is the one with those three buffers handed over and taken back at contents nothing names. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1_fgt (Vr1 m) c).toRForget
  hwaits := Pipeline.RDat.hwaits_of_owed_zero _ _ _ _ L lv 1 fun _ _ => rfl
  pre c := iprop(StableHlo.held (c : Thread nD τ) (Pipeline.ucRefs τ sig) (W2 m c) ∗ R c)
  post c := iprop(∃ v : Logits (F := F), StableHlo.held (c : Thread nD τ) (Pipeline.ucRefs τ sig) (W3 m c v) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : ∀ v : Logits (F := F),
        iprop((pdats m 1 c).arrays (fun w => W3 m c v (Proc.devRef .tc (Pipeline.arrRef spec1 w)))
          ∗ Pipeline.unscopedRest (Ix := Unit) (Name := ℕ) (U := UR sig nD τ) (Lvl := ℕ) spec1 c (Vr1 m c))
        ⊢ (StableHlo.held (c : Thread nD τ) (Pipeline.ucRefs τ sig) (W3 m c v) : sProp 𝕄) := fun v => by
      have h := Pipeline.unscopedBufs_of_arrays (p := 1) (pcfgs (F := F)) adm (Ix := Unit) (Name := ℕ) (U := UR sig nD τ) (Lvl := ℕ)
        launch1.win launch1.arr_whole c (pdats m) ((pdats m 1 c).share_full fun _ => rfl)
        (Vr1 m c) (fun b => W3 m c v b) (fun w => W3 m c v (Proc.devRef .tc (Pipeline.arrRef spec1 w))) (fun _ => rfl)
        (fun b hb => W3_of_ne m c v b fun e => hb (Finset.mem_image.mpr ⟨3, Finset.mem_univ _, e.symm⟩))
      rw [Pipeline.unscopedBufs_held] at h
      exact h
    iintro ⟨Ha, HO, HY, Hrest⟩
    ihave Ha' := (arraysAt1 m c) $$ Ha
    icases Ha' with ⟨%v, Ha⟩
    imodintro
    iexists v
    isplitl [Ha Hrest]
    · iapply (hjoin v); isplitl [Ha] <;> iassumption
    isplitl [HY]; · iexact HY
    unfold Pipeline.RDat.owesAt Pipeline.owesWithin
    icases HO with ⟨%W, -, HO⟩; iexists W; iexact HO

/-! ## The host lines as segments -/

/-- A host line as a segment: over the unscoped references from the contents `W`, `R` riding along; it ends with those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- log_softmax's line, entered with the logits array at SOME contents `v`: a host operation is a total function of its
    operands' contents, so the line runs from the valuation `W3` at that `v`, whatever it is, to `W4` at it. -/
def seg2 : Pipeline.HostSeg (Name := ℕ) (U := UR sig nD τ) (pcfgs (F := F)) defs₀ 𝒱₀ L lv where
  prog := StableHlo.seq hostOps2
  pre c := iprop(∃ v : Logits (F := F), StableHlo.held (c : Thread nD τ) (Pipeline.ucRefs τ sig) (W3 m c v) ∗ R c)
  post c := iprop(∃ v : Logits (F := F), StableHlo.held (c : Thread nD τ) (Pipeline.ucRefs τ sig) (W4 m c v) ∗ R c)
  run c {β} k K := by
    iintro ⟨Hk, Hbd, ⟨%v, Hpre⟩, Hla⟩
    iapply ((hseg hostOps2 hostOps2_sub hostOps2_fresh (fun c => W3 m c v)).run c k K)
    isplitl [Hk]
    · iintro ⟨Hbd, Hpost⟩
      iapply Hk
      isplitl [Hbd]; · iexact Hbd
      iexists v
      iapply (show ((hseg hostOps2 hostOps2_sub hostOps2_fresh (fun c => W3 m c v)).post c : sProp 𝕄)
        ⊢ iprop(StableHlo.held (c : Thread nD τ) (Pipeline.ucRefs τ sig) (W4 m c v) ∗ R c) from .rfl)
      iexact Hpost
    isplitl [Hbd]; · iexact Hbd
    isplitl [Hpre]
    · iapply (show iprop(StableHlo.held (c : Thread nD τ) (Pipeline.ucRefs τ sig) (W3 m c v) ∗ R c)
        ⊢ ((hseg hostOps2 hostOps2_sub hostOps2_fresh (fun c => W3 m c v)).pre c : sProp 𝕄) from .rfl)
      iexact Hpre
    iexact Hla

set_option backward.isDefEq.respectTransparency.types false in
/-- The hidden state's broadcast, likewise from `W4` to `W5` at the same unnamed `v`. -/
def seg3 : Pipeline.HostSeg (Name := ℕ) (U := UR sig nD τ) (pcfgs (F := F)) defs₀ 𝒱₀ L lv where
  prog := StableHlo.seq hostOps2_1
  pre c := iprop(∃ v : Logits (F := F), StableHlo.held (c : Thread nD τ) (Pipeline.ucRefs τ sig) (W4 m c v) ∗ R c)
  post c := iprop(∃ v : Logits (F := F), StableHlo.held (c : Thread nD τ) (Pipeline.ucRefs τ sig) (W5 m c v) ∗ R c)
  run c {β} k K := by
    iintro ⟨Hk, Hbd, ⟨%v, Hpre⟩, Hla⟩
    iapply ((hseg hostOps2_1 hostOps2_1_sub hostOps2_1_fresh (fun c => W4 m c v)).run c k K)
    isplitl [Hk]
    · iintro ⟨Hbd, Hpost⟩
      iapply Hk
      isplitl [Hbd]; · iexact Hbd
      iexists v
      iapply (show ((hseg hostOps2_1 hostOps2_1_sub hostOps2_1_fresh (fun c => W4 m c v)).post c : sProp 𝕄)
        ⊢ iprop(StableHlo.held (c : Thread nD τ) (Pipeline.ucRefs τ sig) (W5 m c v) ∗ R c) from .rfl)
      iexact Hpost
    isplitl [Hbd]; · iexact Hbd
    isplitl [Hpre]
    · iapply (show iprop(StableHlo.held (c : Thread nD τ) (Pipeline.ucRefs τ sig) (W4 m c v) ∗ R c)
        ⊢ ((hseg hostOps2_1 hostOps2_1_sub hostOps2_1_fresh (fun c => W4 m c v)).pre c : sProp 𝕄) from .rfl)
      iexact Hpre
    iexact Hla

/-! ## The arguments end as launched

No host operation writes an argument; the first kernel reads five of them through input windows, whose arrays are never
written back; the second kernel reads one so; the logits array, the one buffer at unnamed contents, is no argument. So
at every `v` the last valuation at an argument's buffer walks back to the launch memory. -/

theorem W5_of_ne (c : Dev nD) (v : Logits (F := F)) (r : Ref sig .tc) (h21 : r ∉ hostOps2_1_W) (h2 : r ∉ hostOps2_W) (h12 : r ≠ main_v12) :
    W5 m c v (Proc.devRef .tc r) = W2 m c (Proc.devRef .tc r) :=
  (StableHlo.after_of_writes_sub hostOps2_1 _ hostOps2_1_writes h21).trans <|
    (StableHlo.after_of_writes_sub hostOps2 _ hostOps2_writes h2).trans (W3_of_ne m c v r h12)

theorem W5_main_arg0 (c : Dev nD) (v : Logits (F := F)) : W5 m c v (Proc.devRef .tc main_arg0) = m ((c : Thread nD τ).loc main_arg0) :=
  (W5_of_ne m c v main_arg0 (by decide) (by decide) (by decide)).trans <| (W2_of_ne m c main_arg0 (by decide)).trans <|
    (StableHlo.after_of_writes_sub hostOps0 _ hostOps0_writes (by decide)).trans rfl
theorem W5_main_arg1 (c : Dev nD) (v : Logits (F := F)) : W5 m c v (Proc.devRef .tc main_arg1) = m ((c : Thread nD τ).loc main_arg1) :=
  (W5_of_ne m c v main_arg1 (by decide) (by decide) (by decide)).trans <| (W2_of_ne m c main_arg1 (by decide)).trans <|
    (StableHlo.after_of_writes_sub hostOps0 _ hostOps0_writes (by decide)).trans rfl
theorem W5_main_arg2 (c : Dev nD) (v : Logits (F := F)) : W5 m c v (Proc.devRef .tc main_arg2) = m ((c : Thread nD τ).loc main_arg2) :=
  (W5_of_ne m c v main_arg2 (by decide) (by decide) (by decide)).trans <| ((W2_arr m c 2).trans (((dat0 (Vr0 m) c).arrAt_in 2 rfl _).trans (A_eq0 (Vr0 m) c 2))).trans <|
    (StableHlo.after_of_writes_sub hostOps0 _ hostOps0_writes (by decide)).trans rfl
theorem W5_main_arg3 (c : Dev nD) (v : Logits (F := F)) : W5 m c v (Proc.devRef .tc main_arg3) = m ((c : Thread nD τ).loc main_arg3) :=
  (W5_of_ne m c v main_arg3 (by decide) (by decide) (by decide)).trans <| (W2_of_ne m c main_arg3 (by decide)).trans <|
    (StableHlo.after_of_writes_sub hostOps0 _ hostOps0_writes (by decide)).trans rfl
theorem W5_main_arg4 (c : Dev nD) (v : Logits (F := F)) : W5 m c v (Proc.devRef .tc main_arg4) = m ((c : Thread nD τ).loc main_arg4) :=
  (W5_of_ne m c v main_arg4 (by decide) (by decide) (by decide)).trans <| ((W2_arr m c 3).trans (((dat0 (Vr0 m) c).arrAt_in 3 rfl _).trans (A_eq0 (Vr0 m) c 3))).trans <|
    (StableHlo.after_of_writes_sub hostOps0 _ hostOps0_writes (by decide)).trans rfl
theorem W5_main_arg5 (c : Dev nD) (v : Logits (F := F)) : W5 m c v (Proc.devRef .tc main_arg5) = m ((c : Thread nD τ).loc main_arg5) :=
  (W5_of_ne m c v main_arg5 (by decide) (by decide) (by decide)).trans <| (W2_of_ne m c main_arg5 (by decide)).trans <|
    (StableHlo.after_of_writes_sub hostOps0 _ hostOps0_writes (by decide)).trans rfl
theorem W5_main_arg6 (c : Dev nD) (v : Logits (F := F)) : W5 m c v (Proc.devRef .tc main_arg6) = m ((c : Thread nD τ).loc main_arg6) :=
  (W5_of_ne m c v main_arg6 (by decide) (by decide) (by decide)).trans <| ((W2_arr m c 5).trans (((dat0 (Vr0 m) c).arrAt_in 5 rfl _).trans (A_eq0 (Vr0 m) c 5))).trans <|
    (StableHlo.after_of_writes_sub hostOps0 _ hostOps0_writes (by decide)).trans rfl
theorem W5_main_arg7 (c : Dev nD) (v : Logits (F := F)) : W5 m c v (Proc.devRef .tc main_arg7) = m ((c : Thread nD τ).loc main_arg7) :=
  (W5_of_ne m c v main_arg7 (by decide) (by decide) (by decide)).trans <| (W2_of_ne m c main_arg7 (by decide)).trans <|
    (StableHlo.after_of_writes_sub hostOps0 _ hostOps0_writes (by decide)).trans rfl
theorem W5_main_arg8 (c : Dev nD) (v : Logits (F := F)) : W5 m c v (Proc.devRef .tc main_arg8) = m ((c : Thread nD τ).loc main_arg8) :=
  (W5_of_ne m c v main_arg8 (by decide) (by decide) (by decide)).trans <| ((W2_arr m c 7).trans (((dat0 (Vr0 m) c).arrAt_in 7 rfl _).trans (A_eq0 (Vr0 m) c 7))).trans <|
    (StableHlo.after_of_writes_sub hostOps0 _ hostOps0_writes (by decide)).trans rfl
theorem W5_main_arg9 (c : Dev nD) (v : Logits (F := F)) : W5 m c v (Proc.devRef .tc main_arg9) = m ((c : Thread nD τ).loc main_arg9) :=
  (W5_of_ne m c v main_arg9 (by decide) (by decide) (by decide)).trans <| ((W2_arr m c 8).trans (((dat0 (Vr0 m) c).arrAt_in 8 rfl _).trans (A_eq0 (Vr0 m) c 8))).trans <|
    (StableHlo.after_of_writes_sub hostOps0 _ hostOps0_writes (by decide)).trans rfl
theorem W5_main_arg10 (c : Dev nD) (v : Logits (F := F)) : W5 m c v (Proc.devRef .tc main_arg10) = m ((c : Thread nD τ).loc main_arg10) :=
  (W5_of_ne m c v main_arg10 (by decide) (by decide) (by decide)).trans <| (W2_of_ne m c main_arg10 (by decide)).trans <|
    (StableHlo.after_of_writes_sub hostOps0 _ hostOps0_writes (by decide)).trans rfl
theorem W5_main_arg11 (c : Dev nD) (v : Logits (F := F)) : W5 m c v (Proc.devRef .tc main_arg11) = m ((c : Thread nD τ).loc main_arg11) :=
  (W5_of_ne m c v main_arg11 (by decide) (by decide) (by decide)).trans <| (W2_of_ne m c main_arg11 (by decide)).trans <|
    (StableHlo.after_of_writes_sub hostOps0 _ hostOps0_writes (by decide)).trans rfl
theorem W5_main_arg12 (c : Dev nD) (v : Logits (F := F)) : W5 m c v (Proc.devRef .tc main_arg12) = m ((c : Thread nD τ).loc main_arg12) :=
  (W5_of_ne m c v main_arg12 (by decide) (by decide) (by decide)).trans <| (W2_of_ne m c main_arg12 (by decide)).trans <|
    (StableHlo.after_of_writes_sub hostOps0 _ hostOps0_writes (by decide)).trans rfl
theorem W5_main_arg13 (c : Dev nD) (v : Logits (F := F)) : W5 m c v (Proc.devRef .tc main_arg13) = m ((c : Thread nD τ).loc main_arg13) :=
  (W5_of_ne m c v main_arg13 (by decide) (by decide) (by decide)).trans <| (W2_of_ne m c main_arg13 (by decide)).trans <|
    (StableHlo.after_of_writes_sub hostOps0 _ hostOps0_writes (by decide)).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## @main as segments, and the launch -/

/-- The last thread state without the dues: every unscoped buffer at the last valuation, at SOME contents `v` of the logits
    array after the second kernel; the generator register at some state. -/
abbrev Tₙ (c : Dev nD) : sProp 𝕄 :=
  iprop(∃ v : Logits (F := F), StableHlo.held (c : Thread nD τ) (Pipeline.ucRefs τ sig) (W5 m c v) ∗ ∃ r, prngReg c r)

/-- The last segment's thread state, regrouped: the dues beside the rest. -/
theorem hlast (c : Dev nD) :
    (iprop(∃ v : Logits (F := F), StableHlo.held (c : Thread nD τ) (Pipeline.ucRefs τ sig) (W5 m c v) ∗ R c) : sProp 𝕄)
      ⊢ iprop(Tₙ m c ∗ ∃ W, owes (c : Thread nD τ) (0 : CellTallies nD τ sig Unit) W) := by
  iintro ⟨%v, Hh, Hp, HO⟩
  isplitr [HO]
  · iexists v; isplitl [Hh]; · iexact Hh
    iexact Hp
  iexact HO

/-- @main's five segments in order. -/
abbrev segs : List (Pipeline.RDat.Seg (pcfgs (F := F)) adm (rdats m) () defs₀ 𝒱₀ L lv) :=
  [ .host (hseg hostOps0 hostOps0_sub hostOps0_fresh (W0 m)),
    .region (reg0 m),
    .region (reg1 m),
    .host (seg2 m),
    .host (seg3 m) ]

/-- @main is the run of the segments. -/
theorem main_run (c : Dev nD) : main (F := F) c = Pipeline.RDat.Seg.run (segs m) := (main_chain c).trans (by chain_rfl)

set_option backward.isDefEq.respectTransparency.types false in
/-- From any memory with zero counters every weakly fair execution of the kernel program terminates, nothing faulting,
    and every argument array ends holding what it held at launch — at any float values. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ v : Logits (F := F), ∀ b ∈ Pipeline.ucRefs τ sig, s.mem (((c : Thread nD τ)).1, b) = W5 m c v b)
    (hfin := fun c s' => by
      iintro ⟨⟨%v, Hh, -⟩, HSI⟩
      unfold StableHlo.held
      ihave Hr := (pointsTo_read_all (Pipeline.ucRefs τ sig) (fun b => (((c : Thread nD τ)).1, b)) (W5 m c v) s') $$ [Hh HSI]
      · isplitl [Hh] <;> iassumption
      icases Hr with ⟨%h, HSI⟩
      imodintro
      isplitr
      · ipureintro; exact ⟨v, h⟩
      · iexact HSI)
    (hQ := fun s h c => by
      obtain ⟨v, hv⟩ := h c
      exact ⟨(hv _ (mem_uc main_arg0 (by decide))).trans (W5_main_arg0 m c v),
        (hv _ (mem_uc main_arg1 (by decide))).trans (W5_main_arg1 m c v),
        (hv _ (mem_uc main_arg2 (by decide))).trans (W5_main_arg2 m c v),
        (hv _ (mem_uc main_arg3 (by decide))).trans (W5_main_arg3 m c v),
        (hv _ (mem_uc main_arg4 (by decide))).trans (W5_main_arg4 m c v),
        (hv _ (mem_uc main_arg5 (by decide))).trans (W5_main_arg5 m c v),
        (hv _ (mem_uc main_arg6 (by decide))).trans (W5_main_arg6 m c v),
        (hv _ (mem_uc main_arg7 (by decide))).trans (W5_main_arg7 m c v),
        (hv _ (mem_uc main_arg8 (by decide))).trans (W5_main_arg8 m c v),
        (hv _ (mem_uc main_arg9 (by decide))).trans (W5_main_arg9 m c v),
        (hv _ (mem_uc main_arg10 (by decide))).trans (W5_main_arg10 m c v),
        (hv _ (mem_uc main_arg11 (by decide))).trans (W5_main_arg11 m c v),
        (hv _ (mem_uc main_arg12 (by decide))).trans (W5_main_arg12 m c v),
        (hv _ (mem_uc main_arg13 (by decide))).trans (W5_main_arg13 m c v)⟩)

/-- The word-level instance. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame m ρ

end Cert.Kernel.Hand

namespace Cert.Proof

/-- The word-level program's frame claim. -/
theorem frame_kernel : Cert.frame_Kernel := fun m ρ _ => Cert.Kernel.Hand.frame_bits m ρ

end Cert.Proof

end
-- ==== Proof.KI.R0.lean ====
/-
  The attention-and-GRU kernel (the first pallas_call, one grid point, thirteen windows each a whole array): what it
  leaves in its two result buffers as functions of its eleven operand arrays, the pipeline's proof data over those
  functions, and the body's obligation. The new hidden state is
  (1 - z) * n + z * h with r = logistic(gi_r + gh_r), z = logistic(gi_z + gh_z), n = tanh(gi_n + r * gh_n), the gates'
  pre-activations matrix products of relu(combine) and of h with the three row blocks of W_ih and W_hh; the attention
  weights are exp(l - max l) / sum exp(l - max l) of the logits l = e * W[:, :1024]^T + h * W[:, 1024:]^T + b.
-/
import proofs.«414457_j10170482557153_3_alg».proof.Proof.Gen.KernelIdeal.Launch
import proofs.«414457_j10170482557153_3_alg».proof.Proof.Gen.KernelIdeal.Skeleton
import proofs.«414457_j10170482557153_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the arrays' contents when the region is entered: the parameter the region's half is stated at
variable (V : (c : Dev nD) → (b : Ref sig .tc) → Buf (Elt F) ((c : Thread nD τ).loc b))

/-! ## The body's loads: the rectangles it reads its operands through -/

abbrev rRow : Rect S1x1024 := Rect.unit (s := S1x1024) ![0, 0] S1x1024.size inb_S1x1024_S1x1024_0_0
abbrev rAttnLo : Rect S512x2048 := Rect.unit (s := S512x2048) ![0, 0] S512x1024.size inb_S512x2048_S512x1024_0_0
abbrev rAttnHi : Rect S512x2048 := Rect.unit (s := S512x2048) ![0, 1024] S512x1024.size inb_S512x2048_S512x1024_0_1024
abbrev rAttnB : Rect S1x512 := Rect.unit (s := S1x512) ![0, 0] S1x512.size inb_S1x512_S1x512_0_0
abbrev rEnc : Rect S512x1024 := Rect.unit (s := S512x1024) ![0, 0] S512x1024.size inb_S512x1024_S512x1024_0_0
abbrev rCombLo : Rect S1024x2048 := Rect.unit (s := S1024x2048) ![0, 0] S1024x1024.size inb_S1024x2048_S1024x1024_0_0
abbrev rCombHi : Rect S1024x2048 := Rect.unit (s := S1024x2048) ![0, 1024] S1024x1024.size inb_S1024x2048_S1024x1024_0_1024
abbrev rGate0 : Rect S3072x1024 := Rect.unit (s := S3072x1024) ![0, 0] S1024x1024.size inb_S3072x1024_S1024x1024_0_0
abbrev rGate1 : Rect S3072x1024 := Rect.unit (s := S3072x1024) ![1024, 0] S1024x1024.size inb_S3072x1024_S1024x1024_1024_0
abbrev rGate2 : Rect S3072x1024 := Rect.unit (s := S3072x1024) ![2048, 0] S1024x1024.size inb_S3072x1024_S1024x1024_2048_0
abbrev rBias0 : Rect S1x3072 := Rect.unit (s := S1x3072) ![0, 0] S1x1024.size inb_S1x3072_S1x1024_0_0
abbrev rBias1 : Rect S1x3072 := Rect.unit (s := S1x3072) ![0, 1024] S1x1024.size inb_S1x3072_S1x1024_0_1024
abbrev rBias2 : Rect S1x3072 := Rect.unit (s := S1x3072) ![0, 2048] S1x1024.size inb_S1x3072_S1x1024_0_2048

/-! ## What the body computes, from its operand arrays -/

/-- The attention weights: the softmax of the logits, from the embedded row `e`, the hidden row `h`, the attention
    matrix and its bias. -/
def attnOf (e h : Vec F S1x1024 .f32) (aW : Vec F S512x2048 .f32) (ab : Vec F S1x512 .f32) : FVec F S1x512 .f32 :=
  k0_pay5 (View.ld e rRow) (View.ld h rRow) (View.ld aW rAttnLo) (View.ld aW rAttnHi) (View.ld ab rAttnB)

/-- The attention applied to the encoder outputs, as the matrix unit's operand. -/
def appliedOf (e h : Vec F S1x1024 .f32) (enc : Vec F S512x1024 .f32) (aW : Vec F S512x2048 .f32) (ab : Vec F S1x512 .f32) :
    FVec F S1x1024 .bf16 :=
  k0_pay6 (View.ld e rRow) (View.ld h rRow) (View.ld aW rAttnLo) (View.ld aW rAttnHi) (View.ld ab rAttnB) (View.ld enc rEnc)

/-- The GRU's input relu(combine), as the matrix unit's operand. -/
def gruInOf (e h : Vec F S1x1024 .f32) (enc : Vec F S512x1024 .f32) (aW : Vec F S512x2048 .f32) (ab : Vec F S1x512 .f32)
    (cW : Vec F S1024x2048 .f32) (cb : Vec F S1x1024 .f32) : FVec F S1x1024 .bf16 :=
  k0_pay9 (k0_pay3 (View.ld e rRow)) (appliedOf e h enc aW ab) (k0_pay7 (View.ld cW rCombLo)) (k0_pay8 (View.ld cW rCombHi))
    (constant S1x1024 .f32 0x00000000#32) (View.ld cb rRow)

/-- The new hidden state. -/
def hnewOf (e h : Vec F S1x1024 .f32) (enc : Vec F S512x1024 .f32) (aW : Vec F S512x2048 .f32) (ab : Vec F S1x512 .f32)
    (cW : Vec F S1024x2048 .f32) (cb : Vec F S1x1024 .f32) (Wih Whh : Vec F S3072x1024 .f32) (bih bhh : Vec F S1x3072 .f32) :
    FVec F S1x1024 .f32 :=
  k0_pay1 (k0_pay2 (View.ld h rRow)) (k0_pay4 (View.ld h rRow)) (gruInOf e h enc aW ab cW cb)
    (k0_pay10 (k0_pay3 (View.ld e rRow)) (appliedOf e h enc aW ab) (k0_pay7 (View.ld cW rCombLo)) (k0_pay8 (View.ld cW rCombHi))
      (constant S1x1024 .f32 0x00000000#32) (View.ld cb rRow) (View.ld Wih rGate0) (View.ld bih rBias0))
    (k0_pay11 (k0_pay4 (View.ld h rRow)) (View.ld Whh rGate0) (View.ld bhh rBias0))
    (k0_pay12 (k0_pay3 (View.ld e rRow)) (appliedOf e h enc aW ab) (k0_pay7 (View.ld cW rCombLo)) (k0_pay8 (View.ld cW rCombHi))
      (constant S1x1024 .f32 0x00000000#32) (View.ld cb rRow) (View.ld Wih rGate1) (View.ld bih rBias1))
    (k0_pay13 (k0_pay4 (View.ld h rRow)) (View.ld Whh rGate1) (View.ld bhh rBias1))
    (View.ld Wih rGate2) (View.ld Whh rGate2) (View.ld bih rBias2) (View.ld bhh rBias2)

/-- What the body leaves in the new hidden state's buffer: its one whole store. -/
def out0_11 (e h : Vec F S1x1024 .f32) (enc : Vec F S512x1024 .f32) (aW : Vec F S512x2048 .f32) (ab : Vec F S1x512 .f32)
    (cW : Vec F S1024x2048 .f32) (cb : Vec F S1x1024 .f32) (Wih Whh : Vec F S3072x1024 .f32) (bih bhh : Vec F S1x3072 .f32) :
    Vec F S1x1024 .f32 :=
  View.canon [⟨rRow, hnewOf e h enc aW ab cW cb Wih Whh bih bhh⟩]

/-- What the body leaves in the attention weights' buffer: its one whole store. -/
def out0_12 (e h : Vec F S1x1024 .f32) (aW : Vec F S512x2048 .f32) (ab : Vec F S1x512 .f32) : Vec F S1x512 .f32 :=
  View.canon [⟨rAttnB, attnOf e h aW ab⟩]

/-- The origin of a rank-two array, as the constant-zero offset. -/
theorem origin2 : (![0, 0] : Fin 2 → Nat) = fun _ => 0 := funext fun a => by fin_cases a <;> rfl

/-- A whole store leaves its payload. -/
theorem out0_11_eq (e h : Vec F S1x1024 .f32) (enc : Vec F S512x1024 .f32) (aW : Vec F S512x2048 .f32) (ab : Vec F S1x512 .f32)
    (cW : Vec F S1024x2048 .f32) (cb : Vec F S1x1024 .f32) (Wih Whh : Vec F S3072x1024 .f32) (bih bhh : Vec F S1x3072 .f32) :
    out0_11 e h enc aW ab cW cb Wih Whh bih bhh = hnewOf e h enc aW ab cW cb Wih Whh bih bhh := by
  unfold out0_11
  exact View.canon_unit_zero (Val := Elt F) origin2 inb_S1x1024_S1x1024_0_0 _

theorem out0_12_eq (e h : Vec F S1x1024 .f32) (aW : Vec F S512x2048 .f32) (ab : Vec F S1x512 .f32) :
    out0_12 e h aW ab = attnOf e h aW ab := by
  unfold out0_12
  exact View.canon_unit_zero (Val := Elt F) origin2 inb_S1x512_S1x512_0_0 _

/-! ## The windows' blocks and the proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body each operand's buffer at its block and the
    two results' at the functions above of the operand blocks; the scoped rest and the generator register as the
    invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t)
    | ⟨12, _⟩ => out0_12 (iblk0 V c 0 t) (iblk0 V c 1 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- An operand's buffer is left as found: its block. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
/-- The two results' buffers are left at the functions above of the operand blocks. -/
theorem after0_11 (c : Dev nD) (t : Fin cfg0.N) : (dat0 V c).after 11 t
    = out0_11 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) := by dsimp only [dat0]
theorem after0_12 (c : Dev nD) (t : Fin cfg0.N) : (dat0 V c).after 12 t
    = out0_12 (iblk0 V c 0 t) (iblk0 V c 1 t) (iblk0 V c 3 t) (iblk0 V c 4 t) := by dsimp only [dat0]

/-! ## What the body finds in each operand's buffer: the operand's block, fetched at the point or not -/

/-- The buffer of the embedded row holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The buffer of the hidden row holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The buffer of the encoder outputs holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- The buffer of the attention matrix holds its block at every point. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- The buffer of the attention bias holds its block at every point. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- The buffer of the combine matrix holds its block at every point. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- The buffer of the combine bias holds its block at every point. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- The buffer of the input-gate matrix W_ih holds its block at every point. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-- The buffer of the hidden-gate matrix W_hh holds its block at every point. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-- The buffer of the input-gate bias b_ih holds its block at every point. -/
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)

/-- The buffer of the hidden-gate bias b_hh holds its block at every point. -/
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)

/-! ## The two results' stores cover their buffers -/

/-- One store of a whole row covers the new hidden state's buffer. -/
theorem cover0_11 (p : Vec F S1x1024 .f32) (y : S1x1024.Idx) :
    ∃ pc ∈ ([⟨rRow, p⟩] : List (View.Piece (Elt F) S1x1024 .f32)), y ∈ pc.1.set :=
  View.cover_of_tiled [⟨rRow, p⟩] S1x1024.size (by rfl) y

/-- One store of a whole row covers the attention weights' buffer. -/
theorem cover0_12 (p : Vec F S1x512 .f32) (y : S1x512.Idx) :
    ∃ pc ∈ ([⟨rAttnB, p⟩] : List (View.Piece (Elt F) S1x512 .f32)), y ∈ pc.1.set :=
  View.cover_of_tiled [⟨rAttnB, p⟩] S1x512.size (by rfl) y

/-! ## The body's triple -/

set_option maxHeartbeats 1000000 in
/-- The body on whole buffers, the eleven operands' at their contents and the two results' at anything, runs to the
    continuation holding the operands' as they were, the new hidden state's at `out0_11` and the attention weights' at
    `out0_12` of the operands: every load reads its operand through its rectangle, the two dead loads of the results'
    buffers are dropped, and each result's one store covers its buffer. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S3072x1024 .f32) (harg8 : arg8.IsWhole) (arg9 : Memref sig .tc .vmem S3072x1024 .f32) (harg9 : arg9.IsWhole) (arg10 : Memref sig .tc .vmem S1x3072 .f32) (harg10 : arg10.IsWhole) (arg11 : Memref sig .tc .vmem S1x3072 .f32) (harg11 : arg11.IsWhole) (arg12 : Memref sig .tc .vmem S1x1024 .f32) (harg12 : arg12.IsWhole) (arg13 : Memref sig .tc .vmem S1x512 .f32) (harg13 : arg13.IsWhole)
    (e : Vec F S1x1024 .f32) (h : Vec F S1x1024 .f32) (enc : Vec F S512x1024 .f32) (aW : Vec F S512x2048 .f32) (ab : Vec F S1x512 .f32) (cW : Vec F S1024x2048 .f32) (cb : Vec F S1x1024 .f32) (Wih : Vec F S3072x1024 .f32) (Whh : Vec F S3072x1024 .f32) (bih : Vec F S1x3072 .f32) (bhh : Vec F S1x3072 .f32) (K : PUnit → sProp 𝕄) :
    iprop(owns (c : Thread nD τ) arg1 fullShare e ∗ owns (c : Thread nD τ) arg2 fullShare h ∗ owns (c : Thread nD τ) arg3 fullShare enc ∗ owns (c : Thread nD τ) arg4 fullShare aW ∗ owns (c : Thread nD τ) arg5 fullShare ab ∗ owns (c : Thread nD τ) arg6 fullShare cW ∗ owns (c : Thread nD τ) arg7 fullShare cb ∗ owns (c : Thread nD τ) arg8 fullShare Wih ∗ owns (c : Thread nD τ) arg9 fullShare Whh ∗ owns (c : Thread nD τ) arg10 fullShare bih ∗ owns (c : Thread nD τ) arg11 fullShare bhh ∗ (∃ d, owns (c : Thread nD τ) arg12 fullShare d) ∗ (∃ d, owns (c : Thread nD τ) arg13 fullShare d)
        ∗ (iprop(owns (c : Thread nD τ) arg1 fullShare e ∗ owns (c : Thread nD τ) arg2 fullShare h ∗ owns (c : Thread nD τ) arg3 fullShare enc ∗ owns (c : Thread nD τ) arg4 fullShare aW ∗ owns (c : Thread nD τ) arg5 fullShare ab ∗ owns (c : Thread nD τ) arg6 fullShare cW ∗ owns (c : Thread nD τ) arg7 fullShare cb ∗ owns (c : Thread nD τ) arg8 fullShare Wih ∗ owns (c : Thread nD τ) arg9 fullShare Whh ∗ owns (c : Thread nD τ) arg10 fullShare bih ∗ owns (c : Thread nD τ) arg11 fullShare bhh ∗ owns (c : Thread nD τ) arg12 fullShare (out0_11 e h enc aW ab cW cb Wih Whh bih bhh) ∗ owns (c : Thread nD τ) arg13 fullShare (out0_12 e h aW ab)) -∗ K ⟨⟩))
      ⊢ wp frame (wpE (defs₀ (F := F)) Variants.none c none) E (cc0__attn_gru_kernel i arg1 harg1 arg2 harg2 arg3 harg3 arg4 harg4 arg5 harg5 arg6 harg6 arg7 harg7 arg8 harg8 arg9 harg9 arg10 harg10 arg11 harg11 arg12 harg12 arg13 harg13) K := by
  simp only [cc0__attn_gru_kernel_eq_skeleton]; unfold cc0__attn_gru_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The body's obligation, at a generic point -/

/-- What the body is called with at point `t`: the invariant, the core's dues, and the thirteen windows' buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the operands' buffers hold their blocks, so the body's triple applies at the operand
    blocks; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body's obligation at every point: each operand's buffer holds its block, the body's loads, arithmetic and two
    whole stores leave the results' buffers at the functions above, the invariant and the core's dues pass through. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The vocabulary-projection kernel (the second pallas_call, sixteen grid points): tile t of the logits is
  h_new * out_W[3200 t .. 3200 t + 3199, :]^T + out_b[3200 t ..], each entry a sum over the 1024 hidden coordinates of one
  ROW of the out_W tile. The last tile overhangs the 50257 vocabulary rows by 943: the rows and bias entries past the
  end are words nothing names, and since entry j of a tile reads only row j of the matrix tile and entry j of the bias
  tile, the entries of the tile inside the array do not depend on them (at the exact reals; at the word level the matrix
  unit's product is not read entry by entry, so there the tile's contents are left unnamed).
-/
import proofs.«414457_j10170482557153_3_alg».proof.Proof.KI.R0
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx (ix2)

variable (V : (c : Dev nD) → (b : Ref sig .tc) → Buf (Elt F) ((c : Thread nD τ).loc b))

abbrev r1W : Rect S3200x1024 := Rect.unit (s := S3200x1024) ![0, 0] S3200x1024.size inb_S3200x1024_S3200x1024_0_0
abbrev r1B : Rect S1x3200 := Rect.unit (s := S1x3200) ![0, 0] S1x3200.size inb_S1x3200_S1x3200_0_0

/-- One tile of the logits from the hidden row, the matrix tile and the bias tile held in the staging buffers. -/
def logitsTileOf (h : Vec F S1x1024 .f32) (W : Vec F S3200x1024 .f32) (b : Vec F S1x3200 .f32) : FVec F S1x3200 .f32 :=
  k1_pay1 (View.ld h rRow) (View.ld W r1W) (View.ld b r1B)

/-- What the body leaves in the tile's buffer: its one whole store. -/
def out1_3 (h : Vec F S1x1024 .f32) (W : Vec F S3200x1024 .f32) (b : Vec F S1x3200 .f32) : Vec F S1x3200 .f32 :=
  View.canon [⟨r1B, logitsTileOf h W b⟩]

/-- The two zero offsets, however spelt. -/
theorem r1_zeros2 : (![0, 0] : Fin 2 → Nat) = fun _ => 0 := funext fun a => by fin_cases a <;> rfl

theorem out1_3_eq (h : Vec F S1x1024 .f32) (W : Vec F S3200x1024 .f32) (b : Vec F S1x3200 .f32) :
    out1_3 h W b = logitsTileOf h W b := by
  unfold out1_3
  generalize logitsTileOf h W b = w
  exact View.canon_unit_zero (Val := Elt F) (S := S1x3200) (e := .f32) r1_zeros2 inb_S1x3200_S1x3200_0_0 w

/-- The product's operand indices at output index i and contraction index q, axis by axis: the hidden row is read at
    (i 0, q), the matrix tile at (i 1, q). -/
theorem lhs_k1_0 (i : S1x3200.Idx) (q : dot_S1x1024_S3200x1024_S1x3200_1_1_0_0_n_n.contr.Idx) :
    (dot_S1x1024_S3200x1024_S1x3200_1_1_0_0_n_n.lhsIdx i q 0).val = (i 0).val := by
  unfold DotDims.lhsIdx
  rw [dif_neg (show ¬(0 : Fin S1x1024.rank) ∈ dot_S1x1024_S3200x1024_S1x3200_1_1_0_0_n_n.lhsBatch by decide), dif_pos (show (0 : Fin S1x1024.rank) ∈ dot_S1x1024_S3200x1024_S1x3200_1_1_0_0_n_n.lhsNonContracting by decide)]
  rfl
theorem lhs_k1_1 (i : S1x3200.Idx) (q : dot_S1x1024_S3200x1024_S1x3200_1_1_0_0_n_n.contr.Idx) :
    (dot_S1x1024_S3200x1024_S1x3200_1_1_0_0_n_n.lhsIdx i q 1).val = (q ⟨0, by decide⟩).val :=
  dot_S1x1024_S3200x1024_S1x3200_1_1_0_0_n_n.lhsIdx_val_of_single rfl i q
theorem rhs_k1_0 (i : S1x3200.Idx) (q : dot_S1x1024_S3200x1024_S1x3200_1_1_0_0_n_n.contr.Idx) :
    (dot_S1x1024_S3200x1024_S1x3200_1_1_0_0_n_n.rhsIdx i q 0).val = (i 1).val := by
  unfold DotDims.rhsIdx
  rw [dif_neg (show ¬(0 : Fin S3200x1024.rank) ∈ dot_S1x1024_S3200x1024_S1x3200_1_1_0_0_n_n.rhsBatch by decide), dif_pos (show (0 : Fin S3200x1024.rank) ∈ dot_S1x1024_S3200x1024_S1x3200_1_1_0_0_n_n.rhsNonContracting by decide)]
  rfl
theorem rhs_k1_1 (i : S1x3200.Idx) (q : dot_S1x1024_S3200x1024_S1x3200_1_1_0_0_n_n.contr.Idx) :
    (dot_S1x1024_S3200x1024_S1x3200_1_1_0_0_n_n.rhsIdx i q 1).val = (q ⟨0, by decide⟩).val :=
  dot_S1x1024_S3200x1024_S1x3200_1_1_0_0_n_n.rhsIdx_val_of_single rfl i q

/-- Entry j of a tile at the exact reals: the sum over the hidden coordinates of h[k] * W[j, k], plus b[j]. It reads row
    j of the matrix tile and entry j of the bias tile only. -/
theorem logitsTileOf_apply (h : Vec Ideal S1x1024 .f32) (W : Vec Ideal S3200x1024 .f32) (b : Vec Ideal S1x3200 .f32) (j : Fin 3200) :
    logitsTileOf (F := Ideal) h W b (ix2 (0 : Fin 1) j)
      = (∑ k : Fin 1024, (h (ix2 (0 : Fin 1) k) : EReal) * W (ix2 j k)) + b (ix2 (0 : Fin 1) j) := by
  unfold logitsTileOf k1_pay1
  rw [View.ld_unit_zero (S := S1x1024) r1_zeros2 inb_S1x1024_S1x1024_0_0 h,
    View.ld_unit_zero (S := S3200x1024) r1_zeros2 inb_S3200x1024_S3200x1024_0_0 W,
    View.ld_unit_zero (S := S1x3200) r1_zeros2 inb_S1x3200_S1x3200_0_0 b]
  rw [shapeCast_self, shapeCast_self, ValueIdx.addf_apply]
  refine congrArg (· + b (ix2 (0 : Fin 1) j)) ?_
  simp only [matmul]
  rw [Ideal.matmul_constant_zero_apply, ← Equiv.sum_comp (ValueIdx.contrEquiv1 dot_S1x1024_S3200x1024_S1x3200_1_1_0_0_n_n 1024 rfl rfl).symm]
  refine Finset.sum_congr rfl fun k _ => ?_
  rw [ValueIdx.truncf_apply, ValueIdx.truncf_apply]
  have hk := ValueIdx.contrEquiv1_symm_val dot_S1x1024_S3200x1024_S1x3200_1_1_0_0_n_n 1024 rfl rfl k
  have el : dot_S1x1024_S3200x1024_S1x3200_1_1_0_0_n_n.lhsIdx (ix2 (0 : Fin 1) j) ((ValueIdx.contrEquiv1 dot_S1x1024_S3200x1024_S1x3200_1_1_0_0_n_n 1024 rfl rfl).symm k) = ix2 (0 : Fin 1) k := funext fun a => Fin.ext (by
    match a with
    | ⟨0, _⟩ => exact lhs_k1_0 _ _
    | ⟨1, _⟩ => exact (lhs_k1_1 _ _).trans hk)
  have er : dot_S1x1024_S3200x1024_S1x3200_1_1_0_0_n_n.rhsIdx (ix2 (0 : Fin 1) j) ((ValueIdx.contrEquiv1 dot_S1x1024_S3200x1024_S1x3200_1_1_0_0_n_n 1024 rfl rfl).symm k) = ix2 j k := funext fun a => Fin.ext (by
    match a with
    | ⟨0, _⟩ => exact rhs_k1_0 _ _
    | ⟨1, _⟩ => exact (rhs_k1_1 _ _).trans hk)
  rw [el, er]

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix tile and the bias tile filled out to the staging buffers' shapes with the zero word past the array's end. -/
def wblk8 (c : Dev nD) (t : Fin cfg1.N) : S3200x1024.Idx → Elt F .f32 :=
  win1_1.fill (grid1.coords t) (fun _ => Scalar.ofBits .f32 0#32) (iblk1 V c 1 t)
def bblk8 (c : Dev nD) (t : Fin cfg1.N) : S1x3200.Idx → Elt F .f32 :=
  win1_2.fill (grid1.coords t) (fun _ => Scalar.ofBits .f32 0#32) (iblk1 V c 2 t)

/-- The proof data: after the body the hidden row's buffer holds the row, the two tiles' buffers their blocks (stated on
    the part inside the arrays), the logits tile's the tile computed from them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => wblk8 V c t
    | ⟨2, _⟩ => bblk8 V c t
    | ⟨3, _⟩ => out1_3 (iblk1 V c 0 t) (wblk8 V c t) (bblk8 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = wblk8 V c t := by dsimp only [dat1]
theorem after1_2 (c : Dev nD) (t : Fin cfg1.N) : (dat1 V c).after 2 t = bblk8 V c t := by dsimp only [dat1]
theorem after1_3 (c : Dev nD) (t : Fin cfg1.N) : (dat1 V c).after 3 t = out1_3 (iblk1 V c 0 t) (wblk8 V c t) (bblk8 V c t) := by
  dsimp only [dat1]

/-- The windows the word-level frame says nothing of: the two tiles and the logits tile. -/
abbrev fgt1 : Fin cfg1.W → Bool := fun | ⟨0, _⟩ => false | ⟨1, _⟩ => true | ⟨2, _⟩ => true | ⟨3, _⟩ => true | ⟨_ + 4, h⟩ => absurd h (Nat.not_lt.2 (Nat.le_add_left _ _))

/-- The hidden row's buffer holds the row at every point, fetched there (the first point) or not (the block index
    does not move, the window is uncut and never idle, and the body leaves the row in place). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The one store covers the tile's buffer. -/
theorem cover1_3 (p0 : Vec F S1x3200 .f32) (y : S1x3200.Idx) :
    ∃ pc ∈ ([⟨r1B, p0⟩] : List (View.Piece (Elt F) S1x3200 .f32)), y ∈ pc.1.set :=
  ⟨_, List.mem_singleton_self _, View.mem_set_unit_zero (S := S1x3200) r1_zeros2 inb_S1x3200_S1x3200_0_0 y⟩

set_option maxHeartbeats 1000000 in
/-- The body on whole staging memrefs, the three operands' at contents x0, x1, x2 and the tile's at anything: three
    whole loads, a load of the tile's buffer nothing reads, one whole store; it leaves the operands as they were and
    the tile's buffer at the tile computed from them. -/
theorem sound_kernel1 (c : Dev nD) (E : Set ℕ) (i : grid1.Coords)
    (arg1 : Memref sig .tc .vmem S1x1024 .f32) (harg1 : arg1.IsWhole) (arg2 : Memref sig .tc .vmem S3200x1024 .f32) (harg2 : arg2.IsWhole)
    (arg3 : Memref sig .tc .vmem S1x3200 .f32) (harg3 : arg3.IsWhole) (arg4 : Memref sig .tc .vmem S1x3200 .f32) (harg4 : arg4.IsWhole)
    (x0 : Vec F S1x1024 .f32) (x1 : Vec F S3200x1024 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__out_proj_kernel i arg1 harg1 arg2 harg2 arg3 harg3 arg4 harg4) K := by
  simp only [cc1__out_proj_kernel_eq_skeleton]; unfold cc1__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold out1_3 logitsTileOf
  exact View.read_writes_eq_canon _ _ _ (cover1_3 _)

/-- What the body is called with at point t when the tiles are forgotten, -/
def bodyPre1f (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ X, owns (c : Thread nD τ) (st1_1 t) fullShare X)
    ∗ (∃ X, owns (c : Thread nD τ) (st1_2 t) fullShare X)
    ∗ (∃ X, owns (c : Thread nD τ) (st1_3 t) fullShare X))

/-- and what it returns. -/
def bodyPost1f (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ X, owns (c : Thread nD τ) (st1_1 t) fullShare X)
    ∗ (∃ X, owns (c : Thread nD τ) (st1_2 t) fullShare X)
    ∗ (∃ X, owns (c : Thread nD τ) (st1_3 t) fullShare X))

/-- The body at any point, the tiles forgotten: the hidden row's buffer holds the row, the other three anything. -/
theorem sound_body1f (c : Dev nD) (t : Fin cfg1.N) :
    bodyPre1f V c t ⊢ wp frame (wpE (defs₀ (F := F)) Variants.none c none) Set.univ (bodyAt1 t) (fun _ => bodyPost1f V c t) := by
  unfold bodyPre1f bodyPost1f bodyAt1
  simp only [before1_0]
  rw [show (dat1 V c).Φ t.succ = (dat1 V c).Φ t.castSucc from rfl,
    show (dat1 V c).owesAt () t.succ = (dat1 V c).owesAt () t.castSucc from rfl, after1_0]
  iintro ⟨HΦ, Ho, ⟨%d0, H0⟩, ⟨%X1, H1⟩, ⟨%X2, H2⟩, ⟨%X3, H3⟩⟩
  iapply (sound_kernel1 c Set.univ _ _ _ _ _ _ _ _ _ (iblk1 V c 0 t) X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists _; iexact H1
  isplitl [H2]; · iexists _; iexact H2
  iexists _; iexact H3

/-- The body's obligation with the tiles forgotten, at any float values: the hidden row's buffer holds the row at every
    point (fetched once, kept since) and is left as found; the other three buffers are taken and given back at
    contents nothing names. -/
theorem body_obligation1_fgt (c : Dev nD) :
    BodyObligationLoose (dat1 (F := F) V c) (defs₀ (F := F)) Variants.none () Set.univ fgt1 := fun t => by
  rw [bigSep_W1, bigSep_W1]
  simp only
  exact sound_body1f V c t

/-! ## Nothing forgotten: what the three cut windows' buffers hold, and the tile inside the array -/

/-- The two tiles' buffers just fetched: the block on the part inside the array, words nothing names elsewhere. -/
theorem before1_1 (c : Dev nD) (t : Fin cfg1.N) (d) :
    (dat1 V c).before 1 t d = win1_1.fill (grid1.coords t) d (iblk1 V c 1 t) := by
  unfold Dat.before; rw [if_pos (fetch1_1 t)]; unfold Dat.fetched Dat.blockOf iblk1; rw [A_eq1]; try rfl
theorem before1_2 (c : Dev nD) (t : Fin cfg1.N) (d) :
    (dat1 V c).before 2 t d = win1_2.fill (grid1.coords t) d (iblk1 V c 2 t) := by
  unfold Dat.before; rw [if_pos (fetch1_2 t)]; unfold Dat.fetched Dat.blockOf iblk1; rw [A_eq1]; try rfl
/-- The logits tile's buffer: written back at every point, so found at contents nothing names. -/
theorem before1_3 (c : Dev nD) (t : Fin cfg1.N) (d) : (dat1 V c).before 3 t d = d :=
  (dat1 V c).before_out_reset 3 rfl t
    (by by_cases h : t.val = 0
        · exact .inl h
        · exact .inr ⟨h, flush1_3 _⟩) d

/-- The extents of the parts inside the arrays: the matrix tile is cut on its rows only, the bias tile on its
    columns only, and the three cuts are one number. -/
theorem xsize1_1_1 (i : grid1.Coords) : win1_1.xsize i 1 = 1024 := rfl
theorem xsize1_2_0 (i : grid1.Coords) : win1_2.xsize i 0 = 1 := rfl
theorem xsize1_3_1_eq_1 (i : grid1.Coords) : win1_3.xsize i 1 = win1_1.xsize i 0 := rfl
theorem xsize1_3_1_eq_2 (i : grid1.Coords) : win1_3.xsize i 1 = win1_2.xsize i 1 := rfl

/-- Inside the array a filled matrix tile is the block, whatever fills the rows past the array's end: -/
theorem fill1_1_inside {α : Type} (i : grid1.Coords) (d d' : S3200x1024.Idx → α) (g : (win1_1.xblock i).Idx → α)
    (j : Fin 3200) (k : Fin 1024) (hj : j.val < win1_1.xsize i 0) :
    win1_1.fill i d g (ix2 j k) = win1_1.fill i d' g (ix2 j k) := by
  have hm : win1_1.moved i (ix2 j k) = true := (win1_1.moved_iff i _).mpr fun a => by
    match a with
    | ⟨0, _⟩ => exact hj
    | ⟨1, _⟩ => exact k.isLt.trans_le (xsize1_1_1 i).ge
  unfold Window.fill; rw [dif_pos hm, dif_pos hm]
/-- and a filled bias tile likewise. -/
theorem fill1_2_inside {α : Type} (i : grid1.Coords) (d d' : S1x3200.Idx → α) (g : (win1_2.xblock i).Idx → α)
    (j : Fin 3200) (hj : j.val < win1_2.xsize i 1) :
    win1_2.fill i d g (ix2 (0 : Fin 1) j) = win1_2.fill i d' g (ix2 (0 : Fin 1) j) := by
  have hm : win1_2.moved i (ix2 (0 : Fin 1) j) = true := (win1_2.moved_iff i _).mpr fun a => by
    match a with
    | ⟨0, _⟩ => exact Nat.lt_of_lt_of_le Nat.zero_lt_one (xsize1_2_0 i).ge
    | ⟨1, _⟩ => exact hj
  unfold Window.fill; rw [dif_pos hm, dif_pos hm]

/-- At the exact reals the part of the logits tile inside the array does not depend on what fills the operand tiles
    past the arrays' ends: entry j reads row j of the matrix tile and entry j of the bias tile. -/
theorem cut_out1_3_congr (i : grid1.Coords) (h : Vec Ideal S1x1024 .f32)
    (Wb : (win1_1.xblock i).Idx → Elt Ideal .f32) (bb : (win1_2.xblock i).Idx → Elt Ideal .f32)
    (d1 d1' : S3200x1024.Idx → Elt Ideal .f32) (d2 d2' : S1x3200.Idx → Elt Ideal .f32) :
    win1_3.cut i (out1_3 (F := Ideal) h (win1_1.fill i d1 Wb : S3200x1024.Idx → Elt Ideal .f32) (win1_2.fill i d2 bb : S1x3200.Idx → Elt Ideal .f32))
      = win1_3.cut i (out1_3 (F := Ideal) h (win1_1.fill i d1' Wb : S3200x1024.Idx → Elt Ideal .f32) (win1_2.fill i d2' bb : S1x3200.Idx → Elt Ideal .f32)) := by
  funext y
  show out1_3 (F := Ideal) h _ _ (win1_3.xinj i y) = out1_3 (F := Ideal) h _ _ (win1_3.xinj i y)
  rw [out1_3_eq, out1_3_eq]
  have hy : ((win1_3.xinj i y) 1).val < win1_3.xsize i 1 := (y 1).isLt
  generalize win1_3.xinj i y = J at hy ⊢
  obtain ⟨a, j, rfl⟩ : ∃ (a : Fin 1) (j : Fin 3200), J = ix2 a j := ⟨J 0, J 1, ValueIdx.eq_ix2 J⟩
  obtain rfl : a = 0 := Subsingleton.elim _ _
  have hj : j.val < win1_3.xsize i 1 := hy
  rw [logitsTileOf_apply, logitsTileOf_apply]
  have hW : ∀ k : Fin 1024, (win1_1.fill i d1 Wb : S3200x1024.Idx → Elt Ideal .f32) (ix2 j k)
      = (win1_1.fill i d1' Wb : S3200x1024.Idx → Elt Ideal .f32) (ix2 j k) := fun k =>
    fill1_1_inside i d1 d1' Wb j k (by rw [← xsize1_3_1_eq_1]; exact hj)
  have hb : (win1_2.fill i d2 bb : S1x3200.Idx → Elt Ideal .f32) (ix2 (0 : Fin 1) j)
      = (win1_2.fill i d2' bb : S1x3200.Idx → Elt Ideal .f32) (ix2 (0 : Fin 1) j) :=
    fill1_2_inside i d2 d2' bb j (by rw [← xsize1_3_1_eq_2]; exact hj)
  rw [hb]
  exact congrArg (· + _) (Finset.sum_congr rfl fun k _ => by rw [hW k])

/-- What the body is called with at point t, nothing forgotten, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the hidden row's buffer as found, the three cut windows' stated on the part inside the
    arrays. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

end Cert.KernelIdeal.Hand

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The body at any point at the exact reals: the operand tiles' buffers hold their blocks filled out with words
    nothing names; the body leaves them so and the logits tile's buffer at the tile computed from them, whose part
    inside the array is that of the tile computed from the zero-filled blocks. -/
theorem sound_body1 (V : (c : Dev nD) → (b : Ref sig .tc) → Buf (Elt Ideal) ((c : Thread nD τ).loc b)) (c : Dev nD) (t : Fin cfg1.N) :
    bodyPre1 (F := Ideal) V c t ⊢ wp frame (wpE (defs₀ (F := Ideal)) Variants.none c none) Set.univ (bodyAt1 t)
      (fun _ => bodyPost1 (F := Ideal) V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (win1_1.fill (grid1.coords t) d1 (iblk1 V c 1 t))
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; unfold wblk8; rw [win1_1.cut_fill]; iexact H1
  isplitl [H2]
  · iexists d2; unfold bblk8; rw [win1_2.cut_fill]; iexact H2
  iexists (out1_3 (F := Ideal) (iblk1 V c 0 t) (win1_1.fill (grid1.coords t) d1 (iblk1 V c 1 t) : S3200x1024.Idx → Elt Ideal .f32)
    (win1_2.fill (grid1.coords t) d2 (iblk1 V c 2 t) : S1x3200.Idx → Elt Ideal .f32))
  unfold wblk8 bblk8
  rw [win1_3.fill_congr_cut (grid1.coords t) (cut_out1_3_congr (grid1.coords t) (iblk1 V c 0 t) (iblk1 V c 1 t) (iblk1 V c 2 t) d1 _ d2 _)]
  iexact H3

/-- The body's obligation at the exact reals, nothing forgotten: the tile's entries inside the array are those of the
    tile computed from the zero-filled blocks, whatever the words past the arrays' ends (`logitsTileOf_apply`). -/
theorem body_obligation1 (V : (c : Dev nD) → (b : Ref sig .tc) → Buf (Elt Ideal) ((c : Thread nD τ).loc b)) (c : Dev nD) :
    BodyObligationLoose (dat1 (F := Ideal) V c) (defs₀ (F := Ideal)) Variants.none () Set.univ := fun t => by
  rw [bigSep_W1, bigSep_W1]
  simp only
  exact sound_body1 V c t

end Cert.KernelIdeal.Hand

end
-- ==== Proof.KI.Fold.lean ====
/-
  The buffers' contents at every boundary of the program, as a fold from the launch memory: the first line of host
  operations (the index made non-negative, the embedding row sliced out, the reshapes), then the first kernel's two
  result arrays at what its one write-back leaves, then the second kernel's logits array at what its sixteen
  write-backs leave, then log_softmax's operations, then the hidden state's broadcast. And the host line's values as
  functions of the arguments.
-/
import proofs.«414457_j10170482557153_3_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host line (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- At the second kernel's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
/-- After log_softmax's operations, and after the closing broadcast. -/
abbrev W4 : Dev nD → Valuation τ sig (Elt F) := fun c => StableHlo.after hostOps2 (W3 m c)
abbrev W5 : Dev nD → Valuation τ sig (Elt F) := fun c => StableHlo.after hostOps2_1 (W4 m c)

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The first host line's values, as functions of the arguments -/

/-- The token index made non-negative: a negative index counts from the table's end. -/
def kIdx (x0 : (⟨S1x1, .i32⟩ : BufTy).Contents (Elt F)) : (⟨S_, .i32⟩ : BufTy).Contents (Elt F) :=
  select (cmpi .slt (shapeCast _ x0 shapeCasts_S1x1_S_) (constantI S_ 32 0#32))
    (addi (shapeCast _ x0 shapeCasts_S1x1_S_) (constantI S_ 32 50257#32)) (shapeCast _ x0 shapeCasts_S1x1_S_)
/-- The embedding table's row at that index (the slice's start clamped into the table). -/
def kE (x0 : (⟨S1x1, .i32⟩ : BufTy).Contents (Elt F)) (x3 : (⟨S50257x1024, .f32⟩ : BufTy).Contents (Elt F)) :
    (⟨S1x1024, .f32⟩ : BufTy).Contents (Elt F) :=
  Host.dynamicSlice S1x1024 x3 (fun k => (((![kIdx x0, constantI S_ 32 0#32] : Fin 2 → (⟨S_, .i32⟩ : BufTy).Contents (Elt F))) k
    (Shape.Idx.first h_S_)).toInt) sliceFits_S50257x1024_S1x1024
def kH (x1 : (⟨S1x1x1024, .f32⟩ : BufTy).Contents (Elt F)) : (⟨S1x1024, .f32⟩ : BufTy).Contents (Elt F) :=
  shapeCast _ x1 shapeCasts_S1x1x1024_S1x1024
def kAb (x5 : (⟨S512, .f32⟩ : BufTy).Contents (Elt F)) : (⟨S1x512, .f32⟩ : BufTy).Contents (Elt F) :=
  shapeCast _ x5 shapeCasts_S512_S1x512
def kCb (x7 : (⟨S1024, .f32⟩ : BufTy).Contents (Elt F)) : (⟨S1x1024, .f32⟩ : BufTy).Contents (Elt F) :=
  shapeCast _ x7 shapeCasts_S1024_S1x1024
def kB3 (x : (⟨S3072, .f32⟩ : BufTy).Contents (Elt F)) : (⟨S1x3072, .f32⟩ : BufTy).Contents (Elt F) :=
  shapeCast _ x shapeCasts_S3072_S1x3072
def kOb (x13 : (⟨S50257, .f32⟩ : BufTy).Contents (Elt F)) : (⟨S1x50257, .f32⟩ : BufTy).Contents (Elt F) :=
  shapeCast _ x13 shapeCasts_S50257_S1x50257

/-- log_softmax of a row of logits, as its operations compute it: x - max - log (sum (exp (x - max))). -/
def lsm (x : (⟨S1x50257, .f32⟩ : BufTy).Contents (Elt F)) : (⟨S1x50257, .f32⟩ : BufTy).Contents (Elt F) :=
  subf (subf x (broadcastInDim S1x50257 ![0, 1] bcast_S1x1_S1x50257_0_1 (broadcastInDim S1x1 ![0] bcast_S1_S1x1_0
      (maximumf (broadcastInDim S1 ![] bcast_S_S1 (constant S_ .f32 0xFF800000#32))
        (Host.reduce FloatOps.maximumf x (constant S_ .f32 0xFF800000#32) reducesTo_S1x50257_S1_d1 h_S_)))))
    (broadcastInDim S1x50257 ![0, 1] bcast_S1x1_S1x50257_0_1 (Host.log (broadcastInDim S1x1 ![0] bcast_S1_S1x1_0
      (Host.reduceAdd (Host.exp (subf x (broadcastInDim S1x50257 ![0, 1] bcast_S1x1_S1x50257_0_1 (broadcastInDim S1x1 ![0] bcast_S1_S1x1_0
        (maximumf (broadcastInDim S1 ![] bcast_S_S1 (constant S_ .f32 0xFF800000#32))
          (Host.reduce FloatOps.maximumf x (constant S_ .f32 0xFF800000#32) reducesTo_S1x50257_S1_d1 h_S_))))))
        (constant S_ .f32 0x00000000#32) reducesTo_S1x50257_S1_d1 h_S_))))

end Cert.KernelIdeal.Hand

end
-- ==== Proof.KI.Run.lean ====
/-
  The idealized kernel program's run, every result named: the launch, then per core the first host line, the two
  kernels each entered from what the item before left, log_softmax's line and the closing broadcast; every weakly fair
  execution ends with each unscoped buffer at the last value of the fold of KI/Fold.lean.
-/
import proofs.«414457_j10170482557153_3_alg».proof.Proof.KI.Fold
import proofs.«414457_j10170482557153_3_alg».proof.Proof.Gen.KernelIdeal.Regions
import Idealize.ShloMosaic.Adequacy
import Idealize.ShloMosaic.Init

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Every pipeline's proof data, each at its kernel's entry contents. -/
def pdats (m : (ℓ : Loc nD τ sig) → Buf (Elt F) ℓ) :
    (p : Fin 2) → (c : Dev nD) → Dat τ (Elt F) Unit ℕ (UR sig nD τ) ℕ (Pipeline.pin (pcfgs (F := F)) (fun p => (cfgs p).toPCfg_adm) p) c
  | ⟨0, _⟩ => fun c => dat0 (V1 m) c
  | ⟨1, _⟩ => fun c => dat1 (V2 m) c

/-! ## What every item is entered with and leaves -/

abbrev noVariants : Variants := Variants.none
/-- No core owes another anything: no pair carries a level. -/
abbrev noPairs : GSem nD τ sig → Finset Unit := fun _ => ∅
abbrev noLevel : GSem nD τ sig → Unit → ℕ := fun _ _ => 0

/-- What a core carries beside its buffers from one item to the next: its generator register at some state, and
    nothing owed. -/
abbrev carried (c : Dev nD) : sProp 𝕄 :=
  iprop((∃ r, prngReg c r) ∗ ∃ W, owes (c : Thread nD τ) (0 : CellTallies nD τ sig Unit) W)

/-- A line of host operations from the contents W: it leaves the unscoped buffers at the line's values of W. -/
abbrev hostLine (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W carried

/-- The state the program ends in, the dues apart: every unscoped buffer at the fold's last value, the generator
    register at some state. -/
abbrev atEnd (m : (ℓ : Loc nD τ sig) → Buf (Elt F) ℓ) (c : Dev nD) : sProp 𝕄 :=
  iprop(StableHlo.held (c : Thread nD τ) (Pipeline.ucRefs τ sig) (W5 m c) ∗ ∃ r, prngReg c r)

variable (m : (ℓ : Loc nD τ sig) → Buf (Elt F) ℓ)

/-! ## The two kernels -/

set_option backward.isDefEq.respectTransparency.types false in
/-- The attention-and-GRU kernel: entered with the buffers at the first host line's values W1, left with its two result
    arrays at what its write-backs leave and every other buffer untouched (W2). Its thirteen arrays are taken out of the
    unscoped buffers at entry and put back at exit; the generator register passes through the invariant; nothing is
    owed; the kernel has no semaphore of its own. -/
def kernel0 : Pipeline.RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs noLevel 0 fun _ _ => rfl
  pre c := iprop(StableHlo.held (c : Thread nD τ) (Pipeline.ucRefs τ sig) (W1 m c) ∗ carried c)
  post c := iprop(StableHlo.held (c : Thread nD τ) (Pipeline.ucRefs τ sig) (W2 m c) ∗ carried c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

set_option backward.isDefEq.respectTransparency.types false in
/-- The vocabulary-projection kernel, given its body's obligation: entered with the buffers as the first kernel left
    them (W2: no host operation lies between the two), left with the logits array at what its sixteen write-backs leave
    (W3). -/
def kernel1 (hbody1 : ∀ c : Dev nD, BodyObligationLoose (dat1 (F := F) (V2 m) c) (defs₀ (F := F)) Variants.none () Set.univ) :
    Pipeline.RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := hbody1 c
  hwaits := Pipeline.hwaits_of_owed_zero _ _ _ _ noPairs noLevel 1 fun _ _ => rfl
  pre c := iprop(StableHlo.held (c : Thread nD τ) (Pipeline.ucRefs τ sig) (W2 m c) ∗ carried c)
  post c := iprop(StableHlo.held (c : Thread nD τ) (Pipeline.ucRefs τ sig) (W3 m c) ∗ carried c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hbufs, Hreg, Hdue⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Harr, Hdue, Hreg, Hrest⟩
    imodintro
    isplitl [Harr Hrest]
    · iapply hjoin; isplitl [Harr] <;> iassumption
    isplitl [Hreg]; · iexact Hreg
    unfold Pipeline.Dat.owesAt Pipeline.owesWithin
    icases Hdue with ⟨%W, -, Hdue⟩; iexists W; iexact Hdue

/-! ## The program as its five items -/

/-- The first host line from the launch contents, the two kernels, log_softmax's line from the second kernel's exit
    contents, the closing broadcast from log_softmax's values. -/
abbrev items (hbody1 : ∀ c : Dev nD, BodyObligationLoose (dat1 (F := F) (V2 m) c) (defs₀ (F := F)) Variants.none () Set.univ) :
    List (Pipeline.Seg (pcfgs (F := F)) adm (pdats m) () defs₀ noVariants noPairs noLevel) :=
  [ .host (hostLine hostOps0 hostOps0_sub hostOps0_fresh (W0 m)),
    .region (kernel0 m),
    .region (kernel1 m hbody1),
    .host (hostLine hostOps2 hostOps2_sub hostOps2_fresh (W3 m)),
    .host (hostLine hostOps2_1 hostOps2_1_sub hostOps2_1_fresh (W4 m)) ]

/-- The last link of the chain: what the closing broadcast leaves is the end state beside the core owing nothing. -/
theorem chain_end (c : Dev nD) :
    (iprop(StableHlo.held (c : Thread nD τ) (Pipeline.ucRefs τ sig) (W5 m c) ∗ carried c) : sProp 𝕄)
      ⊢ iprop(atEnd m c ∗ ∃ W, owes (c : Thread nD τ) (0 : CellTallies nD τ sig Unit) W) := by
  iintro ⟨Hbufs, Hreg, Hdue⟩
  isplitl [Hbufs Hreg]
  · isplitl [Hbufs] <;> iassumption
  iexact Hdue

set_option backward.isDefEq.respectTransparency.types false in
/-- The run at any float values, given the second kernel's body obligation: from any memory with zero counters every
    weakly fair execution terminates, nothing faulting, and every final memory holds each unscoped buffer of each core at
    the fold's last value. The launch deals each core its unscoped buffers at the launch contents, its generator
    register and nothing owed; the five items chain, each entered with what the one before left; the last state is read
    against the final memory buffer by buffer. -/
theorem run_of_body1 (ρ : Dev nD → PrngReg)
    (hbody1 : ∀ c : Dev nD, BodyObligationLoose (dat1 (F := F) (V2 m) c) (defs₀ (F := F)) Variants.none () Set.univ) :
    θ_run (defs (F := F)) (onTc (τ := τ) (main (F := F))) ⟨m, fun _ => 0, ρ⟩
      (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ noVariants noPairs noLevel m ρ main
    (items m hbody1)
    (fun c Q => by
      rewrite [main_chain c, Pipeline.Seg.run_eq_chain,
        show (items m hbody1).map Pipeline.Seg.prog = [
          StableHlo.seq hostOps0,
          Prog.lift (.customCall (Pipeline.entry 0) ()),
          Prog.lift (.customCall (Pipeline.entry 1) ()),
          StableHlo.seq hostOps2,
          StableHlo.seq hostOps2_1 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ carried c)) (Tₙ := atEnd m)
    (hch := ⟨fun _ => .rfl, fun _ => .rfl, fun _ => .rfl, fun _ => .rfl, fun _ => .rfl, fun c => chain_end m c⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem (((c : Thread nD τ)).1, b) = W5 m c b)
    (hfin := fun c s' => by
      iintro ⟨⟨Hbufs, -⟩, HSI⟩
      unfold StableHlo.held
      imodintro
      iapply (pointsTo_read_all (Pipeline.ucRefs τ sig) (fun b => (((c : Thread nD τ)).1, b)) (W5 m c) s')
      isplitl [Hbufs] <;> iassumption)
    (hQ := fun _ h => h)

/-- From any memory with zero counters every weakly fair execution of the idealized kernel program terminates, nothing
    faulting, and every final memory holds each unscoped buffer of each core at the fold's last value. -/
theorem run_all (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD, ∀ b ∈ Pipeline.ucRefs τ sig, r.2.mem (((c : Thread nD τ)).1, b) = W5 m c b) :=
  run_of_body1 m ρ fun c => body_obligation1 (V2 m) c

end Cert.KernelIdeal.Hand

end
-- ==== Proof.KI.ValueR0.lean ====
/-
  What the first kernel's two result arrays hold after its one write-back, as functions of its operand arrays as it
  finds them: the one grid point's blocks are the whole arrays, so each operand block is its array and the write-back
  overwrites the whole result array with what the body stored.
-/
import proofs.«414457_j10170482557153_3_alg».proof.Proof.KI.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The one point's blocks are the whole arrays -/

/-- Read through the one point's block, the array of the embedded row is itself: the block sits at the origin and has the
    array's sizes. -/
theorem blkRead0_0 (X : Vec F S1x1024 .f32) : ((cfg0.win 0).blk t0_0).view.read (Elt F) X = X :=
  Memref.read_access_unit_zero (Elt F) main_v4
    (off := fun a => (win0_0.index t0_0) a * main_v4.ty.shape.size a)
    (funext fun a => by fin_cases a <;> decide) (fun a => by fin_cases a <;> decide) X

/-- Read through the one point's block, the array of the hidden row is itself: the block sits at the origin and has the
    array's sizes. -/
theorem blkRead0_1 (X : Vec F S1x1024 .f32) : ((cfg0.win 1).blk t0_0).view.read (Elt F) X = X :=
  Memref.read_access_unit_zero (Elt F) main_v5
    (off := fun a => (win0_1.index t0_0) a * main_v5.ty.shape.size a)
    (funext fun a => by fin_cases a <;> decide) (fun a => by fin_cases a <;> decide) X

/-- Read through the one point's block, the array of the encoder outputs is itself: the block sits at the origin and has the
    array's sizes. -/
theorem blkRead0_2 (X : Vec F S512x1024 .f32) : ((cfg0.win 2).blk t0_0).view.read (Elt F) X = X :=
  Memref.read_access_unit_zero (Elt F) main_arg2
    (off := fun a => (win0_2.index t0_0) a * main_arg2.ty.shape.size a)
    (funext fun a => by fin_cases a <;> decide) (fun a => by fin_cases a <;> decide) X

/-- Read through the one point's block, the array of the attention matrix is itself: the block sits at the origin and has the
    array's sizes. -/
theorem blkRead0_3 (X : Vec F S512x2048 .f32) : ((cfg0.win 3).blk t0_0).view.read (Elt F) X = X :=
  Memref.read_access_unit_zero (Elt F) main_arg4
    (off := fun a => (win0_3.index t0_0) a * main_arg4.ty.shape.size a)
    (funext fun a => by fin_cases a <;> decide) (fun a => by fin_cases a <;> decide) X

/-- Read through the one point's block, the array of the attention bias is itself: the block sits at the origin and has the
    array's sizes. -/
theorem blkRead0_4 (X : Vec F S1x512 .f32) : ((cfg0.win 4).blk t0_0).view.read (Elt F) X = X :=
  Memref.read_access_unit_zero (Elt F) main_v6
    (off := fun a => (win0_4.index t0_0) a * main_v6.ty.shape.size a)
    (funext fun a => by fin_cases a <;> decide) (fun a => by fin_cases a <;> decide) X

/-- Read through the one point's block, the array of the combine matrix is itself: the block sits at the origin and has the
    array's sizes. -/
theorem blkRead0_5 (X : Vec F S1024x2048 .f32) : ((cfg0.win 5).blk t0_0).view.read (Elt F) X = X :=
  Memref.read_access_unit_zero (Elt F) main_arg6
    (off := fun a => (win0_5.index t0_0) a * main_arg6.ty.shape.size a)
    (funext fun a => by fin_cases a <;> decide) (fun a => by fin_cases a <;> decide) X

/-- Read through the one point's block, the array of the combine bias is itself: the block sits at the origin and has the
    array's sizes. -/
theorem blkRead0_6 (X : Vec F S1x1024 .f32) : ((cfg0.win 6).blk t0_0).view.read (Elt F) X = X :=
  Memref.read_access_unit_zero (Elt F) main_v7
    (off := fun a => (win0_6.index t0_0) a * main_v7.ty.shape.size a)
    (funext fun a => by fin_cases a <;> decide) (fun a => by fin_cases a <;> decide) X

/-- Read through the one point's block, the array of the input-gate matrix W_ih is itself: the block sits at the origin and has the
    array's sizes. -/
theorem blkRead0_7 (X : Vec F S3072x1024 .f32) : ((cfg0.win 7).blk t0_0).view.read (Elt F) X = X :=
  Memref.read_access_unit_zero (Elt F) main_arg8
    (off := fun a => (win0_7.index t0_0) a * main_arg8.ty.shape.size a)
    (funext fun a => by fin_cases a <;> decide) (fun a => by fin_cases a <;> decide) X

/-- Read through the one point's block, the array of the hidden-gate matrix W_hh is itself: the block sits at the origin and has the
    array's sizes. -/
theorem blkRead0_8 (X : Vec F S3072x1024 .f32) : ((cfg0.win 8).blk t0_0).view.read (Elt F) X = X :=
  Memref.read_access_unit_zero (Elt F) main_arg9
    (off := fun a => (win0_8.index t0_0) a * main_arg9.ty.shape.size a)
    (funext fun a => by fin_cases a <;> decide) (fun a => by fin_cases a <;> decide) X

/-- Read through the one point's block, the array of the input-gate bias b_ih is itself: the block sits at the origin and has the
    array's sizes. -/
theorem blkRead0_9 (X : Vec F S1x3072 .f32) : ((cfg0.win 9).blk t0_0).view.read (Elt F) X = X :=
  Memref.read_access_unit_zero (Elt F) main_v8
    (off := fun a => (win0_9.index t0_0) a * main_v8.ty.shape.size a)
    (funext fun a => by fin_cases a <;> decide) (fun a => by fin_cases a <;> decide) X

/-- Read through the one point's block, the array of the hidden-gate bias b_hh is itself: the block sits at the origin and has the
    array's sizes. -/
theorem blkRead0_10 (X : Vec F S1x3072 .f32) : ((cfg0.win 10).blk t0_0).view.read (Elt F) X = X :=
  Memref.read_access_unit_zero (Elt F) main_v9
    (off := fun a => (win0_10.index t0_0) a * main_v9.ty.shape.size a)
    (funext fun a => by fin_cases a <;> decide) (fun a => by fin_cases a <;> decide) X

/-- Read through the one point's block, the array of the new hidden state is itself: the block sits at the origin and has the
    array's sizes. -/
theorem blkRead0_11 (X : Vec F S1x1024 .f32) : ((cfg0.win 11).blk t0_0).view.read (Elt F) X = X :=
  Memref.read_access_unit_zero (Elt F) main_v11_0
    (off := fun a => (win0_11.index t0_0) a * main_v11_0.ty.shape.size a)
    (funext fun a => by fin_cases a <;> decide) (fun a => by fin_cases a <;> decide) X

/-- Read through the one point's block, the array of the attention weights is itself: the block sits at the origin and has the
    array's sizes. -/
theorem blkRead0_12 (X : Vec F S1x512 .f32) : ((cfg0.win 12).blk t0_0).view.read (Elt F) X = X :=
  Memref.read_access_unit_zero (Elt F) main_v11_1
    (off := fun a => (win0_12.index t0_0) a * main_v11_1.ty.shape.size a)
    (funext fun a => by fin_cases a <;> decide) (fun a => by fin_cases a <;> decide) X

/-! ## The two result arrays after the one write-back -/

/-- The new hidden state's array after the first kernel. -/
theorem arrAt0_11 (c : Dev nD) :
    (dat0 V c).arrAt 11 cfg0.N = hnewOf (V c main_v4) (V c main_v5) (V c main_arg2) (V c main_arg4) (V c main_v6) (V c main_arg6)
      (V c main_v7) (V c main_arg8) (V c main_arg9) (V c main_v8) (V c main_v9) := by
  have ho : ((cfg0.win 11).blk t0_0).view.read (Elt F) ((dat0 V c).arrAt 11 cfg0.N) = (dat0 V c).flushed 11 t0_0 := by
    rw [show cfg0.N = (t0_0 : Fin cfg0.N).val + 1 from rfl, (dat0 V c).arrAt_succ 11 t0_0, if_pos (flush0_11 t0_0)]
    exact View.read_write_univ _ _
  rw [blkRead0_11] at ho
  rw [ho]
  show (cfg0.win 11).cut _ ((dat0 V c).after 11 t0_0) = _
  rw [after0_11, out0_11_eq]
  unfold iblk0
  rw [blkRead0_0, blkRead0_1, blkRead0_2, blkRead0_3, blkRead0_4, blkRead0_5, blkRead0_6, blkRead0_7, blkRead0_8, blkRead0_9, blkRead0_10]
  rfl

/-- The attention weights' array after the first kernel. -/
theorem arrAt0_12 (c : Dev nD) :
    (dat0 V c).arrAt 12 cfg0.N = attnOf (V c main_v4) (V c main_v5) (V c main_arg4) (V c main_v6) := by
  have ho : ((cfg0.win 12).blk t0_0).view.read (Elt F) ((dat0 V c).arrAt 12 cfg0.N) = (dat0 V c).flushed 12 t0_0 := by
    rw [show cfg0.N = (t0_0 : Fin cfg0.N).val + 1 from rfl, (dat0 V c).arrAt_succ 12 t0_0, if_pos (flush0_12 t0_0)]
    exact View.read_write_univ _ _
  rw [blkRead0_12] at ho
  rw [ho]
  show (cfg0.win 12).cut _ ((dat0 V c).after 12 t0_0) = _
  rw [after0_12, out0_12_eq]
  unfold iblk0
  rw [blkRead0_0, blkRead0_1, blkRead0_3, blkRead0_4]
  rfl

end Cert.KernelIdeal.Hand

end
-- ==== Proof.KI.ValueA.lean ====
/-
  The idealized kernel program's results and arguments, read off the fold: no item writes an argument; the first host
  line's values are the functions kE, kH, kAb, kCb, kB3, kOb of the arguments; the first kernel's one grid point writes
  its two whole result arrays, so after it they hold the new hidden state and the attention weights as functions of its
  operand arrays; nothing after writes them; log_softmax's line leaves lsm of the logits array, the closing broadcast the
  hidden state with a unit axis added.
-/
import proofs.«414457_j10170482557153_3_alg».proof.Proof.KI.Fold
import proofs.«414457_j10170482557153_3_alg».proof.Proof.KI.ValueR0
import proofs.«414457_j10170482557153_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## What each item leaves alone -/

/-- The two closing host lines leave every buffer neither writes. -/
theorem W5_of_W3 (c : Dev nD) (r : Ref sig .tc) (h1 : r ∉ hostOps2_1_W) (h2 : r ∉ hostOps2_W) :
    W5 m c r = W3 m c r :=
  (StableHlo.after_of_writes_sub hostOps2_1 (W4 m c) hostOps2_1_writes h1).trans
    (StableHlo.after_of_writes_sub hostOps2 (W3 m c) hostOps2_writes h2)

/-- An operand window's array leaves the first kernel as it entered: an input window is never written back. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

/-- The same for the second kernel. -/
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hin _).trans (A_eq1 (V2 m) c w))

/-- The first host line leaves every buffer it does not write at its launch contents. -/
theorem V1_arg (c : Dev nD) (r : Ref sig .tc) (h : r ∉ hostOps0_W) : W1 m c r = m ((c.tc : Thread nD τ).loc r) :=
  StableHlo.after_of_writes_sub hostOps0 (W0 m c) hostOps0_writes h

/-! ## The first host line's values -/

/-- The slice's two start indices, each read at its own buffer. -/
theorem sliceIdx (G : Valuation τ sig (Elt F))
    (hT : ∀ k : Fin 2, ((![main_v3, main_c_1] : Fin 2 → Ref sig .tc) k).ty = (⟨S_, .i32⟩ : BufTy)) :
    (fun k : Fin 2 => cast (congrArg (fun U : BufTy => U.Contents (Elt F)) (hT k)) (G (Proc.devRef .tc ((![main_v3, main_c_1] : Fin 2 → Ref sig .tc) k))))
      = (![G (Proc.devRef .tc main_v3), G (Proc.devRef .tc main_c_1)] : Fin 2 → (⟨S_, .i32⟩ : BufTy).Contents (Elt F)) := by
  funext k; fin_cases k <;> rfl

/-- The embedded row: the table's row at the token index made non-negative. -/
theorem V1_v4 (c : Dev nD) : V1 m c main_v4 = kE (m ((c.tc : Thread nD τ).loc main_arg0)) (m ((c.tc : Thread nD τ).loc main_arg3)) := by
  show StableHlo.after hostOps0 (fun b => m (c, b)) (Proc.devRef .tc main_v4) = _
  after_results
  rw [sliceIdx _ (fun k => by fin_cases k <;> rfl)]
  after_results_simp
  rfl
/-- The hidden state as a row. -/
theorem V1_v5 (c : Dev nD) : V1 m c main_v5 = kH (m ((c.tc : Thread nD τ).loc main_arg1)) := by
  show StableHlo.after hostOps0 (fun b => m (c, b)) (Proc.devRef .tc main_v5) = _
  after_results; rfl
/-- The attention bias as a row. -/
theorem V1_v6 (c : Dev nD) : V1 m c main_v6 = kAb (m ((c.tc : Thread nD τ).loc main_arg5)) := by
  show StableHlo.after hostOps0 (fun b => m (c, b)) (Proc.devRef .tc main_v6) = _
  after_results; rfl
/-- The combine bias as a row. -/
theorem V1_v7 (c : Dev nD) : V1 m c main_v7 = kCb (m ((c.tc : Thread nD τ).loc main_arg7)) := by
  show StableHlo.after hostOps0 (fun b => m (c, b)) (Proc.devRef .tc main_v7) = _
  after_results; rfl
/-- The two gate biases as rows. -/
theorem V1_v8 (c : Dev nD) : V1 m c main_v8 = kB3 (m ((c.tc : Thread nD τ).loc main_arg10)) := by
  show StableHlo.after hostOps0 (fun b => m (c, b)) (Proc.devRef .tc main_v8) = _
  after_results; rfl
theorem V1_v9 (c : Dev nD) : V1 m c main_v9 = kB3 (m ((c.tc : Thread nD τ).loc main_arg11)) := by
  show StableHlo.after hostOps0 (fun b => m (c, b)) (Proc.devRef .tc main_v9) = _
  after_results; rfl
/-- The output bias as a row. -/
theorem V1_v10 (c : Dev nD) : V1 m c main_v10 = kOb (m ((c.tc : Thread nD τ).loc main_arg13)) := by
  show StableHlo.after hostOps0 (fun b => m (c, b)) (Proc.devRef .tc main_v10) = _
  after_results; rfl

/-! ## The two closing host lines, over any contents -/

/-- Contents moved to a buffer's own type and back are themselves. -/
theorem ofBuf_toBuf {T : BufTy} (x : StableHlo.TRef sig T) (v : T.Contents (Elt F)) : x.ofBuf (x.toBuf v) = v := by
  obtain ⟨r, h, h2, h3⟩ := x
  subst h
  rfl

/-- log_softmax's operations leave lsm of the logits in the result's buffer. -/
theorem lsm_of (G : Valuation τ sig (Elt F)) :
    StableHlo.after hostOps2 G (Proc.devRef .tc main_v13) = lsm (G (Proc.devRef .tc main_v12)) := by
  have hx : (StableHlo.TRef.of (T := ⟨S1x50257, .f32⟩) main_v12).ofBuf (G (Proc.devRef .tc main_v12))
      = G (Proc.devRef .tc main_v12) := rfl
  after_results
  repeat rw [ofBuf_toBuf]
  rw [hx]
  refine eq_of_heq ((cast_heq _ _).trans (heq_of_eq ?_))
  rfl

/-- The closing broadcast adds a unit axis to the hidden state. -/
theorem hid_of (G : Valuation τ sig (Elt F)) :
    StableHlo.after hostOps2_1 G (Proc.devRef .tc main_v14)
      = broadcastInDim S1x1x1024 ![1, 2] bcast_S1x1024_S1x1x1024_1_2 (G (Proc.devRef .tc main_v11_0)) := by
  after_results

/-! ## The arguments

Each argument's buffer is walked back item by item to the launch memory: the two closing host lines do not write it; a
kernel either has no window on it or reads it through an input window, whose array is never written back; the first
host line does not write it. -/

theorem W5_arg0 (c : Dev nD) : W5 m c main_arg0 = m ((c.tc : Thread nD τ).loc main_arg0) :=
  calc W5 m c main_arg0
    _ = W3 m c main_arg0 := W5_of_W3 m c main_arg0 (by decide) (by decide)
    _ = W2 m c main_arg0 := W3_of_ne m c main_arg0 (by decide)
    _ = W1 m c main_arg0 := W2_of_ne m c main_arg0 (by decide)
    _ = m ((c.tc : Thread nD τ).loc main_arg0) := V1_arg m c main_arg0 (by decide)
theorem W5_arg1 (c : Dev nD) : W5 m c main_arg1 = m ((c.tc : Thread nD τ).loc main_arg1) :=
  calc W5 m c main_arg1
    _ = W3 m c main_arg1 := W5_of_W3 m c main_arg1 (by decide) (by decide)
    _ = W2 m c main_arg1 := W3_of_ne m c main_arg1 (by decide)
    _ = W1 m c main_arg1 := W2_of_ne m c main_arg1 (by decide)
    _ = m ((c.tc : Thread nD τ).loc main_arg1) := V1_arg m c main_arg1 (by decide)
theorem W5_arg2 (c : Dev nD) : W5 m c main_arg2 = m ((c.tc : Thread nD τ).loc main_arg2) :=
  calc W5 m c main_arg2
    _ = W3 m c main_arg2 := W5_of_W3 m c main_arg2 (by decide) (by decide)
    _ = W2 m c main_arg2 := W3_of_ne m c main_arg2 (by decide)
    _ = W1 m c main_arg2 := W2_in m c 2 rfl
    _ = m ((c.tc : Thread nD τ).loc main_arg2) := V1_arg m c main_arg2 (by decide)
theorem W5_arg3 (c : Dev nD) : W5 m c main_arg3 = m ((c.tc : Thread nD τ).loc main_arg3) :=
  calc W5 m c main_arg3
    _ = W3 m c main_arg3 := W5_of_W3 m c main_arg3 (by decide) (by decide)
    _ = W2 m c main_arg3 := W3_of_ne m c main_arg3 (by decide)
    _ = W1 m c main_arg3 := W2_of_ne m c main_arg3 (by decide)
    _ = m ((c.tc : Thread nD τ).loc main_arg3) := V1_arg m c main_arg3 (by decide)
theorem W5_arg4 (c : Dev nD) : W5 m c main_arg4 = m ((c.tc : Thread nD τ).loc main_arg4) :=
  calc W5 m c main_arg4
    _ = W3 m c main_arg4 := W5_of_W3 m c main_arg4 (by decide) (by decide)
    _ = W2 m c main_arg4 := W3_of_ne m c main_arg4 (by decide)
    _ = W1 m c main_arg4 := W2_in m c 3 rfl
    _ = m ((c.tc : Thread nD τ).loc main_arg4) := V1_arg m c main_arg4 (by decide)
theorem W5_arg5 (c : Dev nD) : W5 m c main_arg5 = m ((c.tc : Thread nD τ).loc main_arg5) :=
  calc W5 m c main_arg5
    _ = W3 m c main_arg5 := W5_of_W3 m c main_arg5 (by decide) (by decide)
    _ = W2 m c main_arg5 := W3_of_ne m c main_arg5 (by decide)
    _ = W1 m c main_arg5 := W2_of_ne m c main_arg5 (by decide)
    _ = m ((c.tc : Thread nD τ).loc main_arg5) := V1_arg m c main_arg5 (by decide)
theorem W5_arg6 (c : Dev nD) : W5 m c main_arg6 = m ((c.tc : Thread nD τ).loc main_arg6) :=
  calc W5 m c main_arg6
    _ = W3 m c main_arg6 := W5_of_W3 m c main_arg6 (by decide) (by decide)
    _ = W2 m c main_arg6 := W3_of_ne m c main_arg6 (by decide)
    _ = W1 m c main_arg6 := W2_in m c 5 rfl
    _ = m ((c.tc : Thread nD τ).loc main_arg6) := V1_arg m c main_arg6 (by decide)
theorem W5_arg7 (c : Dev nD) : W5 m c main_arg7 = m ((c.tc : Thread nD τ).loc main_arg7) :=
  calc W5 m c main_arg7
    _ = W3 m c main_arg7 := W5_of_W3 m c main_arg7 (by decide) (by decide)
    _ = W2 m c main_arg7 := W3_of_ne m c main_arg7 (by decide)
    _ = W1 m c main_arg7 := W2_of_ne m c main_arg7 (by decide)
    _ = m ((c.tc : Thread nD τ).loc main_arg7) := V1_arg m c main_arg7 (by decide)
theorem W5_arg8 (c : Dev nD) : W5 m c main_arg8 = m ((c.tc : Thread nD τ).loc main_arg8) :=
  calc W5 m c main_arg8
    _ = W3 m c main_arg8 := W5_of_W3 m c main_arg8 (by decide) (by decide)
    _ = W2 m c main_arg8 := W3_of_ne m c main_arg8 (by decide)
    _ = W1 m c main_arg8 := W2_in m c 7 rfl
    _ = m ((c.tc : Thread nD τ).loc main_arg8) := V1_arg m c main_arg8 (by decide)
theorem W5_arg9 (c : Dev nD) : W5 m c main_arg9 = m ((c.tc : Thread nD τ).loc main_arg9) :=
  calc W5 m c main_arg9
    _ = W3 m c main_arg9 := W5_of_W3 m c main_arg9 (by decide) (by decide)
    _ = W2 m c main_arg9 := W3_of_ne m c main_arg9 (by decide)
    _ = W1 m c main_arg9 := W2_in m c 8 rfl
    _ = m ((c.tc : Thread nD τ).loc main_arg9) := V1_arg m c main_arg9 (by decide)
theorem W5_arg10 (c : Dev nD) : W5 m c main_arg10 = m ((c.tc : Thread nD τ).loc main_arg10) :=
  calc W5 m c main_arg10
    _ = W3 m c main_arg10 := W5_of_W3 m c main_arg10 (by decide) (by decide)
    _ = W2 m c main_arg10 := W3_of_ne m c main_arg10 (by decide)
    _ = W1 m c main_arg10 := W2_of_ne m c main_arg10 (by decide)
    _ = m ((c.tc : Thread nD τ).loc main_arg10) := V1_arg m c main_arg10 (by decide)
theorem W5_arg11 (c : Dev nD) : W5 m c main_arg11 = m ((c.tc : Thread nD τ).loc main_arg11) :=
  calc W5 m c main_arg11
    _ = W3 m c main_arg11 := W5_of_W3 m c main_arg11 (by decide) (by decide)
    _ = W2 m c main_arg11 := W3_of_ne m c main_arg11 (by decide)
    _ = W1 m c main_arg11 := W2_of_ne m c main_arg11 (by decide)
    _ = m ((c.tc : Thread nD τ).loc main_arg11) := V1_arg m c main_arg11 (by decide)
theorem W5_arg12 (c : Dev nD) : W5 m c main_arg12 = m ((c.tc : Thread nD τ).loc main_arg12) :=
  calc W5 m c main_arg12
    _ = W3 m c main_arg12 := W5_of_W3 m c main_arg12 (by decide) (by decide)
    _ = W2 m c main_arg12 := W3_in m c 1 rfl
    _ = W1 m c main_arg12 := W2_of_ne m c main_arg12 (by decide)
    _ = m ((c.tc : Thread nD τ).loc main_arg12) := V1_arg m c main_arg12 (by decide)
theorem W5_arg13 (c : Dev nD) : W5 m c main_arg13 = m ((c.tc : Thread nD τ).loc main_arg13) :=
  calc W5 m c main_arg13
    _ = W3 m c main_arg13 := W5_of_W3 m c main_arg13 (by decide) (by decide)
    _ = W2 m c main_arg13 := W3_of_ne m c main_arg13 (by decide)
    _ = W1 m c main_arg13 := W2_of_ne m c main_arg13 (by decide)
    _ = m ((c.tc : Thread nD τ).loc main_arg13) := V1_arg m c main_arg13 (by decide)

/-! ## The results and the arguments at the program's boundaries -/

/-- An argument array ends as launched: no host line writes it, the kernels only read it. -/
theorem W5_args (c : Dev nD) :
    W5 m c main_arg0 = m ((c.tc : Thread nD τ).loc main_arg0)
    ∧ W5 m c main_arg1 = m ((c.tc : Thread nD τ).loc main_arg1)
    ∧ W5 m c main_arg2 = m ((c.tc : Thread nD τ).loc main_arg2)
    ∧ W5 m c main_arg3 = m ((c.tc : Thread nD τ).loc main_arg3)
    ∧ W5 m c main_arg4 = m ((c.tc : Thread nD τ).loc main_arg4)
    ∧ W5 m c main_arg5 = m ((c.tc : Thread nD τ).loc main_arg5)
    ∧ W5 m c main_arg6 = m ((c.tc : Thread nD τ).loc main_arg6)
    ∧ W5 m c main_arg7 = m ((c.tc : Thread nD τ).loc main_arg7)
    ∧ W5 m c main_arg8 = m ((c.tc : Thread nD τ).loc main_arg8)
    ∧ W5 m c main_arg9 = m ((c.tc : Thread nD τ).loc main_arg9)
    ∧ W5 m c main_arg10 = m ((c.tc : Thread nD τ).loc main_arg10)
    ∧ W5 m c main_arg11 = m ((c.tc : Thread nD τ).loc main_arg11)
    ∧ W5 m c main_arg12 = m ((c.tc : Thread nD τ).loc main_arg12)
    ∧ W5 m c main_arg13 = m ((c.tc : Thread nD τ).loc main_arg13) :=
  ⟨W5_arg0 m c, W5_arg1 m c, W5_arg2 m c, W5_arg3 m c, W5_arg4 m c, W5_arg5 m c, W5_arg6 m c, W5_arg7 m c,
    W5_arg8 m c, W5_arg9 m c, W5_arg10 m c, W5_arg11 m c, W5_arg12 m c, W5_arg13 m c⟩

/-- The new hidden state after the first kernel, from the arguments. -/
theorem W2_hnew (c : Dev nD) :
    W2 m c main_v11_0 = hnewOf (kE (m ((c.tc : Thread nD τ).loc main_arg0)) (m ((c.tc : Thread nD τ).loc main_arg3)))
      (kH (m ((c.tc : Thread nD τ).loc main_arg1))) (m ((c.tc : Thread nD τ).loc main_arg2)) (m ((c.tc : Thread nD τ).loc main_arg4))
      (kAb (m ((c.tc : Thread nD τ).loc main_arg5))) (m ((c.tc : Thread nD τ).loc main_arg6)) (kCb (m ((c.tc : Thread nD τ).loc main_arg7)))
      (m ((c.tc : Thread nD τ).loc main_arg8)) (m ((c.tc : Thread nD τ).loc main_arg9))
      (kB3 (m ((c.tc : Thread nD τ).loc main_arg10))) (kB3 (m ((c.tc : Thread nD τ).loc main_arg11))) := by
  refine (W2_arr m c 11).trans ((arrAt0_11 (V1 m) c).trans ?_)
  rw [V1_v4 m c, V1_v5 m c, V1_v6 m c, V1_v7 m c, V1_v8 m c, V1_v9 m c,
    show V1 m c main_arg2 = m ((c.tc : Thread nD τ).loc main_arg2) from V1_arg m c main_arg2 (by decide),
    show V1 m c main_arg4 = m ((c.tc : Thread nD τ).loc main_arg4) from V1_arg m c main_arg4 (by decide),
    show V1 m c main_arg6 = m ((c.tc : Thread nD τ).loc main_arg6) from V1_arg m c main_arg6 (by decide),
    show V1 m c main_arg8 = m ((c.tc : Thread nD τ).loc main_arg8) from V1_arg m c main_arg8 (by decide),
    show V1 m c main_arg9 = m ((c.tc : Thread nD τ).loc main_arg9) from V1_arg m c main_arg9 (by decide)]

/-- The attention weights after the first kernel, from the arguments. -/
theorem W2_attn (c : Dev nD) :
    W2 m c main_v11_1 = attnOf (kE (m ((c.tc : Thread nD τ).loc main_arg0)) (m ((c.tc : Thread nD τ).loc main_arg3)))
      (kH (m ((c.tc : Thread nD τ).loc main_arg1))) (m ((c.tc : Thread nD τ).loc main_arg4)) (kAb (m ((c.tc : Thread nD τ).loc main_arg5))) := by
  refine (W2_arr m c 12).trans ((arrAt0_12 (V1 m) c).trans ?_)
  rw [V1_v4 m c, V1_v5 m c, V1_v6 m c,
    show V1 m c main_arg4 = m ((c.tc : Thread nD τ).loc main_arg4) from V1_arg m c main_arg4 (by decide)]

/-- The attention weights at the end, from the arguments: nothing after the first kernel writes them. -/
theorem W5_attn (c : Dev nD) :
    W5 m c main_v11_1 = attnOf (kE (m ((c.tc : Thread nD τ).loc main_arg0)) (m ((c.tc : Thread nD τ).loc main_arg3)))
      (kH (m ((c.tc : Thread nD τ).loc main_arg1))) (m ((c.tc : Thread nD τ).loc main_arg4)) (kAb (m ((c.tc : Thread nD τ).loc main_arg5))) :=
  calc W5 m c main_v11_1
    _ = W3 m c main_v11_1 := W5_of_W3 m c main_v11_1 (by decide) (by decide)
    _ = W2 m c main_v11_1 := W3_of_ne m c main_v11_1 (by decide)
    _ = _ := W2_attn m c

/-- The hidden state's result: the new hidden state with a unit axis added. -/
theorem W5_hid (c : Dev nD) :
    W5 m c main_v14 = broadcastInDim S1x1x1024 ![1, 2] bcast_S1x1024_S1x1x1024_1_2 (W2 m c main_v11_0) := by
  have h : W4 m c main_v11_0 = W2 m c main_v11_0 :=
    (StableHlo.after_of_writes_sub hostOps2 (W3 m c) hostOps2_writes (by decide)).trans (W3_in m c 0 rfl)
  exact (hid_of (W4 m c)).trans (congrArg (broadcastInDim S1x1x1024 ![1, 2] bcast_S1x1024_S1x1x1024_1_2) h)

/-- The first result: log_softmax of the logits array the second kernel leaves. -/
theorem W5_out (c : Dev nD) : W5 m c main_v13 = lsm (W3 m c main_v12) :=
  (StableHlo.after_of_writes_sub hostOps2_1 (W4 m c) hostOps2_1_writes (by decide)).trans (lsm_of (W3 m c))

/-- The second kernel's operands as it finds them: the new hidden state, out_W, and out_b as a row. -/
theorem W2_operands (c : Dev nD) :
    W2 m c main_arg12 = m ((c.tc : Thread nD τ).loc main_arg12) ∧ W2 m c main_v10 = kOb (m ((c.tc : Thread nD τ).loc main_arg13)) :=
  ⟨(W2_of_ne m c main_arg12 (by decide)).trans (V1_arg m c main_arg12 (by decide)),
    (W2_of_ne m c main_v10 (by decide)).trans (V1_v10 m c)⟩

end Cert.KernelIdeal.Hand

end
-- ==== Proof.KI.ValueB.lean ====
/-
  The logits array after the second kernel, entry by entry, at the exact reals. Grid point t writes back the part of
  its tile inside the array: columns 3200 t .. 3200 t + 3199 for t < 15, columns 48000 .. 50256 at t = 15; column j is
  covered by point j / 3200 and by no later one, and the tile's entry j - 3200 (j / 3200) is the sum over k of the new
  hidden state's entry k times out_W's entry (j, k), plus out_b's entry j.
-/
import proofs.«414457_j10170482557153_3_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx (ix2)

/-! ## One column of the logits, and the whole row -/

/-- Column j of the logits from the hidden row, the whole matrix and the whole bias row: the sum over the hidden
    coordinates k of h[k] * W[j, k], plus b[j]. -/
def logitsCol (h : S1x1024.Idx → EReal) (oW : S50257x1024.Idx → EReal) (ob : S1x50257.Idx → EReal) (j : Fin 50257) : EReal :=
  (∑ k : Fin 1024, h (ix2 (0 : Fin 1) k) * oW (ix2 j k)) + ob (ix2 (0 : Fin 1) j)

/-- The logits row as one function of the index: its column's entry. -/
def logitsRow (h : S1x1024.Idx → EReal) (oW : S50257x1024.Idx → EReal) (ob : S1x50257.Idx → EReal) : S1x50257.Idx → EReal :=
  fun i => logitsCol h oW ob ⟨(i 1).val, ValueIdx.idx2_lt1 i⟩

/-- Entry y of a tile is column col of the logits when the tile's operands agree with the arrays there: the hidden
    row everywhere, row y of the matrix tile with row col of the matrix, entry y of the bias tile with entry col of the bias. -/
theorem tile_entry (h : Vec Ideal S1x1024 .f32) (W : Vec Ideal S3200x1024 .f32) (b : Vec Ideal S1x3200 .f32)
    (h' : S1x1024.Idx → EReal) (oW : S50257x1024.Idx → EReal) (ob : S1x50257.Idx → EReal)
    (y : Fin 3200) (col : Fin 50257)
    (hh : ∀ k : Fin 1024, (h (ix2 (0 : Fin 1) k) : EReal) = h' (ix2 (0 : Fin 1) k))
    (hW : ∀ k : Fin 1024, (W (ix2 y k) : EReal) = oW (ix2 col k))
    (hb : (b (ix2 (0 : Fin 1) y) : EReal) = ob (ix2 (0 : Fin 1) col)) :
    logitsTileOf (F := Ideal) h W b (ix2 (0 : Fin 1) y) = logitsCol h' oW ob col := by
  rw [logitsTileOf_apply]
  unfold logitsCol
  rw [hb]
  exact congrArg (· + ob (ix2 (0 : Fin 1) col)) (Finset.sum_congr rfl fun k _ => by rw [hh k, hW k])

/-! ## The index maps and the cuts, over the sixteen points -/

/-- The index maps: the hidden row's block index is constant, the matrix tile moves along the rows with the
    point, the bias tile and the logits tile along the columns. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The cuts: every tile is whole but the last point's, which keeps 2257 = 50257 - 15 * 3200 of its 3200 rows or columns. -/
theorem cut_facts1 : ∀ t : Fin cfg1.N,
    win1_1.xsize (grid1.coords t) (1 : Fin 2) = 1024
    ∧ win1_2.xsize (grid1.coords t) (0 : Fin 2) = 1
    ∧ win1_3.xsize (grid1.coords t) (0 : Fin 2) = 1
    ∧ win1_1.xsize (grid1.coords t) (0 : Fin 2) = win1_3.xsize (grid1.coords t) (1 : Fin 2)
    ∧ win1_2.xsize (grid1.coords t) (1 : Fin 2) = win1_3.xsize (grid1.coords t) (1 : Fin 2)
    ∧ ((t.val < 15 ∧ win1_3.xsize (grid1.coords t) (1 : Fin 2) = 3200) ∨ (t.val = 15 ∧ win1_3.xsize (grid1.coords t) (1 : Fin 2) = 2257)) :=
  (by decide +kernel : ∀ t : Fin grid1.N, _)

/-! ## The three input blocks at a symbolic point, read off the arrays -/

variable (V : (c : Dev nD) → (b : Ref sig .tc) → Buf (Elt Ideal) ((c : Thread nD τ).loc b))

/-- The hidden row's block is the whole row at every point. -/
theorem iblk1_row (c : Dev nD) (t : Fin cfg1.N) (k : Fin 1024) :
    ((iblk1 V c 0 t : S1x1024.Idx → Elt Ideal .f32) (ix2 (0 : Fin 1) k) : EReal)
      = (V c main_v11_0 : S1x1024.Idx → EReal) (ix2 (0 : Fin 1) k) := by
  obtain ⟨e00, e01, -⟩ := idx_facts1 t
  unfold iblk1
  rw [View.read_apply]
  show (V c main_v11_0 : S1x1024.Idx → EReal) _ = _
  congr 1
  funext a
  apply Fin.ext
  match a with
  | ⟨0, _⟩ => show win1_0.index t (0 : Fin 2) * 1 + 1 * 0 = 0; omega
  | ⟨1, _⟩ => show win1_0.index t (1 : Fin 2) * 1024 + 1 * k.val = k.val; omega

/-- Row y of the matrix tile at point t, inside the part the fetch moves, is row 3200 t + y of the matrix. -/
theorem wblk8_row (c : Dev nD) (t : Fin cfg1.N) (y : Fin 3200) (col : Fin 50257)
    (hy : y.val < win1_1.xsize (grid1.coords t) (0 : Fin 2)) (hcol : col.val = 3200 * t.val + y.val) (k : Fin 1024) :
    ((wblk8 V c t : S3200x1024.Idx → Elt Ideal .f32) (ix2 y k) : EReal)
      = (V c main_arg12 : S50257x1024.Idx → EReal) (ix2 col k) := by
  obtain ⟨-, -, e10, e11, -⟩ := idx_facts1 t
  obtain ⟨x11, -⟩ := cut_facts1 t
  have hm : win1_1.moved (grid1.coords t) (ix2 y k) = true := (win1_1.moved_iff _ _).mpr fun a => by
    match a with
    | ⟨0, _⟩ => exact hy
    | ⟨1, _⟩ => show k.val < win1_1.xsize (grid1.coords t) (1 : Fin 2); rw [x11]; exact k.isLt
  unfold wblk8 Window.fill
  rw [dif_pos hm]
  unfold iblk1
  rw [View.read_apply]
  show (V c main_arg12 : S50257x1024.Idx → EReal) _ = _
  congr 1
  funext a
  apply Fin.ext
  match a with
  | ⟨0, _⟩ => show win1_1.index t (0 : Fin 2) * 3200 + 1 * y.val = col.val; omega
  | ⟨1, _⟩ => show win1_1.index t (1 : Fin 2) * 1024 + 1 * k.val = k.val; omega

/-- Entry y of the bias tile at point t, inside the part the fetch moves, is entry 3200 t + y of the bias row. -/
theorem bblk8_entry (c : Dev nD) (t : Fin cfg1.N) (y : Fin 3200) (col : Fin 50257)
    (hy : y.val < win1_2.xsize (grid1.coords t) (1 : Fin 2)) (hcol : col.val = 3200 * t.val + y.val) :
    ((bblk8 V c t : S1x3200.Idx → Elt Ideal .f32) (ix2 (0 : Fin 1) y) : EReal)
      = (V c main_v10 : S1x50257.Idx → EReal) (ix2 (0 : Fin 1) col) := by
  obtain ⟨-, -, -, -, e20, e21, -⟩ := idx_facts1 t
  obtain ⟨-, x20, -⟩ := cut_facts1 t
  have hm : win1_2.moved (grid1.coords t) (ix2 (0 : Fin 1) y) = true := (win1_2.moved_iff _ _).mpr fun a => by
    match a with
    | ⟨0, _⟩ => show 0 < win1_2.xsize (grid1.coords t) (0 : Fin 2); rw [x20]; exact Nat.one_pos
    | ⟨1, _⟩ => exact hy
  unfold bblk8 Window.fill
  rw [dif_pos hm]
  unfold iblk1
  rw [View.read_apply]
  show (V c main_v10 : S1x50257.Idx → EReal) _ = _
  congr 1
  funext a
  apply Fin.ext
  match a with
  | ⟨0, _⟩ => show win1_2.index t (0 : Fin 2) * 1 + 1 * 0 = 0; omega
  | ⟨1, _⟩ => show win1_2.index t (1 : Fin 2) * 3200 + 1 * y.val = col.val; omega

/-! ## What a point writes back, and the array after the run -/

/-- What point t writes back is its block of the logits row: at entry y of the part inside the array, column
    3200 t + y, the tile's entry there reads the hidden row, row 3200 t + y of the matrix and entry 3200 t + y of the
    bias, all inside the parts the fetches moved. -/
theorem flushed1_3_eq (c : Dev nD) (t : Fin cfg1.N) :
    (dat1 V c).flushed 3 t
      = ((cfg1.win 3).blk t).view.read (Elt Ideal) (logitsRow (V c main_v11_0) (V c main_arg12) (V c main_v10)) := by
  show (cfg1.win 3).cut (grid1.coords t) ((dat1 V c).after 3 t) = _
  rw [after1_3, out1_3_eq]
  obtain ⟨-, -, -, -, -, -, e30, e31⟩ := idx_facts1 t
  obtain ⟨-, -, x30, x10, x21, x31⟩ := cut_facts1 t
  have hN : cfg1.N = 16 := N_1
  have htN : t.val < 16 := hN ▸ t.isLt
  funext y
  have hy0 : (y 0).val < win1_3.xsize (grid1.coords t) (0 : Fin 2) := (y 0).isLt
  have hy1 : (y 1).val < win1_3.xsize (grid1.coords t) (1 : Fin 2) := (y 1).isLt
  have hy : (y 1).val < 3200 := by omega
  have hcol : 3200 * t.val + (y 1).val < 50257 := by omega
  have hx : win1_3.xinj (grid1.coords t) y = ix2 (0 : Fin 1) (⟨(y 1).val, hy⟩ : Fin 3200) := funext fun a => Fin.ext (by
    match a with
    | ⟨0, _⟩ => show (y 0).val = 0; omega
    | ⟨1, _⟩ => rfl)
  show logitsTileOf (F := Ideal) (iblk1 V c 0 t) (wblk8 V c t) (bblk8 V c t) (win1_3.xinj (grid1.coords t) y)
    = logitsRow (V c main_v11_0) (V c main_arg12) (V c main_v10) (((cfg1.win 3).blk t).view.emb y)
  refine (congrArg (logitsTileOf (F := Ideal) (iblk1 V c 0 t) (wblk8 V c t) (bblk8 V c t)) hx).trans ?_
  refine (tile_entry (iblk1 V c 0 t) (wblk8 V c t) (bblk8 V c t) (V c main_v11_0) (V c main_arg12) (V c main_v10)
    ⟨(y 1).val, hy⟩ ⟨3200 * t.val + (y 1).val, hcol⟩ (iblk1_row V c t)
    (wblk8_row V c t ⟨(y 1).val, hy⟩ ⟨3200 * t.val + (y 1).val, hcol⟩ (by rw [x10]; exact hy1) rfl)
    (bblk8_entry V c t ⟨(y 1).val, hy⟩ ⟨3200 * t.val + (y 1).val, hcol⟩ (by rw [x21]; exact hy1) rfl)).trans ?_
  unfold logitsRow
  congr 1
  apply Fin.ext
  show 3200 * t.val + (y 1).val = win1_3.index t (1 : Fin 2) * 3200 + 1 * (y 1).val
  omega

/-- Column j is in the block of point j / 3200: the blocks are 3200 columns wide, the last one 2257. -/
theorem mem_blk1_3 (t : Fin cfg1.N) (j : Fin 50257) (ht : t.val = j.val / 3200) :
    (ix2 (0 : Fin 1) j : S1x50257.Idx) ∈ ((cfg1.win 3).blk t).view.set := by
  obtain ⟨-, -, -, -, -, -, e30, e31⟩ := idx_facts1 t
  obtain ⟨-, -, x30, -, -, x31⟩ := cut_facts1 t
  have hj : j.val < 50257 := j.isLt
  show (ix2 (0 : Fin 1) j : S1x50257.Idx) ∈ ((View.whole main_v12).slice (win1_3.rect t)).set
  rw [View.set_slice_whole, Rect.mem_set_unit]
  intro a
  match a with
  | ⟨0, _⟩ =>
    show win1_3.index t (0 : Fin 2) * 1 ≤ 0 ∧ 0 < win1_3.index t (0 : Fin 2) * 1 + win1_3.xsize (grid1.coords t) (0 : Fin 2)
    omega
  | ⟨1, _⟩ =>
    show win1_3.index t (1 : Fin 2) * 3200 ≤ j.val ∧ j.val < win1_3.index t (1 : Fin 2) * 3200 + win1_3.xsize (grid1.coords t) (1 : Fin 2)
    omega

variable (m : (ℓ : Loc nD τ sig) → Buf (Elt Ideal) ℓ)

/-- Entry j of the logits array after the second kernel is column j of the logits of its operands as it finds them. -/
theorem W3_logits_col (c : Dev nD) (j : Fin 50257) :
    (W3 m c main_v12 : S1x50257.Idx → EReal) (ix2 (0 : Fin 1) j)
      = logitsCol (W2 m c main_v11_0) (W2 m c main_arg12) (W2 m c main_v10) j := by
  have hN : cfg1.N = 16 := N_1
  have hj : j.val < 50257 := j.isLt
  obtain ⟨t, ht⟩ : ∃ t : Fin cfg1.N, t.val = j.val / 3200 := ⟨⟨j.val / 3200, by rw [hN]; omega⟩, rfl⟩
  have h := (dat1 (V2 m) c).arrAt_apply_of_mem 3
    (logitsRow (V2 m c main_v11_0) (V2 m c main_arg12) (V2 m c main_v10))
    (fun t _ => flushed1_3_eq (V2 m) c t) cfg1.N t (ix2 (0 : Fin 1) j) t.isLt (flush1_3 t) (mem_blk1_3 t j ht)
  exact (congrFun (W3_arr m c 3) (ix2 (0 : Fin 1) j)).trans h

/-- Entry j of the logits array after the second kernel, from its operands as it finds them: the sum over the hidden
    coordinates k of the new hidden state's entry k times the matrix's entry (j, k), plus the bias's entry j. -/
theorem W3_logits (c : Dev nD) (j : Fin 50257) :
    (W3 m c main_v12 : S1x50257.Idx → EReal) (ix2 (0 : Fin 1) j)
      = HAdd.hAdd (α := EReal) (β := EReal) (γ := EReal)
          (∑ k : Fin 1024, HMul.hMul (α := EReal) (β := EReal) (γ := EReal)
            ((W2 m c main_v11_0 : S1x1024.Idx → EReal) (ix2 (0 : Fin 1) k))
            ((W2 m c main_arg12 : S50257x1024.Idx → EReal) (ix2 j k)))
          ((W2 m c main_v10 : S1x50257.Idx → EReal) (ix2 (0 : Fin 1) j)) :=
  W3_logits_col m c j

end Cert.KernelIdeal.Hand

end
-- ==== Proof.Ref.Stretches.lean ====
/- @main's 107 host operations, in program order, as eight consecutive lists (each operation the text of its line in
   proof/ReferenceIdeal.lean; an inlined function's lines over its call's record), and for each list the buffers its
   operations write, one each, in order. A table: no lemma and no proof is here. -/
import proofs.«414457_j10170482557153_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 14 of @main. -/
abbrev opsA : List (HloOp τ sig (Elt F)) :=
  [ StableHlo.reshape main_arg0 main_v0 rfl shapeCasts_S1x1_S_,
    StableHlo.nullary main_c (constantI S_ 32 0#32),
    StableHlo.binary main_v0 main_c main_v1 (cmpi .slt : (⟨S_, .i32⟩ : BufTy).Contents (Elt F) → (⟨S_, .i32⟩ : BufTy).Contents (Elt F) → (⟨S_, .i1⟩ : BufTy).Contents (Elt F)),
    StableHlo.nullary main_c_0 (constantI S_ 32 50257#32),
    StableHlo.binary main_v0 main_c_0 main_v2 (addi : (⟨S_, .i32⟩ : BufTy).Contents (Elt F) → (⟨S_, .i32⟩ : BufTy).Contents (Elt F) → (⟨S_, .i32⟩ : BufTy).Contents (Elt F)),
    StableHlo.ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_1 (constantI S_ 32 0#32),
    StableHlo.nullary main_c_2 (constantI S_ 32 0#32),
    StableHlo.binary main_c_1 main_c_2 main_v4 (cmpi .slt : (⟨S_, .i32⟩ : BufTy).Contents (Elt F) → (⟨S_, .i32⟩ : BufTy).Contents (Elt F) → (⟨S_, .i1⟩ : BufTy).Contents (Elt F)),
    StableHlo.nullary main_c_3 (constantI S_ 32 0#32),
    StableHlo.nullary main_c_4 (constantI S_ 32 1024#32),
    StableHlo.binary main_c_3 main_c_4 main_v5 (addi : (⟨S_, .i32⟩ : BufTy).Contents (Elt F) → (⟨S_, .i32⟩ : BufTy).Contents (Elt F) → (⟨S_, .i32⟩ : BufTy).Contents (Elt F)),
    StableHlo.nullary main_c_5 (constantI S_ 32 0#32),
    StableHlo.ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- The buffers operations 1 to 14 write. -/
abbrev opsA_W : List (Ref sig .tc) := [main_v0, main_c, main_v1, main_c_0, main_v2, main_v3, main_c_1, main_c_2, main_v4, main_c_3, main_c_4, main_v5, main_c_5, main_v6]

/-- Operations 15 to 15 of @main. -/
abbrev opsS : List (HloOp τ sig (Elt F)) :=
  [ StableHlo.unaryIndexed main_arg3 ![main_v3, main_v6] ⟨S_, .i32⟩ main_v7 ((fun x i => Host.dynamicSlice S1x1024 x (fun k => (i k (Shape.Idx.first h_S_)).toInt) sliceFits_S50257x1024_S1x1024) : (⟨S50257x1024, .f32⟩ : BufTy).Contents (Elt F) → (Fin 2 → (⟨S_, .i32⟩ : BufTy).Contents (Elt F)) → (⟨S1x1024, .f32⟩ : BufTy).Contents (Elt F)) ]

/-- The buffers operations 15 to 15 write. -/
abbrev opsS_W : List (Ref sig .tc) := [main_v7]

/-- Operations 16 to 18 of @main. -/
abbrev opsR : List (HloOp τ sig (Elt F)) :=
  [ StableHlo.reshape main_v7 main_v8 rfl shapeCasts_S1x1024_S1024,
    StableHlo.reshape main_v8 main_v9 rfl shapeCasts_S1024_S1x1024,
    StableHlo.reshape main_arg1 main_v10 rfl shapeCasts_S1x1x1024_S1x1024 ]

/-- The buffers operations 16 to 18 write. -/
abbrev opsR_W : List (Ref sig .tc) := [main_v8, main_v9, main_v10]

/-- Operations 19 to 38 of @main. -/
abbrev opsB : List (HloOp τ sig (Elt F)) :=
  [ StableHlo.binary main_v9 main_v10 main_v11 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    StableHlo.unary main_arg4 main_v12 ((transpose S2048x512 [1, 0] · transposes_S512x2048_S2048x512_1_0) : (⟨S512x2048, .f32⟩ : BufTy).Contents (Elt F) → (⟨S2048x512, .f32⟩ : BufTy).Contents (Elt F)),
    StableHlo.binary main_v11 main_v12 main_v13 ((fun l r => Host.dotGeneral dot_S1x2048_S2048x512_S1x512_1_0_0_1_n_n none l r) : (⟨S1x2048, .f32⟩ : BufTy).Contents (Elt F) → (⟨S2048x512, .f32⟩ : BufTy).Contents (Elt F) → (⟨S1x512, .f32⟩ : BufTy).Contents (Elt F)),
    StableHlo.unary main_arg5 main_v14 (broadcastInDim S1x512 ![1] bcast_S512_S1x512_1 : (⟨S512, .f32⟩ : BufTy).Contents (Elt F) → (⟨S1x512, .f32⟩ : BufTy).Contents (Elt F)),
    StableHlo.binary main_v13 main_v14 main_v15 (addf : (⟨S1x512, .f32⟩ : BufTy).Contents (Elt F) → (⟨S1x512, .f32⟩ : BufTy).Contents (Elt F) → (⟨S1x512, .f32⟩ : BufTy).Contents (Elt F)),
    StableHlo.nullary main_cst (constant S_ .f32 0xFF800000#32),
    StableHlo.binary main_v15 main_cst main_v16 ((fun x v => Host.reduce FloatOps.maximumf x v reducesTo_S1x512_S1_d1 h_S_) : (⟨S1x512, .f32⟩ : BufTy).Contents (Elt F) → (⟨S_, .f32⟩ : BufTy).Contents (Elt F) → (⟨S1, .f32⟩ : BufTy).Contents (Elt F)),
    StableHlo.nullary main_cst_6 (constant S_ .f32 0xFF800000#32),
    StableHlo.unary main_cst_6 main_v17 (broadcastInDim S1 ![] bcast_S_S1 : (⟨S_, .f32⟩ : BufTy).Contents (Elt F) → (⟨S1, .f32⟩ : BufTy).Contents (Elt F)),
    StableHlo.binary main_v17 main_v16 main_v18 (maximumf : (⟨S1, .f32⟩ : BufTy).Contents (Elt F) → (⟨S1, .f32⟩ : BufTy).Contents (Elt F) → (⟨S1, .f32⟩ : BufTy).Contents (Elt F)),
    StableHlo.unary main_v18 main_v19 (broadcastInDim S1x1 ![0] bcast_S1_S1x1_0 : (⟨S1, .f32⟩ : BufTy).Contents (Elt F) → (⟨S1x1, .f32⟩ : BufTy).Contents (Elt F)),
    StableHlo.unary main_v19 main_v20 (broadcastInDim S1x512 ![0, 1] bcast_S1x1_S1x512_0_1 : (⟨S1x1, .f32⟩ : BufTy).Contents (Elt F) → (⟨S1x512, .f32⟩ : BufTy).Contents (Elt F)),
    StableHlo.binary main_v15 main_v20 main_v21 (subf : (⟨S1x512, .f32⟩ : BufTy).Contents (Elt F) → (⟨S1x512, .f32⟩ : BufTy).Contents (Elt F) → (⟨S1x512, .f32⟩ : BufTy).Contents (Elt F)),
    StableHlo.unary main_v21 main_v22 (Host.exp : (⟨S1x512, .f32⟩ : BufTy).Contents (Elt F) → (⟨S1x512, .f32⟩ : BufTy).Contents (Elt F)),
    StableHlo.nullary main_cst_7 (constant S_ .f32 0x00000000#32),
    StableHlo.binary main_v22 main_cst_7 main_v23 ((fun x v => Host.reduceAdd x v reducesTo_S1x512_S1_d1 h_S_) : (⟨S1x512, .f32⟩ : BufTy).Contents (Elt F) → (⟨S_, .f32⟩ : BufTy).Contents (Elt F) → (⟨S1, .f32⟩ : BufTy).Contents (Elt F)),
    StableHlo.unary main_v23 main_v24 (broadcastInDim S1x1 ![0] bcast_S1_S1x1_0 : (⟨S1, .f32⟩ : BufTy).Contents (Elt F) → (⟨S1x1, .f32⟩ : BufTy).Contents (Elt F)),
    StableHlo.unary main_v24 main_v25 (broadcastInDim S1x512 ![0, 1] bcast_S1x1_S1x512_0_1 : (⟨S1x1, .f32⟩ : BufTy).Contents (Elt F) → (⟨S1x512, .f32⟩ : BufTy).Contents (Elt F)),
    StableHlo.binary main_v22 main_v25 main_v26 (Host.divf : (⟨S1x512, .f32⟩ : BufTy).Contents (Elt F) → (⟨S1x512, .f32⟩ : BufTy).Contents (Elt F) → (⟨S1x512, .f32⟩ : BufTy).Contents (Elt F)),
    StableHlo.binary main_v26 main_arg2 main_v27 ((fun l r => Host.dotGeneral dot_S1x512_S512x1024_S1x1024_1_0_0_1_n_n none l r) : (⟨S1x512, .f32⟩ : BufTy).Contents (Elt F) → (⟨S512x1024, .f32⟩ : BufTy).Contents (Elt F) → (⟨S1x1024, .f32⟩ : BufTy).Contents (Elt F)) ]

/-- The buffers operations 19 to 38 write. -/
abbrev opsB_W : List (Ref sig .tc) := [main_v11, main_v12, main_v13, main_v14, main_v15, main_cst, main_v16, main_cst_6, main_v17, main_v18, main_v19, main_v20, main_v21, main_v22, main_cst_7, main_v23, main_v24, main_v25, main_v26, main_v27]

/-- Operations 39 to 60 of @main. -/
abbrev opsC : List (HloOp τ sig (Elt F)) :=
  [ StableHlo.binary main_v9 main_v27 main_v28 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    StableHlo.unary main_arg6 main_v29 ((transpose S2048x1024 [1, 0] · transposes_S1024x2048_S2048x1024_1_0) : (⟨S1024x2048, .f32⟩ : BufTy).Contents (Elt F) → (⟨S2048x1024, .f32⟩ : BufTy).Contents (Elt F)),
    StableHlo.binary main_v28 main_v29 main_v30 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    StableHlo.unary main_arg7 main_v31 (broadcastInDim S1x1024 ![1] bcast_S1024_S1x1024_1 : (⟨S1024, .f32⟩ : BufTy).Contents (Elt F) → (⟨S1x1024, .f32⟩ : BufTy).Contents (Elt F)),
    StableHlo.binary main_v30 main_v31 main_v32 (addf : (⟨S1x1024, .f32⟩ : BufTy).Contents (Elt F) → (⟨S1x1024, .f32⟩ : BufTy).Contents (Elt F) → (⟨S1x1024, .f32⟩ : BufTy).Contents (Elt F)),
    TRef.nullary main_call0.cst (constant S_ .f32 0x00000000#32),
    TRef.unary main_call0.cst main_call0.v0 (broadcastInDim S1x1024 ![] bcast_S_S1x1024),
    TRef.binary (TRef.of (T := ⟨S1x1024, .f32⟩) main_v32) main_call0.v0 main_call0.v1 maximumf,
    StableHlo.unary main_arg8 main_v34 ((transpose S1024x3072 [1, 0] · transposes_S3072x1024_S1024x3072_1_0) : (⟨S3072x1024, .f32⟩ : BufTy).Contents (Elt F) → (⟨S1024x3072, .f32⟩ : BufTy).Contents (Elt F)),
    StableHlo.binary main_v33 main_v34 main_v35 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    StableHlo.unary main_arg10 main_v36 (broadcastInDim S1x3072 ![1] bcast_S3072_S1x3072_1 : (⟨S3072, .f32⟩ : BufTy).Contents (Elt F) → (⟨S1x3072, .f32⟩ : BufTy).Contents (Elt F)),
    StableHlo.binary main_v35 main_v36 main_v37 (addf : (⟨S1x3072, .f32⟩ : BufTy).Contents (Elt F) → (⟨S1x3072, .f32⟩ : BufTy).Contents (Elt F) → (⟨S1x3072, .f32⟩ : BufTy).Contents (Elt F)),
    StableHlo.unary main_arg9 main_v38 ((transpose S1024x3072 [1, 0] · transposes_S3072x1024_S1024x3072_1_0) : (⟨S3072x1024, .f32⟩ : BufTy).Contents (Elt F) → (⟨S1024x3072, .f32⟩ : BufTy).Contents (Elt F)),
    StableHlo.binary main_v10 main_v38 main_v39 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    StableHlo.unary main_arg11 main_v40 (broadcastInDim S1x3072 ![1] bcast_S3072_S1x3072_1 : (⟨S3072, .f32⟩ : BufTy).Contents (Elt F) → (⟨S1x3072, .f32⟩ : BufTy).Contents (Elt F)),
    StableHlo.binary main_v39 main_v40 main_v41 (addf : (⟨S1x3072, .f32⟩ : BufTy).Contents (Elt F) → (⟨S1x3072, .f32⟩ : BufTy).Contents (Elt F) → (⟨S1x3072, .f32⟩ : BufTy).Contents (Elt F)),
    StableHlo.unary main_v37 main_v42 ((extractStridedSlice S1x1024 ![0, 0] · slices_S1x3072_S1x1024_0_0) : (⟨S1x3072, .f32⟩ : BufTy).Contents (Elt F) → (⟨S1x1024, .f32⟩ : BufTy).Contents (Elt F)),
    StableHlo.unary main_v37 main_v43 ((extractStridedSlice S1x1024 ![0, 1024] · slices_S1x3072_S1x1024_0_1024) : (⟨S1x3072, .f32⟩ : BufTy).Contents (Elt F) → (⟨S1x1024, .f32⟩ : BufTy).Contents (Elt F)),
    StableHlo.unary main_v37 main_v44 ((extractStridedSlice S1x1024 ![0, 2048] · slices_S1x3072_S1x1024_0_2048) : (⟨S1x3072, .f32⟩ : BufTy).Contents (Elt F) → (⟨S1x1024, .f32⟩ : BufTy).Contents (Elt F)),
    StableHlo.unary main_v41 main_v45 ((extractStridedSlice S1x1024 ![0, 0] · slices_S1x3072_S1x1024_0_0) : (⟨S1x3072, .f32⟩ : BufTy).Contents (Elt F) → (⟨S1x1024, .f32⟩ : BufTy).Contents (Elt F)),
    StableHlo.unary main_v41 main_v46 ((extractStridedSlice S1x1024 ![0, 1024] · slices_S1x3072_S1x1024_0_1024) : (⟨S1x3072, .f32⟩ : BufTy).Contents (Elt F) → (⟨S1x1024, .f32⟩ : BufTy).Contents (Elt F)),
    StableHlo.unary main_v41 main_v47 ((extractStridedSlice S1x1024 ![0, 2048] · slices_S1x3072_S1x1024_0_2048) : (⟨S1x3072, .f32⟩ : BufTy).Contents (Elt F) → (⟨S1x1024, .f32⟩ : BufTy).Contents (Elt F)) ]

/-- The buffers operations 39 to 60 write. -/
abbrev opsC_W : List (Ref sig .tc) := [main_v28, main_v29, main_v30, main_v31, main_v32, main_call0_cst, main_call0_v0, main_v33, main_v34, main_v35, main_v36, main_v37, main_v38, main_v39, main_v40, main_v41, main_v42, main_v43, main_v44, main_v45, main_v46, main_v47]

/-- Operations 61 to 87 of @main. -/
abbrev opsD : List (HloOp τ sig (Elt F)) :=
  [ StableHlo.binary main_v42 main_v45 main_v48 (addf : (⟨S1x1024, .f32⟩ : BufTy).Contents (Elt F) → (⟨S1x1024, .f32⟩ : BufTy).Contents (Elt F) → (⟨S1x1024, .f32⟩ : BufTy).Contents (Elt F)),
    StableHlo.unary main_v48 main_v49 (Host.negf : (⟨S1x1024, .f32⟩ : BufTy).Contents (Elt F) → (⟨S1x1024, .f32⟩ : BufTy).Contents (Elt F)),
    StableHlo.unary main_v49 main_v50 (Host.exp : (⟨S1x1024, .f32⟩ : BufTy).Contents (Elt F) → (⟨S1x1024, .f32⟩ : BufTy).Contents (Elt F)),
    StableHlo.nullary main_cst_8 (constant S_ .f32 0x3F800000#32),
    StableHlo.unary main_cst_8 main_v51 (broadcastInDim S1x1024 ![] bcast_S_S1x1024 : (⟨S_, .f32⟩ : BufTy).Contents (Elt F) → (⟨S1x1024, .f32⟩ : BufTy).Contents (Elt F)),
    StableHlo.binary main_v51 main_v50 main_v52 (addf : (⟨S1x1024, .f32⟩ : BufTy).Contents (Elt F) → (⟨S1x1024, .f32⟩ : BufTy).Contents (Elt F) → (⟨S1x1024, .f32⟩ : BufTy).Contents (Elt F)),
    StableHlo.nullary main_cst_9 (constant S_ .f32 0x3F800000#32),
    StableHlo.unary main_cst_9 main_v53 (broadcastInDim S1x1024 ![] bcast_S_S1x1024 : (⟨S_, .f32⟩ : BufTy).Contents (Elt F) → (⟨S1x1024, .f32⟩ : BufTy).Contents (Elt F)),
    StableHlo.binary main_v53 main_v52 main_v54 (Host.divf : (⟨S1x1024, .f32⟩ : BufTy).Contents (Elt F) → (⟨S1x1024, .f32⟩ : BufTy).Contents (Elt F) → (⟨S1x1024, .f32⟩ : BufTy).Contents (Elt F)),
    StableHlo.binary main_v43 main_v46 main_v55 (addf : (⟨S1x1024, .f32⟩ : BufTy).Contents (Elt F) → (⟨S1x1024, .f32⟩ : BufTy).Contents (Elt F) → (⟨S1x1024, .f32⟩ : BufTy).Contents (Elt F)),
    StableHlo.unary main_v55 main_v56 (Host.negf : (⟨S1x1024, .f32⟩ : BufTy).Contents (Elt F) → (⟨S1x1024, .f32⟩ : BufTy).Contents (Elt F)),
    StableHlo.unary main_v56 main_v57 (Host.exp : (⟨S1x1024, .f32⟩ : BufTy).Contents (Elt F) → (⟨S1x1024, .f32⟩ : BufTy).Contents (Elt F)),
    StableHlo.nullary main_cst_10 (constant S_ .f32 0x3F800000#32),
    StableHlo.unary main_cst_10 main_v58 (broadcastInDim S1x1024 ![] bcast_S_S1x1024 : (⟨S_, .f32⟩ : BufTy).Contents (Elt F) → (⟨S1x1024, .f32⟩ : BufTy).Contents (Elt F)),
    StableHlo.binary main_v58 main_v57 main_v59 (addf : (⟨S1x1024, .f32⟩ : BufTy).Contents (Elt F) → (⟨S1x1024, .f32⟩ : BufTy).Contents (Elt F) → (⟨S1x1024, .f32⟩ : BufTy).Contents (Elt F)),
    StableHlo.nullary main_cst_11 (constant S_ .f32 0x3F800000#32),
    StableHlo.unary main_cst_11 main_v60 (broadcastInDim S1x1024 ![] bcast_S_S1x1024 : (⟨S_, .f32⟩ : BufTy).Contents (Elt F) → (⟨S1x1024, .f32⟩ : BufTy).Contents (Elt F)),
    StableHlo.binary main_v60 main_v59 main_v61 (Host.divf : (⟨S1x1024, .f32⟩ : BufTy).Contents (Elt F) → (⟨S1x1024, .f32⟩ : BufTy).Contents (Elt F) → (⟨S1x1024, .f32⟩ : BufTy).Contents (Elt F)),
    StableHlo.binary main_v54 main_v47 main_v62 (mulf : (⟨S1x1024, .f32⟩ : BufTy).Contents (Elt F) → (⟨S1x1024, .f32⟩ : BufTy).Contents (Elt F) → (⟨S1x1024, .f32⟩ : BufTy).Contents (Elt F)),
    StableHlo.binary main_v44 main_v62 main_v63 (addf : (⟨S1x1024, .f32⟩ : BufTy).Contents (Elt F) → (⟨S1x1024, .f32⟩ : BufTy).Contents (Elt F) → (⟨S1x1024, .f32⟩ : BufTy).Contents (Elt F)),
    StableHlo.unary main_v63 main_v64 (Host.tanh : (⟨S1x1024, .f32⟩ : BufTy).Contents (Elt F) → (⟨S1x1024, .f32⟩ : BufTy).Contents (Elt F)),
    StableHlo.nullary main_cst_12 (constant S_ .f32 0x3F800000#32),
    StableHlo.unary main_cst_12 main_v65 (broadcastInDim S1x1024 ![] bcast_S_S1x1024 : (⟨S_, .f32⟩ : BufTy).Contents (Elt F) → (⟨S1x1024, .f32⟩ : BufTy).Contents (Elt F)),
    StableHlo.binary main_v65 main_v61 main_v66 (subf : (⟨S1x1024, .f32⟩ : BufTy).Contents (Elt F) → (⟨S1x1024, .f32⟩ : BufTy).Contents (Elt F) → (⟨S1x1024, .f32⟩ : BufTy).Contents (Elt F)),
    StableHlo.binary main_v66 main_v64 main_v67 (mulf : (⟨S1x1024, .f32⟩ : BufTy).Contents (Elt F) → (⟨S1x1024, .f32⟩ : BufTy).Contents (Elt F) → (⟨S1x1024, .f32⟩ : BufTy).Contents (Elt F)),
    StableHlo.binary main_v61 main_v10 main_v68 (mulf : (⟨S1x1024, .f32⟩ : BufTy).Contents (Elt F) → (⟨S1x1024, .f32⟩ : BufTy).Contents (Elt F) → (⟨S1x1024, .f32⟩ : BufTy).Contents (Elt F)),
    StableHlo.binary main_v67 main_v68 main_v69 (addf : (⟨S1x1024, .f32⟩ : BufTy).Contents (Elt F) → (⟨S1x1024, .f32⟩ : BufTy).Contents (Elt F) → (⟨S1x1024, .f32⟩ : BufTy).Contents (Elt F)) ]

/-- The buffers operations 61 to 87 write. -/
abbrev opsD_W : List (Ref sig .tc) := [main_v48, main_v49, main_v50, main_cst_8, main_v51, main_v52, main_cst_9, main_v53, main_v54, main_v55, main_v56, main_v57, main_cst_10, main_v58, main_v59, main_cst_11, main_v60, main_v61, main_v62, main_v63, main_v64, main_cst_12, main_v65, main_v66, main_v67, main_v68, main_v69]

/-- Operations 88 to 91 of @main. -/
abbrev opsE : List (HloOp τ sig (Elt F)) :=
  [ StableHlo.unary main_arg12 main_v70 ((transpose S1024x50257 [1, 0] · transposes_S50257x1024_S1024x50257_1_0) : (⟨S50257x1024, .f32⟩ : BufTy).Contents (Elt F) → (⟨S1024x50257, .f32⟩ : BufTy).Contents (Elt F)),
    StableHlo.binary main_v69 main_v70 main_v71 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    StableHlo.unary main_arg13 main_v72 (broadcastInDim S1x50257 ![1] bcast_S50257_S1x50257_1 : (⟨S50257, .f32⟩ : BufTy).Contents (Elt F) → (⟨S1x50257, .f32⟩ : BufTy).Contents (Elt F)),
    StableHlo.binary main_v71 main_v72 main_v73 (addf : (⟨S1x50257, .f32⟩ : BufTy).Contents (Elt F) → (⟨S1x50257, .f32⟩ : BufTy).Contents (Elt F) → (⟨S1x50257, .f32⟩ : BufTy).Contents (Elt F)) ]

/-- The buffers operations 88 to 91 write. -/
abbrev opsE_W : List (Ref sig .tc) := [main_v70, main_v71, main_v72, main_v73]

/-- Operations 92 to 107 of @main. -/
abbrev opsL : List (HloOp τ sig (Elt F)) :=
  [ TRef.nullary main_call1.cst (constant S_ .f32 0xFF800000#32),
    TRef.binary (TRef.of (T := ⟨S1x50257, .f32⟩) main_v73) main_call1.cst main_call1.v0 (fun x v => Host.reduce FloatOps.maximumf x v reducesTo_S1x50257_S1_d1 h_S_),
    TRef.nullary main_call1.cst_0 (constant S_ .f32 0xFF800000#32),
    TRef.unary main_call1.cst_0 main_call1.v1 (broadcastInDim S1 ![] bcast_S_S1),
    TRef.binary main_call1.v1 main_call1.v0 main_call1.v2 maximumf,
    TRef.unary main_call1.v2 main_call1.v3 (broadcastInDim S1x1 ![0] bcast_S1_S1x1_0),
    TRef.unary main_call1.v3 main_call1.v4 (broadcastInDim S1x50257 ![0, 1] bcast_S1x1_S1x50257_0_1),
    TRef.binary (TRef.of (T := ⟨S1x50257, .f32⟩) main_v73) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S1x50257_S1_d1 h_S_),
    TRef.unary main_call1.v7 main_call1.v8 (broadcastInDim S1x1 ![0] bcast_S1_S1x1_0),
    TRef.unary main_call1.v8 main_call1.v9 Host.log,
    TRef.unary main_call1.v9 main_call1.v10 (broadcastInDim S1x50257 ![0, 1] bcast_S1x1_S1x50257_0_1),
    TRef.binary main_call1.v5 main_call1.v10 main_call1.v11 subf,
    StableHlo.unary main_v69 main_v75 (broadcastInDim S1x1x1024 ![1, 2] bcast_S1x1024_S1x1x1024_1_2 : (⟨S1x1024, .f32⟩ : BufTy).Contents (Elt F) → (⟨S1x1x1024, .f32⟩ : BufTy).Contents (Elt F)) ]

/-- The buffers operations 92 to 107 write. -/
abbrev opsL_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v74, main_v75]

end Cert.ReferenceIdeal.HandRun

end
-- ==== Proof.Ref.Run.lean ====
/-
  The reference program's run, stated over its stages: every weakly fair execution of its host operations terminates,
  nothing faulting, with the three results at the stages' values of the launch arguments and every argument as launched.
  The program is a line of 107 host operations with two inlined functions (relu, log_softmax); each operation writes
  its own buffer from buffers written before it, so the run is the fold of the operations over the launch memory. The
  fold is read back stretch by stretch: the line is cut into eight consecutive stretches (a cut before each
  concatenate, one around the dynamic slice, one before the log-softmax), and for each stretch a lemma says what the
  buffers a later stretch reads hold after it, given what the buffers it reads held before it. No stretch writes an
  argument, and a buffer written in one stretch is written in no other, so what one stretch leaves is carried
  unchanged to the stretch that reads it.
-/
import proofs.«414457_j10170482557153_3_alg».proof.Proof.Ref.Read
import proofs.«414457_j10170482557153_3_alg».proof.Proof.Ref.Ops
import proofs.«414457_j10170482557153_3_alg».proof.Proof.Ref.Stretches
import Idealize.ShloMosaic.Lib.StableHlo.Run
import Idealize.ShloMosaic.Adequacy
import Idealize.ShloMosaic.Init

set_option maxRecDepth 16384

noncomputable section

namespace Cert.ReferenceIdeal.HandRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-! ## What each stretch writes, and what it keeps -/

/-- An operation that writes the one buffer `y` writes inside any list of references holding `y`. -/
theorem writes_sub_of {op : HloOp τ sig (Elt F)} {y : Ref sig .tc} {L : List (Ref sig .tc)}
    (hw : op.writes = {Proc.devRef .tc y}) (hy : y ∈ L) :
    op.writes ⊆ (L.map (Proc.devRef (τ := τ) .tc)).toFinset := by
  rw [hw, Finset.singleton_subset_iff, List.mem_toFinset]
  exact List.mem_map_of_mem hy

theorem opsA_writes : (opsA : List (HloOp τ sig (Elt F))).Forall fun op =>
    op.writes ⊆ (opsA_W.map (Proc.devRef (τ := τ) .tc)).toFinset := by
  simp only [List.Forall]
  repeat' apply And.intro
  all_goals exact writes_sub_of rfl (by decide)

theorem opsS_writes : (opsS : List (HloOp τ sig (Elt F))).Forall fun op =>
    op.writes ⊆ (opsS_W.map (Proc.devRef (τ := τ) .tc)).toFinset := by
  simp only [List.Forall]
  repeat' apply And.intro
  all_goals exact writes_sub_of rfl (by decide)

theorem opsR_writes : (opsR : List (HloOp τ sig (Elt F))).Forall fun op =>
    op.writes ⊆ (opsR_W.map (Proc.devRef (τ := τ) .tc)).toFinset := by
  simp only [List.Forall]
  repeat' apply And.intro
  all_goals exact writes_sub_of rfl (by decide)

theorem opsB_writes : (opsB : List (HloOp τ sig (Elt F))).Forall fun op =>
    op.writes ⊆ (opsB_W.map (Proc.devRef (τ := τ) .tc)).toFinset := by
  simp only [List.Forall]
  repeat' apply And.intro
  all_goals exact writes_sub_of rfl (by decide)

theorem opsC_writes : (opsC : List (HloOp τ sig (Elt F))).Forall fun op =>
    op.writes ⊆ (opsC_W.map (Proc.devRef (τ := τ) .tc)).toFinset := by
  simp only [List.Forall]
  repeat' apply And.intro
  all_goals exact writes_sub_of rfl (by decide)

theorem opsD_writes : (opsD : List (HloOp τ sig (Elt F))).Forall fun op =>
    op.writes ⊆ (opsD_W.map (Proc.devRef (τ := τ) .tc)).toFinset := by
  simp only [List.Forall]
  repeat' apply And.intro
  all_goals exact writes_sub_of rfl (by decide)

theorem opsE_writes : (opsE : List (HloOp τ sig (Elt F))).Forall fun op =>
    op.writes ⊆ (opsE_W.map (Proc.devRef (τ := τ) .tc)).toFinset := by
  simp only [List.Forall]
  repeat' apply And.intro
  all_goals exact writes_sub_of rfl (by decide)

theorem opsL_writes : (opsL : List (HloOp τ sig (Elt F))).Forall fun op =>
    op.writes ⊆ (opsL_W.map (Proc.devRef (τ := τ) .tc)).toFinset := by
  simp only [List.Forall]
  repeat' apply And.intro
  all_goals exact writes_sub_of rfl (by decide)

/-- @main's arguments. -/
abbrev argRefs : List (Ref sig .tc) :=
  [main_arg0, main_arg1, main_arg2, main_arg3, main_arg4, main_arg5, main_arg6, main_arg7, main_arg8, main_arg9,
    main_arg10, main_arg11, main_arg12, main_arg13]

/-- `W` holds every argument of @main as `V` does. -/
def ArgsAs (V W : Valuation τ sig (Elt F)) : Prop :=
  ∀ r ∈ argRefs, W (Proc.devRef .tc r) = V (Proc.devRef .tc r)

theorem ArgsAs.refl (V : Valuation τ sig (Elt F)) : ArgsAs V V := fun _ _ => rfl

/-- A line that writes no argument keeps the arguments. -/
theorem ArgsAs.after {V W : Valuation τ sig (Elt F)} (h : ArgsAs V W) (l : List (HloOp τ sig (Elt F)))
    (L : List (Ref sig .tc)) (hw : l.Forall fun op => op.writes ⊆ (L.map (Proc.devRef (τ := τ) .tc)).toFinset)
    (hL : ∀ r ∈ argRefs, r ∉ L) : ArgsAs V (after l W) :=
  fun r hr => (after_of_writes_sub l W hw (hL r hr)).trans (h r hr)

/-! ## The stages at a valuation's arguments -/

section Stages

variable (V : Valuation τ sig (Elt F))

/-- Argument `k` of @main as `V` holds it, at its tensor type. -/
abbrev a0 : (⟨S1x1, .i32⟩ : BufTy).Contents (Elt F) := V (Proc.devRef .tc main_arg0)
abbrev a1 : (⟨S1x1x1024, .f32⟩ : BufTy).Contents (Elt F) := V (Proc.devRef .tc main_arg1)
abbrev a2 : (⟨S512x1024, .f32⟩ : BufTy).Contents (Elt F) := V (Proc.devRef .tc main_arg2)
abbrev a3 : (⟨S50257x1024, .f32⟩ : BufTy).Contents (Elt F) := V (Proc.devRef .tc main_arg3)
abbrev a4 : (⟨S512x2048, .f32⟩ : BufTy).Contents (Elt F) := V (Proc.devRef .tc main_arg4)
abbrev a5 : (⟨S512, .f32⟩ : BufTy).Contents (Elt F) := V (Proc.devRef .tc main_arg5)
abbrev a6 : (⟨S1024x2048, .f32⟩ : BufTy).Contents (Elt F) := V (Proc.devRef .tc main_arg6)
abbrev a7 : (⟨S1024, .f32⟩ : BufTy).Contents (Elt F) := V (Proc.devRef .tc main_arg7)
abbrev a8 : (⟨S3072x1024, .f32⟩ : BufTy).Contents (Elt F) := V (Proc.devRef .tc main_arg8)
abbrev a9 : (⟨S3072x1024, .f32⟩ : BufTy).Contents (Elt F) := V (Proc.devRef .tc main_arg9)
abbrev a10 : (⟨S3072, .f32⟩ : BufTy).Contents (Elt F) := V (Proc.devRef .tc main_arg10)
abbrev a11 : (⟨S3072, .f32⟩ : BufTy).Contents (Elt F) := V (Proc.devRef .tc main_arg11)
abbrev a12 : (⟨S50257x1024, .f32⟩ : BufTy).Contents (Elt F) := V (Proc.devRef .tc main_arg12)
abbrev a13 : (⟨S50257, .f32⟩ : BufTy).Contents (Elt F) := V (Proc.devRef .tc main_arg13)

/-- The stages a later stretch reads, at `V`'s arguments. -/
abbrev s3 := val_main_v3 (F := F) (a0 V)
abbrev s7 := val_main_v7 (F := F) (a0 V) (a3 V)
abbrev s9 := val_main_v9 (F := F) (a0 V) (a3 V)
abbrev s10 := val_main_v10 (F := F) (a1 V)
abbrev s26 := val_main_v26 (F := F) (a0 V) (a1 V) (a3 V) (a4 V) (a5 V)
abbrev s27 := val_main_v27 (F := F) (a0 V) (a1 V) (a2 V) (a3 V) (a4 V) (a5 V)
abbrev s42 := val_main_v42 (F := F) (a0 V) (a1 V) (a2 V) (a3 V) (a4 V) (a5 V) (a6 V) (a7 V) (a8 V) (a10 V)
abbrev s43 := val_main_v43 (F := F) (a0 V) (a1 V) (a2 V) (a3 V) (a4 V) (a5 V) (a6 V) (a7 V) (a8 V) (a10 V)
abbrev s44 := val_main_v44 (F := F) (a0 V) (a1 V) (a2 V) (a3 V) (a4 V) (a5 V) (a6 V) (a7 V) (a8 V) (a10 V)
abbrev s45 := val_main_v45 (F := F) (a1 V) (a9 V) (a11 V)
abbrev s46 := val_main_v46 (F := F) (a1 V) (a9 V) (a11 V)
abbrev s47 := val_main_v47 (F := F) (a1 V) (a9 V) (a11 V)
abbrev s69 := val_main_v69 (F := F) (a0 V) (a1 V) (a2 V) (a3 V) (a4 V) (a5 V) (a6 V) (a7 V) (a8 V) (a9 V) (a10 V) (a11 V)
abbrev s73 := val_main_v73 (F := F) (a0 V) (a1 V) (a2 V) (a3 V) (a4 V) (a5 V) (a6 V) (a7 V) (a8 V) (a9 V) (a10 V) (a11 V) (a12 V) (a13 V)
abbrev s74 := val_main_v74 (F := F) (a0 V) (a1 V) (a2 V) (a3 V) (a4 V) (a5 V) (a6 V) (a7 V) (a8 V) (a9 V) (a10 V) (a11 V) (a12 V) (a13 V)
abbrev s75 := val_main_v75 (F := F) (a0 V) (a1 V) (a2 V) (a3 V) (a4 V) (a5 V) (a6 V) (a7 V) (a8 V) (a9 V) (a10 V) (a11 V)

end Stages

/-! ## The stretches -/

/-- Stretch A: from the arguments, the two starts of the dynamic slice. -/
theorem stretchA (V W : Valuation τ sig (Elt F)) (hA : ArgsAs V W) :
    after opsA W (Proc.devRef .tc main_v3) = s3 V
    ∧ after opsA W (Proc.devRef .tc main_v6) = val_main_v6 (F := F) := by
  refine ⟨?_, ?_⟩
  · after_results
    rw [hA main_arg0 (by decide)]
    rfl
  · after_results
    rfl

/-- An indexed unary operation over a literal pair of index references: its result with each index's contents
    at its own reference, so that what the two references hold can be rewritten. -/
theorem unaryIndexed_result_pair (a i0 i1 y : Ref sig .tc) (T : BufTy)
    (f : a.ty.Contents (Elt F) → (Fin 2 → T.Contents (Elt F)) → y.ty.Contents (Elt F)) (hT ha hix hy)
    (W : Valuation τ sig (Elt F)) :
    (unaryIndexed (τ := τ) a ![i0, i1] T y f hT ha hix hy).result W (Proc.devRef .tc y)
      = f (W (Proc.devRef .tc a))
          ![cast (congrArg (fun U : BufTy => U.Contents (Elt F)) (hT 0)) (W (Proc.devRef .tc i0)),
            cast (congrArg (fun U : BufTy => U.Contents (Elt F)) (hT 1)) (W (Proc.devRef .tc i1))] := by
  rw [unaryIndexed_result]
  congr 1
  funext k
  fin_cases k <;> rfl

/-- Stretch S: the table's row at the two starts. -/
theorem stretchS (V W : Valuation τ sig (Elt F)) (hA : ArgsAs V W)
    (h3 : W (Proc.devRef .tc main_v3) = s3 V) (h6 : W (Proc.devRef .tc main_v6) = val_main_v6 (F := F)) :
    after opsS W (Proc.devRef .tc main_v7) = s7 V := by
  simp only [after_cons, after_nil]
  rw [unaryIndexed_result_pair, h3, h6, hA main_arg3 (by decide)]
  rfl

/-- Stretch R: that row and the second argument, each reshaped to a 1 × 1024 row. -/
theorem stretchR (V W : Valuation τ sig (Elt F)) (hA : ArgsAs V W)
    (h7 : W (Proc.devRef .tc main_v7) = s7 V) :
    after opsR W (Proc.devRef .tc main_v9) = s9 V
    ∧ after opsR W (Proc.devRef .tc main_v10) = s10 V := by
  refine ⟨?_, ?_⟩
  · after_results
    rw [h7]
    rfl
  · after_results
    rw [hA main_arg1 (by decide)]
    rfl

/-- Stretch B: the two rows concatenated, times a transposed matrix, plus a bias; the softmax of that row; its
    product with the third argument. -/
theorem stretchB (V W : Valuation τ sig (Elt F)) (hA : ArgsAs V W)
    (h9 : W (Proc.devRef .tc main_v9) = s9 V) (h10 : W (Proc.devRef .tc main_v10) = s10 V) :
    after opsB W (Proc.devRef .tc main_v26) = s26 V
    ∧ after opsB W (Proc.devRef .tc main_v27) = s27 V := by
  refine ⟨?_, ?_⟩
  · after_results_simp
    rw [h9, h10, hA main_arg4 (by decide), hA main_arg5 (by decide)]
    rfl
  · after_results_simp
    rw [h9, h10, hA main_arg2 (by decide), hA main_arg4 (by decide), hA main_arg5 (by decide)]
    rfl

/-- Stretch C: the first row and that product concatenated, times a transposed matrix, plus a bias; its positive
    part; two products with transposed matrices plus biases, each cut into its three thirds. -/
theorem stretchC (V W : Valuation τ sig (Elt F)) (hA : ArgsAs V W)
    (h9 : W (Proc.devRef .tc main_v9) = s9 V) (h10 : W (Proc.devRef .tc main_v10) = s10 V)
    (h27 : W (Proc.devRef .tc main_v27) = s27 V) :
    after opsC W (Proc.devRef .tc main_v42) = s42 V
    ∧ after opsC W (Proc.devRef .tc main_v43) = s43 V
    ∧ after opsC W (Proc.devRef .tc main_v44) = s44 V
    ∧ after opsC W (Proc.devRef .tc main_v45) = s45 V
    ∧ after opsC W (Proc.devRef .tc main_v46) = s46 V
    ∧ after opsC W (Proc.devRef .tc main_v47) = s47 V := by
  refine ⟨?_, ?_, ?_, ?_, ?_, ?_⟩
  · after_results_simp
    rw [h9, h27, hA main_arg6 (by decide), hA main_arg7 (by decide), hA main_arg8 (by decide), hA main_arg10 (by decide)]
    rfl
  · after_results_simp
    rw [h9, h27, hA main_arg6 (by decide), hA main_arg7 (by decide), hA main_arg8 (by decide), hA main_arg10 (by decide)]
    rfl
  · after_results_simp
    rw [h9, h27, hA main_arg6 (by decide), hA main_arg7 (by decide), hA main_arg8 (by decide), hA main_arg10 (by decide)]
    rfl
  · after_results_simp
    rw [h10, hA main_arg9 (by decide), hA main_arg11 (by decide)]
    rfl
  · after_results_simp
    rw [h10, hA main_arg9 (by decide), hA main_arg11 (by decide)]
    rfl
  · after_results_simp
    rw [h10, hA main_arg9 (by decide), hA main_arg11 (by decide)]
    rfl

/-- Stretch D: two logistic functions of sums of thirds, a hyperbolic tangent, and their combination with the
    second argument's row. -/
theorem stretchD (V W : Valuation τ sig (Elt F))
    (h10 : W (Proc.devRef .tc main_v10) = s10 V)
    (h42 : W (Proc.devRef .tc main_v42) = s42 V) (h43 : W (Proc.devRef .tc main_v43) = s43 V)
    (h44 : W (Proc.devRef .tc main_v44) = s44 V) (h45 : W (Proc.devRef .tc main_v45) = s45 V)
    (h46 : W (Proc.devRef .tc main_v46) = s46 V) (h47 : W (Proc.devRef .tc main_v47) = s47 V) :
    after opsD W (Proc.devRef .tc main_v69) = s69 V := by
  after_results_simp
  rw [h10, h42, h43, h44, h45, h46, h47]
  rfl

/-- Stretch E: the new row times a transposed matrix, plus a bias. -/
theorem stretchE (V W : Valuation τ sig (Elt F)) (hA : ArgsAs V W)
    (h69 : W (Proc.devRef .tc main_v69) = s69 V) :
    after opsE W (Proc.devRef .tc main_v73) = s73 V := by
  after_results
  rw [h69, hA main_arg12 (by decide), hA main_arg13 (by decide)]
  rfl

/-- Contents moved to a buffer's own type and back are themselves. -/
theorem ofBuf_toBuf {T : BufTy} (x : TRef sig T) (v : T.Contents (Elt F)) : x.ofBuf (x.toBuf v) = v := by
  obtain ⟨r, h, h2, h3⟩ := x
  subst h
  rfl

/-- Stretch L: the log-softmax of that row (the inlined function's fifteen operations), and the new row with a
    leading unit axis. Inside the function each value is written at its buffer's own type and read back at the
    value's type: every such pair cancels; the function's argument is read at a type that is literally the
    buffer's, and its result written likewise. -/
theorem stretchL (V W : Valuation τ sig (Elt F))
    (h69 : W (Proc.devRef .tc main_v69) = s69 V) (h73 : W (Proc.devRef .tc main_v73) = s73 V) :
    after opsL W (Proc.devRef .tc main_v74) = s74 V
    ∧ after opsL W (Proc.devRef .tc main_v75) = s75 V := by
  have hx : (TRef.of (T := ⟨S1x50257, .f32⟩) main_v73).ofBuf (W (Proc.devRef .tc main_v73))
      = W (Proc.devRef .tc main_v73) := rfl
  refine ⟨?_, ?_⟩
  · after_results
    repeat rw [ofBuf_toBuf]
    rw [hx, h73]
    refine eq_of_heq ((cast_heq _ _).trans (heq_of_eq ?_))
    rfl
  · after_results
    rw [h69]
    rfl

/-! ## The whole line -/

/-- @main's 107 operations are the eight stretches one after the other. -/
theorem ops_eq : (Value.ops : List (HloOp τ sig (Elt F)))
    = opsA ++ (opsS ++ (opsR ++ (opsB ++ (opsC ++ (opsD ++ (opsE ++ opsL)))))) := rfl

/-- After the whole line from `V`: the three returned buffers hold their stages at `V`'s arguments, and the
    arguments are as `V` holds them. Each stretch's lemma is fed what the stretches before it left; a buffer an
    earlier stretch wrote and a later one reads is carried across the stretches between, which do not write it. -/
theorem after_ops (V : Valuation τ sig (Elt F)) :
    after Value.ops V (Proc.devRef .tc main_v74) = s74 V
    ∧ after Value.ops V (Proc.devRef .tc main_v75) = s75 V
    ∧ after Value.ops V (Proc.devRef .tc main_v26) = s26 V
    ∧ ArgsAs V (after Value.ops V) := by
  rw [ops_eq]
  simp only [after_append]
  have hA0 : ArgsAs V V := ArgsAs.refl V
  obtain ⟨h3, h6⟩ := stretchA V V hA0
  have hA1 := hA0.after opsA opsA_W opsA_writes (by decide)
  have h7 := stretchS V _ hA1 h3 h6
  have hA2 := hA1.after opsS opsS_W opsS_writes (by decide)
  obtain ⟨h9, h10⟩ := stretchR V _ hA2 h7
  have hA3 := hA2.after opsR opsR_W opsR_writes (by decide)
  obtain ⟨h26, h27⟩ := stretchB V _ hA3 h9 h10
  have h9B := (after_of_writes_sub opsB _ opsB_writes (r := main_v9) (by decide)).trans h9
  have h10B := (after_of_writes_sub opsB _ opsB_writes (r := main_v10) (by decide)).trans h10
  have hA4 := hA3.after opsB opsB_W opsB_writes (by decide)
  obtain ⟨h42, h43, h44, h45, h46, h47⟩ := stretchC V _ hA4 h9B h10B h27
  have h10C := (after_of_writes_sub opsC _ opsC_writes (r := main_v10) (by decide)).trans h10B
  have h26C := (after_of_writes_sub opsC _ opsC_writes (r := main_v26) (by decide)).trans h26
  have hA5 := hA4.after opsC opsC_W opsC_writes (by decide)
  have h69 := stretchD V _ h10C h42 h43 h44 h45 h46 h47
  have h26D := (after_of_writes_sub opsD _ opsD_writes (r := main_v26) (by decide)).trans h26C
  have hA6 := hA5.after opsD opsD_W opsD_writes (by decide)
  have h73 := stretchE V _ hA6 h69
  have h69E := (after_of_writes_sub opsE _ opsE_writes (r := main_v69) (by decide)).trans h69
  have h26E := (after_of_writes_sub opsE _ opsE_writes (r := main_v26) (by decide)).trans h26D
  have hA7 := hA6.after opsE opsE_W opsE_writes (by decide)
  obtain ⟨h74, h75⟩ := stretchL V _ h69E h73
  have h26L := (after_of_writes_sub opsL _ opsL_writes (r := main_v26) (by decide)).trans h26E
  have hA8 := hA7.after opsL opsL_W opsL_writes (by decide)
  exact ⟨h74, h75, h26L, hA8⟩

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v26) = val_main_v26 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
    obtain ⟨h74, h75, h26, hA⟩ := after_ops (F := F) (launchContents m c)
    exact ⟨(h c main_v74).trans h74, (h c main_v75).trans h75, (h c main_v26).trans h26,
      (h c main_arg0).trans (hA main_arg0 (by decide)), (h c main_arg1).trans (hA main_arg1 (by decide)),
      (h c main_arg2).trans (hA main_arg2 (by decide)), (h c main_arg3).trans (hA main_arg3 (by decide)),
      (h c main_arg4).trans (hA main_arg4 (by decide)), (h c main_arg5).trans (hA main_arg5 (by decide)),
      (h c main_arg6).trans (hA main_arg6 (by decide)), (h c main_arg7).trans (hA main_arg7 (by decide)),
      (h c main_arg8).trans (hA main_arg8 (by decide)), (h c main_arg9).trans (hA main_arg9 (by decide)),
      (h c main_arg10).trans (hA main_arg10 (by decide)), (h c main_arg11).trans (hA main_arg11 (by decide)),
      (h c main_arg12).trans (hA main_arg12 (by decide)), (h c main_arg13).trans (hA main_arg13 (by decide))⟩)
    (Value.run_raw m ρ)

end Cert.ReferenceIdeal.HandRun

end
-- ==== Proof.RefRun.lean ====
/-
  The reference side's modules gathered under one import: the reference's stages one operation at a time, and its run
  read back at those stages.
-/
import proofs.«414457_j10170482557153_3_alg».proof.Proof.Ref.Read
import proofs.«414457_j10170482557153_3_alg».proof.Proof.Ref.Run
-- ==== Proof.Bridge.Attn.lean ====
/-
  The attention weights. The kernel multiplies the embedded row and the hidden row by the two column halves of the
  attention matrix and adds the products; the reference joins the two rows into one of 2048 entries and multiplies by
  the transposed matrix. A sum over 2048 indices splits into the sum over the first 1024 and the sum over the last 1024,
  which needs only that addition of extended reals is commutative and associative. The softmax after it is the same on
  both sides: the maximum folded from minus infinity, exp of the difference, the sum from zero, the quotient.
-/
import proofs.«414457_j10170482557153_3_alg».proof.Proof.KI.Fold
import proofs.«414457_j10170482557153_3_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.ShloMosaic.ValueIdx
open Cert.KernelIdeal.Hand
open Cert.ReferenceIdeal.Read

-- the argument arrays, at the exact reals, typed as the kernel program types them
variable (x0 : (⟨Cert.KernelIdeal.S1x1, .i32⟩ : BufTy).Contents (Elt Ideal))
  (x1 : (⟨Cert.KernelIdeal.S1x1x1024, .f32⟩ : BufTy).Contents (Elt Ideal))
  (x2 : (⟨Cert.KernelIdeal.S512x1024, .f32⟩ : BufTy).Contents (Elt Ideal))
  (x3 : (⟨Cert.KernelIdeal.S50257x1024, .f32⟩ : BufTy).Contents (Elt Ideal))
  (x4 : (⟨Cert.KernelIdeal.S512x2048, .f32⟩ : BufTy).Contents (Elt Ideal))
  (x5 : (⟨Cert.KernelIdeal.S512, .f32⟩ : BufTy).Contents (Elt Ideal))
  (x6 : (⟨Cert.KernelIdeal.S1024x2048, .f32⟩ : BufTy).Contents (Elt Ideal))
  (x7 : (⟨Cert.KernelIdeal.S1024, .f32⟩ : BufTy).Contents (Elt Ideal))
  (x8 x9 : (⟨Cert.KernelIdeal.S3072x1024, .f32⟩ : BufTy).Contents (Elt Ideal))
  (x10 x11 : (⟨Cert.KernelIdeal.S3072, .f32⟩ : BufTy).Contents (Elt Ideal))
  (x12 : (⟨Cert.KernelIdeal.S50257x1024, .f32⟩ : BufTy).Contents (Elt Ideal))
  (x13 : (⟨Cert.KernelIdeal.S50257, .f32⟩ : BufTy).Contents (Elt Ideal))

namespace Attn

/-! ## The softmax of a row of 512 logits -/

/-- Minus infinity, as the 32-bit pattern both programs fold their maximum from. -/
def negInf : EReal := Ideal.ofBits .f32 0xFF800000#32

/-- The maximum of a row of logits, folded from minus infinity (and joined with minus infinity once more, as both
    programs do). -/
def rowMax (l : FVec Ideal Cert.KernelIdeal.S1x512 .f32) : EReal :=
  max negInf ((Finset.univ : Finset (Fin 512)).fold max negInf fun k => l (ix2 (0 : Fin 1) k))

/-- The softmax of a row of logits: exp (l - max l) over the sum of exp (l - max l). -/
def softmaxRow (l : FVec Ideal Cert.KernelIdeal.S1x512 .f32) : FVec Ideal Cert.KernelIdeal.S1x512 .f32 := fun j =>
  Ideal.div (Ideal.exp (l j - rowMax l)) (∑ k : Fin 512, Ideal.exp (l (ix2 (0 : Fin 1) k) - rowMax l))

section Kernel

open Cert.KernelIdeal Cert.KernelIdeal.Gen

/-- The index over a reduced index r with the coordinate k put on the lane axis is (r, k). -/
theorem lift_eq (r : Fin 1) (k : Fin 512) : reduces_S1x512_S1.lift (ix1 r) k = ix2 r k :=
  funext fun a => Fin.ext (by match a with | ⟨0, _⟩ => rfl | ⟨1, _⟩ => rfl)

/-- A one-element vector cast to one row and one column and broadcast along the row reads its element everywhere. -/
theorem rowBroadcast_apply (x : FVec Ideal S1 .f32) (p : Fin 1) (q : Fin 512) :
    broadcastTo S1x512 (shapeCast S1x1 x shapeCasts_S1_S1x1) broadcasts_S1x1_S1x512 (ix2 p q) = x (ix1 (0 : Fin 1)) := by
  refine (broadcastTo_apply _ broadcasts_S1x1_S1x512 (ix2 p q) (ix2 (0 : Fin 1) (0 : Fin 1)) fun a => ?_).trans ?_
  · match a with
    | ⟨0, _⟩ => show 0 = if (1 : Nat) = 1 then 0 else _; rw [if_pos rfl]
    | ⟨1, _⟩ => show 0 = if (1 : Nat) = 1 then 0 else _; rw [if_pos rfl]
  · exact shapeCast_a_1a_apply x shapeCasts_S1_S1x1 (0 : Fin 1) (0 : Fin 1)

/-- The lane maximum from minus infinity, at its one index: the fold of max over the 512 entries. -/
theorem laneMax_apply (l : FVec Ideal S1x512 .f32) :
    multiReduction (F := Ideal) .maximumf [1] S1 l 0xFF800000#32 reduces_S1x512_S1 (.inl rfl) rfl (ix1 (0 : Fin 1))
      = (Finset.univ : Finset (Fin 512)).fold max negInf fun k => l (ix2 (0 : Fin 1) k) := by
  refine (Ideal.multiReduction_maximumf_single l 0xFF800000#32 reduces_S1x512_S1 (.inl rfl) rfl (ix1 (0 : Fin 1))).trans ?_
  show (Finset.univ : Finset (Fin 512)).fold max negInf (l ∘ reduces_S1x512_S1.lift (ix1 (0 : Fin 1))) = _
  exact congrArg (fun f : Fin 512 → EReal => (Finset.univ : Finset (Fin 512)).fold max negInf f)
    (funext fun k => congrArg l (lift_eq 0 k))

/-- The lane sum from zero, at its one index: the sum of the 512 entries. -/
theorem laneSum_apply (l : FVec Ideal S1x512 .f32) :
    multiReduction (F := Ideal) .add [1] S1 l 0x00000000#32 reduces_S1x512_S1 (.inl rfl) rfl (ix1 (0 : Fin 1))
      = ∑ k : Fin 512, l (ix2 (0 : Fin 1) k) := by
  refine (Ideal.multiReduction_add_single l 0x00000000#32 reduces_S1x512_S1 (.inl rfl) rfl (ix1 (0 : Fin 1))).trans ?_
  show ∑ k : Fin 512, l (reduces_S1x512_S1.lift (ix1 (0 : Fin 1)) k) = _
  exact Finset.sum_congr rfl fun k _ => congrArg l (lift_eq 0 k)

/-- The kernel's operations after the logits, as a function of the logits. -/
def softTailK (l : FVec Ideal S1x512 .f32) : FVec Ideal S1x512 .f32 :=
  divf (exp (subf l (broadcastTo S1x512 (shapeCast S1x1
      (maximumf (broadcast S1 (Scalar.ofBits (F := Ideal) .f32 0xFF800000#32))
        (multiReduction (F := Ideal) .maximumf [1] S1 l 0xFF800000#32 reduces_S1x512_S1 (.inl rfl) rfl)) shapeCasts_S1_S1x1) broadcasts_S1x1_S1x512)))
    (broadcastTo S1x512 (shapeCast S1x1
      (multiReduction (F := Ideal) .add [1] S1 (exp (subf l (broadcastTo S1x512 (shapeCast S1x1
        (maximumf (broadcast S1 (Scalar.ofBits (F := Ideal) .f32 0xFF800000#32))
          (multiReduction (F := Ideal) .maximumf [1] S1 l 0xFF800000#32 reduces_S1x512_S1 (.inl rfl) rfl)) shapeCasts_S1_S1x1) broadcasts_S1x1_S1x512)))
        0x00000000#32 reduces_S1x512_S1 (.inl rfl) rfl) shapeCasts_S1_S1x1) broadcasts_S1x1_S1x512)

/-- They are the softmax of the row. -/
theorem softTailK_eq (l : FVec Ideal S1x512 .f32) : softTailK l = softmaxRow l := by
  funext j
  obtain ⟨p, q, rfl⟩ : ∃ (p : Fin 1) (q : Fin 512), j = ix2 p q := ⟨j 0, j 1, eq_ix2 j⟩
  have hm : ∀ (p' : Fin 1) (q' : Fin 512), broadcastTo S1x512 (shapeCast S1x1
      (maximumf (broadcast S1 (Scalar.ofBits (F := Ideal) .f32 0xFF800000#32))
        (multiReduction (F := Ideal) .maximumf [1] S1 l 0xFF800000#32 reduces_S1x512_S1 (.inl rfl) rfl)) shapeCasts_S1_S1x1) broadcasts_S1x1_S1x512 (ix2 p' q')
      = rowMax l := fun p' q' => by
    refine (rowBroadcast_apply _ p' q').trans ?_
    show max negInf _ = _
    exact congrArg (max negInf) (laneMax_apply l)
  have he : ∀ (p' : Fin 1) (q' : Fin 512), exp (subf l (broadcastTo S1x512 (shapeCast S1x1
      (maximumf (broadcast S1 (Scalar.ofBits (F := Ideal) .f32 0xFF800000#32))
        (multiReduction (F := Ideal) .maximumf [1] S1 l 0xFF800000#32 reduces_S1x512_S1 (.inl rfl) rfl)) shapeCasts_S1_S1x1) broadcasts_S1x1_S1x512)) (ix2 p' q')
      = Ideal.exp (l (ix2 p' q') - rowMax l) := fun p' q' => by
    show Ideal.exp (l (ix2 p' q') - _) = _
    rw [hm p' q']
  unfold softTailK softmaxRow
  show Ideal.div _ _ = _
  rw [he p q]
  refine congrArg (Ideal.div _) ?_
  refine (rowBroadcast_apply _ p q).trans ?_
  refine (laneSum_apply _).trans ?_
  exact Finset.sum_congr rfl fun k _ => he 0 k

end Kernel

section KernelLogits

open Cert.KernelIdeal Cert.KernelIdeal.Gen

/-! ## The kernel's two products: the operands' indices on each axis -/

theorem lhs_attn_0 (i : S1x512.Idx) (q : dot_S1x1024_S512x1024_S1x512_1_1_0_0_n_n.contr.Idx) :
    (dot_S1x1024_S512x1024_S1x512_1_1_0_0_n_n.lhsIdx i q 0).val = (i 0).val := by
  unfold DotDims.lhsIdx
  rw [dif_neg (show ¬(0 : Fin S1x1024.rank) ∈ dot_S1x1024_S512x1024_S1x512_1_1_0_0_n_n.lhsBatch by decide), dif_pos (show (0 : Fin S1x1024.rank) ∈ dot_S1x1024_S512x1024_S1x512_1_1_0_0_n_n.lhsNonContracting by decide)]
  rfl
theorem lhs_attn_1 (i : S1x512.Idx) (q : dot_S1x1024_S512x1024_S1x512_1_1_0_0_n_n.contr.Idx) :
    (dot_S1x1024_S512x1024_S1x512_1_1_0_0_n_n.lhsIdx i q 1).val = (q ⟨0, by decide⟩).val :=
  dot_S1x1024_S512x1024_S1x512_1_1_0_0_n_n.lhsIdx_val_of_single rfl i q
theorem rhs_attn_0 (i : S1x512.Idx) (q : dot_S1x1024_S512x1024_S1x512_1_1_0_0_n_n.contr.Idx) :
    (dot_S1x1024_S512x1024_S1x512_1_1_0_0_n_n.rhsIdx i q 0).val = (i 1).val := by
  unfold DotDims.rhsIdx
  rw [dif_neg (show ¬(0 : Fin S512x1024.rank) ∈ dot_S1x1024_S512x1024_S1x512_1_1_0_0_n_n.rhsBatch by decide), dif_pos (show (0 : Fin S512x1024.rank) ∈ dot_S1x1024_S512x1024_S1x512_1_1_0_0_n_n.rhsNonContracting by decide)]
  rfl
theorem rhs_attn_1 (i : S1x512.Idx) (q : dot_S1x1024_S512x1024_S1x512_1_1_0_0_n_n.contr.Idx) :
    (dot_S1x1024_S512x1024_S1x512_1_1_0_0_n_n.rhsIdx i q 1).val = (q ⟨0, by decide⟩).val :=
  dot_S1x1024_S512x1024_S1x512_1_1_0_0_n_n.rhsIdx_val_of_single rfl i q

/-- A row times the transpose of a 512 x 1024 matrix, into a zero accumulator, at (p, q): the sum over k of the row at
    (p, k) times the matrix at (q, k). -/
theorem matmul_attn_apply {φ₁ φ₂ : FTy} (lhs : FVec Ideal S1x1024 φ₁) (rhs : FVec Ideal S512x1024 φ₂) (p : Fin 1) (q : Fin 512) :
    matmul dot_S1x1024_S512x1024_S1x512_1_1_0_0_n_n none lhs rhs (constant (F := Ideal) S1x512 .f32 0x00000000#32) (ix2 p q)
      = ∑ k : Fin 1024, lhs (ix2 p k) * rhs (ix2 q k) := by
  simp only [matmul]
  rw [Ideal.matmul_constant_zero_apply, ← Equiv.sum_comp (contrEquiv1 dot_S1x1024_S512x1024_S1x512_1_1_0_0_n_n 1024 rfl rfl).symm]
  refine Finset.sum_congr rfl fun k _ => ?_
  have hk := contrEquiv1_symm_val dot_S1x1024_S512x1024_S1x512_1_1_0_0_n_n 1024 rfl rfl k
  have el : dot_S1x1024_S512x1024_S1x512_1_1_0_0_n_n.lhsIdx (ix2 p q) ((contrEquiv1 dot_S1x1024_S512x1024_S1x512_1_1_0_0_n_n 1024 rfl rfl).symm k) = ix2 p k := funext fun a => Fin.ext (by
    match a with
    | ⟨0, _⟩ => exact lhs_attn_0 _ _
    | ⟨1, _⟩ => exact (lhs_attn_1 _ _).trans hk)
  have er : dot_S1x1024_S512x1024_S1x512_1_1_0_0_n_n.rhsIdx (ix2 p q) ((contrEquiv1 dot_S1x1024_S512x1024_S1x512_1_1_0_0_n_n 1024 rfl rfl).symm k) = ix2 q k := funext fun a => Fin.ext (by
    match a with
    | ⟨0, _⟩ => exact rhs_attn_0 _ _
    | ⟨1, _⟩ => exact (rhs_attn_1 _ _).trans hk)
  rw [el, er]

/-! ## The kernel's logits -/

/-- The logit at (p, q), from the embedded row, the hidden row, the two column halves of the attention matrix and the
    bias row: the two products' sum plus the bias. -/
def logitK (v0 v2 : Vec Ideal S1x1024 .f32) (v6 v8 : Vec Ideal S512x1024 .f32) (v13 : Vec Ideal S1x512 .f32)
    (p : Fin 1) (q : Fin 512) : EReal :=
  (∑ k : Fin 1024, v0 (ix2 p k) * v6 (ix2 q k)) + (∑ k : Fin 1024, v2 (ix2 p k) * v8 (ix2 q k)) + v13 (ix2 p q)

/-- The row of logits. -/
def logitsK (v0 v2 : Vec Ideal S1x1024 .f32) (v6 v8 : Vec Ideal S512x1024 .f32) (v13 : Vec Ideal S1x512 .f32) :
    FVec Ideal S1x512 .f32 := fun j => logitK v0 v2 v6 v8 v13 (j 0) (j 1)

/-- The embedded row as the matrix unit's operand is the row: the cast to its own shape and the change of format are
    the identity. -/
theorem pay3_apply (v0 : Vec Ideal S1x1024 .f32) (i : S1x1024.Idx) : k0_pay3 (F := Ideal) v0 i = v0 i :=
  congrFun (shapeCast_self v0 shapeCasts_S1x1024_S1x1024) i
theorem pay4_apply (v2 : Vec Ideal S1x1024 .f32) (i : S1x1024.Idx) : k0_pay4 (F := Ideal) v2 i = v2 i :=
  congrFun (shapeCast_self v2 shapeCasts_S1x1024_S1x1024) i

/-- The kernel's attention weights are the softmax of its logits. -/
theorem pay5_eq (v0 v2 : Vec Ideal S1x1024 .f32) (v6 v8 : Vec Ideal S512x1024 .f32) (v13 : Vec Ideal S1x512 .f32) :
    k0_pay5 (F := Ideal) v0 v2 v6 v8 v13 = softmaxRow (logitsK v0 v2 v6 v8 v13) := by
  have hl : addf (addf
        (matmul dot_S1x1024_S512x1024_S1x512_1_1_0_0_n_n none (k0_pay3 (F := Ideal) v0) (truncf .bf16 v6 bitsLt_bf16_f32) (constant (F := Ideal) S1x512 .f32 0x00000000#32))
        (matmul dot_S1x1024_S512x1024_S1x512_1_1_0_0_n_n none (k0_pay4 (F := Ideal) v2) (truncf .bf16 v8 bitsLt_bf16_f32) (constant (F := Ideal) S1x512 .f32 0x00000000#32)))
      (shapeCast S1x512 v13 shapeCasts_S1x512_S1x512) = logitsK v0 v2 v6 v8 v13 := by
    funext j
    obtain ⟨p, q, rfl⟩ : ∃ (p : Fin 1) (q : Fin 512), j = ix2 p q := ⟨j 0, j 1, eq_ix2 j⟩
    rw [addf_apply, addf_apply, matmul_attn_apply, matmul_attn_apply, shapeCast_self]
    simp only [pay3_apply, pay4_apply, truncf_apply]
    rfl
  refine Eq.trans ?_ (softTailK_eq (logitsK v0 v2 v6 v8 v13))
  rw [← hl]
  rfl

end KernelLogits

section Reference

open Cert.ReferenceIdeal Cert.ReferenceIdeal.Gen Cert.ReferenceIdeal.Read

/-! ## The reference's operations after the logits -/

/-- A one-element vector broadcast to one row and one column and then along the row reads its element everywhere. -/
theorem rowBroadcastR_apply (x : FVec Ideal S1 .f32) (p : Fin 1) (q : Fin 512) :
    broadcastInDim S1x512 ![0, 1] bcast_S1x1_S1x512_0_1 (broadcastInDim S1x1 ![0] bcast_S1_S1x1_0 x) (ix2 p q)
      = x (ix1 (0 : Fin 1)) := by
  refine (broadcastInDim_apply _ bcast_S1x1_S1x512_0_1 _ (ix2 p q) (ix2 (0 : Fin 1) (0 : Fin 1)) fun a => ?_).trans ?_
  · match a with
    | ⟨0, _⟩ => show 0 = if (1 : Nat) = 1 then 0 else _; rw [if_pos rfl]
    | ⟨1, _⟩ => show 0 = if (1 : Nat) = 1 then 0 else _; rw [if_pos rfl]
  · exact broadcastInDim_apply _ bcast_S1_S1x1_0 x _ (ix1 (0 : Fin 1)) fun a => match a with
      | ⟨0, _⟩ => by show 0 = if (1 : Nat) = 1 then 0 else _; rw [if_pos rfl]

/-- The host's maximum over the lane axis from minus infinity, at its one index: the fold of max over the 512 entries. -/
theorem hostMax_apply (l : FVec Ideal S1x512 .f32) :
    Host.reduce (FloatOps.maximumf (F := Ideal) (φ := .f32)) l (constant (F := Ideal) S_ .f32 0xFF800000#32) reducesTo_S1x512_S1_d1 h_S_ (ix1 (0 : Fin 1))
      = (Finset.univ : Finset (Fin 512)).fold max negInf fun k => l (ix2 (0 : Fin 1) k) := by
  refine (Host.reduce_eq_fold_single (FloatOps.maximumf (F := Ideal) (φ := .f32)) l _ reducesTo_S1x512_S1_d1
    Cert.KernelIdeal.Gen.reduces_S1x512_S1 h_S_ (ix1 (0 : Fin 1))).trans ?_
  show (Finset.univ : Finset (Fin 512)).fold max negInf (l ∘ Cert.KernelIdeal.Gen.reduces_S1x512_S1.lift (ix1 (0 : Fin 1))) = _
  exact congrArg (fun f : Fin 512 → EReal => (Finset.univ : Finset (Fin 512)).fold max negInf f)
    (funext fun k => congrArg l (lift_eq 0 k))

/-- The host's sum over the lane axis from zero, at its one index: the sum of the 512 entries. -/
theorem hostSum_apply (l : FVec Ideal S1x512 .f32) :
    Host.reduceAdd (F := Ideal) l (constant (F := Ideal) S_ .f32 0x00000000#32) reducesTo_S1x512_S1_d1 h_S_ (ix1 (0 : Fin 1))
      = ∑ k : Fin 512, l (ix2 (0 : Fin 1) k) := by
  simp only [Host.reduceAdd, Ideal.hostReduceAdd_def]
  rw [Ideal.hostReduceAdd_single reducesTo_S1x512_S1_d1 Cert.KernelIdeal.Gen.reduces_S1x512_S1]
  show Ideal.ofBits .f32 0x00000000#32 + ∑ k : Fin 512, l (Cert.KernelIdeal.Gen.reduces_S1x512_S1.lift (ix1 (0 : Fin 1)) k) = _
  rw [Ideal.ofBits_zero_f32, zero_add]
  exact Finset.sum_congr rfl fun k _ => congrArg l (lift_eq 0 k)

/-- The reference's operations after the logits, as a function of the logits. -/
def softTailR (l : FVec Ideal S1x512 .f32) : FVec Ideal S1x512 .f32 :=
  Host.divf (F := Ideal) (Host.exp (F := Ideal) (subf l (broadcastInDim S1x512 ![0, 1] bcast_S1x1_S1x512_0_1 (broadcastInDim S1x1 ![0] bcast_S1_S1x1_0
      (maximumf (broadcastInDim S1 ![] bcast_S_S1 (constant (F := Ideal) S_ .f32 0xFF800000#32))
        (Host.reduce (FloatOps.maximumf (F := Ideal) (φ := .f32)) l (constant (F := Ideal) S_ .f32 0xFF800000#32) reducesTo_S1x512_S1_d1 h_S_))))))
    (broadcastInDim S1x512 ![0, 1] bcast_S1x1_S1x512_0_1 (broadcastInDim S1x1 ![0] bcast_S1_S1x1_0
      (Host.reduceAdd (F := Ideal) (Host.exp (F := Ideal) (subf l (broadcastInDim S1x512 ![0, 1] bcast_S1x1_S1x512_0_1 (broadcastInDim S1x1 ![0] bcast_S1_S1x1_0
        (maximumf (broadcastInDim S1 ![] bcast_S_S1 (constant (F := Ideal) S_ .f32 0xFF800000#32))
          (Host.reduce (FloatOps.maximumf (F := Ideal) (φ := .f32)) l (constant (F := Ideal) S_ .f32 0xFF800000#32) reducesTo_S1x512_S1_d1 h_S_))))))
        (constant (F := Ideal) S_ .f32 0x00000000#32) reducesTo_S1x512_S1_d1 h_S_)))

/-- They are the softmax of the row. -/
theorem softTailR_eq (l : FVec Ideal S1x512 .f32) : softTailR l = softmaxRow l := by
  funext j
  obtain ⟨p, q, rfl⟩ : ∃ (p : Fin 1) (q : Fin 512), j = ix2 p q := ⟨j 0, j 1, eq_ix2 j⟩
  have hm : ∀ (p' : Fin 1) (q' : Fin 512), broadcastInDim S1x512 ![0, 1] bcast_S1x1_S1x512_0_1 (broadcastInDim S1x1 ![0] bcast_S1_S1x1_0
      (maximumf (broadcastInDim S1 ![] bcast_S_S1 (constant (F := Ideal) S_ .f32 0xFF800000#32))
        (Host.reduce (FloatOps.maximumf (F := Ideal) (φ := .f32)) l (constant (F := Ideal) S_ .f32 0xFF800000#32) reducesTo_S1x512_S1_d1 h_S_))) (ix2 p' q')
      = rowMax l := fun p' q' => by
    refine (rowBroadcastR_apply _ p' q').trans ?_
    show max negInf _ = _
    exact congrArg (max negInf) (hostMax_apply l)
  have he : ∀ (p' : Fin 1) (q' : Fin 512), Host.exp (F := Ideal) (subf l (broadcastInDim S1x512 ![0, 1] bcast_S1x1_S1x512_0_1 (broadcastInDim S1x1 ![0] bcast_S1_S1x1_0
      (maximumf (broadcastInDim S1 ![] bcast_S_S1 (constant (F := Ideal) S_ .f32 0xFF800000#32))
        (Host.reduce (FloatOps.maximumf (F := Ideal) (φ := .f32)) l (constant (F := Ideal) S_ .f32 0xFF800000#32) reducesTo_S1x512_S1_d1 h_S_))))) (ix2 p' q')
      = Ideal.exp (l (ix2 p' q') - rowMax l) := fun p' q' => by
    show Ideal.exp (l (ix2 p' q') - _) = _
    rw [hm p' q']
  unfold softTailR softmaxRow
  show Ideal.div _ _ = _
  rw [he p q]
  refine congrArg (Ideal.div _) ?_
  refine (rowBroadcastR_apply _ p q).trans ?_
  refine (hostSum_apply _).trans ?_
  exact Finset.sum_congr rfl fun k _ => he 0 k

end Reference

section Bridge

open Cert.ReferenceIdeal Cert.ReferenceIdeal.Gen Cert.ReferenceIdeal.Read

/-! ## What the kernel's loads read -/

theorem ld_row (e : Vec Ideal Cert.KernelIdeal.S1x1024 .f32) (p : Fin 1) (k : Fin 1024) :
    View.ld e rRow (ix2 p k) = e (ix2 p k) :=
  congrArg e (funext fun a => Fin.ext (by
    match a with
    | ⟨0, _⟩ => show 0 + 1 * p.val = p.val; omega
    | ⟨1, _⟩ => show 0 + 1 * k.val = k.val; omega))

theorem ld_attnLo (aW : Vec Ideal Cert.KernelIdeal.S512x2048 .f32) (q : Fin 512) (k : Fin 1024) :
    View.ld aW rAttnLo (ix2 q k) = aW (ix2 q (Fin.castAdd 1024 k)) :=
  congrArg aW (funext fun a => Fin.ext (by
    match a with
    | ⟨0, _⟩ => show 0 + 1 * q.val = q.val; omega
    | ⟨1, _⟩ => show 0 + 1 * k.val = k.val; omega))

theorem ld_attnHi (aW : Vec Ideal Cert.KernelIdeal.S512x2048 .f32) (q : Fin 512) (k : Fin 1024) :
    View.ld aW rAttnHi (ix2 q k) = aW (ix2 q (Fin.natAdd 1024 k)) :=
  congrArg aW (funext fun a => Fin.ext (by
    match a with
    | ⟨0, _⟩ => show 0 + 1 * q.val = q.val; omega
    | ⟨1, _⟩ => show 1024 + 1 * k.val = 1024 + k.val; omega))

/-- The bias row the kernel loads is the bias vector cast to one row. -/
theorem ld_bias (x5 : (⟨Cert.KernelIdeal.S512, .f32⟩ : BufTy).Contents (Elt Ideal)) (p : Fin 1) (q : Fin 512) :
    View.ld (kAb (F := Ideal) x5) rAttnB (ix2 p q) = x5 (ix1 q) :=
  shapeCast_apply x5 Cert.KernelIdeal.Gen.shapeCasts_S512_S1x512 _ (ix1 q) (by
    rw [Shape.rowMajor_val_one, Shape.rowMajor_val_two]
    have hp : p.val < 1 := p.isLt
    show q.val = (0 + 1 * p.val) * 512 + (0 + 1 * q.val); omega)

/-! ## The reference's operands -/

/-- The second start index of the reference's slice is zero. -/
theorem v6_eq : val_main_v6 (F := Ideal) = constantI S_ 32 0#32 := funext fun i => by
  show Scalar.select (IntOp.cmpi .slt 0#32 0#32) (IntOp.addi 0#32 1024#32) 0#32 = 0#32
  decide

/-- The reference's slice of the embedding table is the kernel program's. -/
theorem v7_eq : val_main_v7 (F := Ideal) x0 x3 = kE (F := Ideal) x0 x3 := by
  unfold val_main_v7 kE
  rw [v6_eq]
  rfl

/-- Cast to a vector and back to one row, it is the same row. -/
theorem v9_eq : val_main_v9 (F := Ideal) x0 x3 = kE (F := Ideal) x0 x3 := by
  funext i
  obtain ⟨p, k, rfl⟩ : ∃ (p : Fin 1) (k : Fin 1024), i = ix2 p k := ⟨i 0, i 1, eq_ix2 i⟩
  rw [val_main_v9_apply, val_main_v8_apply, v7_eq]
  refine congrArg (kE (F := Ideal) x0 x3) (funext fun a => Fin.ext ?_)
  have hp : p.val < 1 := p.isLt
  have hk : k.val < 1024 := k.isLt
  match a with
  | ⟨0, _⟩ => show 0 = p.val; omega
  | ⟨1, _⟩ => show (p.val * 1024 + k.val) % 1024 = k.val; omega

theorem v10_eq : val_main_v10 (F := Ideal) x1 = kH (F := Ideal) x1 := rfl

/-- The two rows joined: an entry of the first 1024 is the first row's. -/
theorem concat_left (e h : FVec Ideal S1x1024 .f32) (p : Fin 1) (k : Fin 1024) (j : S1x2048.Idx)
    (h0 : (j 0).val = p.val) (h1 : (j 1).val = k.val) :
    concatenate S1x2048 1 [⟨S1x1024, e⟩, ⟨S1x1024, h⟩] concatenates_S1x1024_S1x1024_S1x2048_d1 j = e (ix2 p k) :=
  concatenate_pair_apply_left 1 e h concatenates_S1x1024_S1x1024_S1x2048_d1 j rfl (ix2 p k) fun b => by
    match b with
    | ⟨0, _⟩ => exact h0.symm
    | ⟨1, _⟩ => exact h1.symm

/-- An entry of the last 1024 is the second row's, 1024 places back. -/
theorem concat_right (e h : FVec Ideal S1x1024 .f32) (p : Fin 1) (k : Fin 1024) (j : S1x2048.Idx)
    (h0 : (j 0).val = p.val) (h1 : (j 1).val = 1024 + k.val) :
    concatenate S1x2048 1 [⟨S1x1024, e⟩, ⟨S1x1024, h⟩] concatenates_S1x1024_S1x1024_S1x2048_d1 j = h (ix2 p k) :=
  concatenate_pair_apply_right 1 e h concatenates_S1x1024_S1x1024_S1x2048_d1 j rfl rfl (ix2 p k)
    (fun b hb => by
      match b, hb with
      | ⟨0, _⟩, _ => exact h0.symm
      | ⟨1, _⟩, hb => exact absurd rfl hb)
    (by show k.val + 1024 = (j 1).val; omega)

/-! ## The logits -/

/-- The reference's logits are the kernel's: the sum over the 2048 joined entries is the sum over the embedded row's
    1024 plus the sum over the hidden row's 1024. -/
theorem logits_eq : val_main_v15 (F := Ideal) x0 x1 x3 x4 x5
    = logitsK (View.ld (kE (F := Ideal) x0 x3) rRow) (View.ld (kH (F := Ideal) x1) rRow) (View.ld x4 rAttnLo) (View.ld x4 rAttnHi)
        (View.ld (kAb (F := Ideal) x5) rAttnB) := by
  funext j
  obtain ⟨p, q, rfl⟩ : ∃ (p : Fin 1) (q : Fin 512), j = ix2 p q := ⟨j 0, j 1, eq_ix2 j⟩
  rw [val_main_v15_apply, val_main_v13_apply, val_main_v14_apply]
  show (∑ k : Fin (1024 + 1024), val_main_v11 (F := Ideal) x0 x1 x3 (lidx_main_v13 (ix2 p q) k) * val_main_v12 (F := Ideal) x4 (ridx_main_v13 (ix2 p q) k))
      + x5 (idx_main_v14 (ix2 p q)) = logitK _ _ _ _ _ p q
  rw [Fin.sum_univ_add]
  unfold logitK
  refine congrArg₂ (· + ·) (congrArg₂ (· + ·) (Finset.sum_congr rfl fun k _ => ?_) (Finset.sum_congr rfl fun k _ => ?_)) ?_
  · refine congrArg₂ (· * ·) ?_ ?_
    · rw [ld_row, ← v9_eq]
      exact concat_left _ _ p k _ rfl rfl
    · rw [ld_attnLo, val_main_v12_apply]
      exact congrArg x4 (funext fun a => Fin.ext (by match a with | ⟨0, _⟩ => rfl | ⟨1, _⟩ => rfl))
  · refine congrArg₂ (· * ·) ?_ ?_
    · rw [ld_row, ← v10_eq]
      exact concat_right _ _ p k _ rfl rfl
    · rw [ld_attnHi, val_main_v12_apply]
      exact congrArg x4 (funext fun a => Fin.ext (by match a with | ⟨0, _⟩ => rfl | ⟨1, _⟩ => rfl))
  · rw [ld_bias]
    exact congrArg x5 (funext fun a => Fin.ext (by match a with | ⟨0, _⟩ => rfl))

/-- The reference's attention weights are the softmax of its logits. -/
theorem v26_eq : val_main_v26 (F := Ideal) x0 x1 x3 x4 x5 = softmaxRow (val_main_v15 (F := Ideal) x0 x1 x3 x4 x5) :=
  Eq.trans rfl (softTailR_eq (val_main_v15 (F := Ideal) x0 x1 x3 x4 x5))

end Bridge

end Attn

/-- The kernel's attention weights are the reference's. -/
theorem attn_eq :
    attnOf (F := Ideal) (kE x0 x3) (kH x1) x4 (kAb x5) = val_main_v26 (F := Ideal) x0 x1 x3 x4 x5 := by
  unfold attnOf
  rw [Attn.pay5_eq, ← Attn.logits_eq x0 x1 x3 x4 x5]
  exact (Attn.v26_eq x0 x1 x3 x4 x5).symm

end Cert.Bridge

end
-- ==== Proof.Bridge.GruIn.lean ====
/-
  The GRU's input relu(combine). The kernel multiplies the embedded row and the attention applied to the encoder
  outputs by the two column halves of the combining matrix; the reference joins the two rows and multiplies by the
  transposed matrix: the same split of a sum over 2048 indices. The attention applied is the product of the weights
  with the encoder outputs on both sides, the contraction over the 512 positions.
-/
import proofs.«414457_j10170482557153_3_alg».proof.Proof.KI.Fold
import proofs.«414457_j10170482557153_3_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.GruIn

open Idealize.ShloMosaic Idealize.ShloMosaic.TcCoe Idealize.ShloMosaic.ValueIdx
open Cert.KernelIdeal.Hand Cert.KernelIdeal.Gen
open Cert.ReferenceIdeal.Read

/-! ## Indices below and at or above 1024 among the 2048, and the split of a sum over them -/

/-- Index `k` of the first half, among the 2048. -/
abbrev lo (k : Fin 1024) : Fin 2048 := ⟨k.val, Nat.lt_of_lt_of_le k.isLt (by decide)⟩
/-- Index `k` of the second half, among the 2048: `1024 + k`. -/
abbrev hi (k : Fin 1024) : Fin 2048 := ⟨1024 + k.val, by have := k.isLt; omega⟩

/-- A sum over 2048 indices is the sum over the first 1024 plus the sum over the last 1024. -/
theorem sum_split (f : Fin 2048 → EReal) : ∑ k : Fin 2048, f k = (∑ k : Fin 1024, f (lo k)) + ∑ k : Fin 1024, f (hi k) :=
  Fin.sum_univ_add (a := 1024) (b := 1024) f

/-! ## The kernel's two products at an entry -/

theorem dA_lhs_0 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.lhsIdx i q 0).val = (i 0).val := by
  unfold DotDims.lhsIdx
  rw [dif_neg (show ¬(0 : Fin Cert.KernelIdeal.S1x512.rank) ∈ Cert.KernelIdeal.dot_S1x512_S512x1024_S1x1024_1_0_0_1_n_n.lhsBatch by decide), dif_pos (show (0 : Fin Cert.KernelIdeal.S1x512.rank) ∈ Cert.KernelIdeal.dot_S1x512_S512x1024_S1x1024_1_0_0_1_n_n.lhsNonContracting by decide)]
  rfl
theorem dA_lhs_1 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.lhsIdx i q 1).val = (q ⟨0, by decide⟩).val :=
  Cert.KernelIdeal.dot_S1x512_S512x1024_S1x1024_1_0_0_1_n_n.lhsIdx_val_of_single rfl i q
theorem dA_rhs_0 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.rhsIdx i q 0).val = (q ⟨0, by decide⟩).val :=
  Cert.KernelIdeal.dot_S1x512_S512x1024_S1x1024_1_0_0_1_n_n.rhsIdx_val_of_single rfl i q
theorem dA_rhs_1 (i : Cert.KernelIdeal.S1x1024.Idx) (q : Cert.KernelIdeal.dot_S1x512_S512x1024_S1x1024_1_0_0_1_n_n.contr.Idx) :
    (Cert.KernelIdeal.dot_S1x512_S512x1024_S1x1024_1_0_0_1_n_n.rhsIdx i q 1).val = (i 1).val := by
  unfold DotDims.rhsIdx
  rw [dif_neg (show ¬(1 : Fin Cert.KernelIdeal.S512x1024.rank) ∈ Cert.KernelIdeal.dot_S1x512_S512x1024_S1x1024_1_0_0_1_n_n.rhsBatch by decide), dif_pos (show (1 : Fin Cert.KernelIdeal.S512x1024.rank) ∈ Cert.KernelIdeal.dot_S1x512_S512x1024_S1x1024_1_0_0_1_n_n.rhsNonContracting by decide)]
  rfl

/-- The product of a row of 512 weights with a 512 x 1024 matrix, into zero: entry j is the sum over the 512 positions. -/
theorem applied_apply (a : FVec Ideal Cert.KernelIdeal.S1x512 .bf16) (b : FVec Ideal Cert.KernelIdeal.S512x1024 .bf16) (p : Fin 1) (j : Fin 1024) :
    matmul Cert.KernelIdeal.dot_S1x512_S512x1024_S1x1024_1_0_0_1_n_n none a b (constant (F := Ideal) Cert.KernelIdeal.S1x1024 .f32 0x00000000#32) (ix2 p j)
      = ∑ m : Fin 512, a (ix2 p m) * b (ix2 m j) := by
  simp only [matmul]
  rw [Ideal.matmul_constant_zero_apply, ← Equiv.sum_comp (ValueIdx.contrEquiv1 Cert.KernelIdeal.dot_S1x512_S512x1024_S1x1024_1_0_0_1_n_n 512 rfl rfl).symm]
  refine Finset.sum_congr rfl fun k _ => ?_
  have hk := ValueIdx.contrEquiv1_symm_val Cert.KernelIdeal.dot_S1x512_S512x1024_S1x1024_1_0_0_1_n_n 512 rfl rfl k
  have el : Cert.KernelIdeal.dot_S1x512_S512x1024_S1x1024_1_0_0_1_n_n.lhsIdx (ix2 p j) ((ValueIdx.contrEquiv1 Cert.KernelIdeal.dot_S1x512_S512x1024_S1x1024_1_0_0_1_n_n 512 rfl rfl).symm k) = ix2 p k := funext fun a => Fin.ext (by
    match a with
    | ⟨0, _⟩ => exact dA_lhs_0 _ _
    | ⟨1, _⟩ => exact (dA_lhs_1 _ _).trans hk)
  have er : Cert.KernelIdeal.dot_S1x512_S512x1024_S1x1024_1_0_0_1_n_n.rhsIdx (ix2 p j) ((ValueIdx.contrEquiv1 Cert.KernelIdeal.dot_S1x512_S512x1024_S1x1024_1_0_0_1_n_n 512 rfl rfl).symm k) = ix2 k j := funext fun a => Fin.ext (by
    match a with
    | ⟨0, _⟩ => exact (dA_rhs_0 _ _).trans hk
    | ⟨1, _⟩ => exact dA_rhs_1 _ _)
  rw [el, er]

theorem dC_lhs_0 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.lhsIdx i q 0).val = (i 0).val := by
  unfold DotDims.lhsIdx
  rw [dif_neg (show ¬(0 : Fin Cert.KernelIdeal.S1x1024.rank) ∈ Cert.KernelIdeal.dot_S1x1024_S1024x1024_S1x1024_1_1_0_0_n_n.lhsBatch by decide), dif_pos (show (0 : Fin Cert.KernelIdeal.S1x1024.rank) ∈ Cert.KernelIdeal.dot_S1x1024_S1024x1024_S1x1024_1_1_0_0_n_n.lhsNonContracting by decide)]
  rfl
theorem dC_lhs_1 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.lhsIdx i q 1).val = (q ⟨0, by decide⟩).val :=
  Cert.KernelIdeal.dot_S1x1024_S1024x1024_S1x1024_1_1_0_0_n_n.lhsIdx_val_of_single rfl i q
theorem dC_rhs_0 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.rhsIdx i q 0).val = (i 1).val := by
  unfold DotDims.rhsIdx
  rw [dif_neg (show ¬(0 : Fin Cert.KernelIdeal.S1024x1024.rank) ∈ Cert.KernelIdeal.dot_S1x1024_S1024x1024_S1x1024_1_1_0_0_n_n.rhsBatch by decide), dif_pos (show (0 : Fin Cert.KernelIdeal.S1024x1024.rank) ∈ Cert.KernelIdeal.dot_S1x1024_S1024x1024_S1x1024_1_1_0_0_n_n.rhsNonContracting by decide)]
  rfl
theorem dC_rhs_1 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.rhsIdx i q 1).val = (q ⟨0, by decide⟩).val :=
  Cert.KernelIdeal.dot_S1x1024_S1024x1024_S1x1024_1_1_0_0_n_n.rhsIdx_val_of_single rfl i q

/-- The product of a row of 1024 entries with the transpose of a 1024 x 1024 matrix, into zero: entry n is the sum
    over k of the row at k times the matrix at (n, k). -/
theorem combine_apply (a : FVec Ideal Cert.KernelIdeal.S1x1024 .bf16) (b : FVec Ideal Cert.KernelIdeal.S1024x1024 .bf16) (p : Fin 1) (n : Fin 1024) :
    matmul Cert.KernelIdeal.dot_S1x1024_S1024x1024_S1x1024_1_1_0_0_n_n none a b (constant (F := Ideal) Cert.KernelIdeal.S1x1024 .f32 0x00000000#32) (ix2 p n)
      = ∑ k : Fin 1024, a (ix2 p k) * b (ix2 n k) := by
  simp only [matmul]
  rw [Ideal.matmul_constant_zero_apply, ← Equiv.sum_comp (ValueIdx.contrEquiv1 Cert.KernelIdeal.dot_S1x1024_S1024x1024_S1x1024_1_1_0_0_n_n 1024 rfl rfl).symm]
  refine Finset.sum_congr rfl fun k _ => ?_
  have hk := ValueIdx.contrEquiv1_symm_val Cert.KernelIdeal.dot_S1x1024_S1024x1024_S1x1024_1_1_0_0_n_n 1024 rfl rfl k
  have el : Cert.KernelIdeal.dot_S1x1024_S1024x1024_S1x1024_1_1_0_0_n_n.lhsIdx (ix2 p n) ((ValueIdx.contrEquiv1 Cert.KernelIdeal.dot_S1x1024_S1024x1024_S1x1024_1_1_0_0_n_n 1024 rfl rfl).symm k) = ix2 p k := funext fun a => Fin.ext (by
    match a with
    | ⟨0, _⟩ => exact dC_lhs_0 _ _
    | ⟨1, _⟩ => exact (dC_lhs_1 _ _).trans hk)
  have er : Cert.KernelIdeal.dot_S1x1024_S1024x1024_S1x1024_1_1_0_0_n_n.rhsIdx (ix2 p n) ((ValueIdx.contrEquiv1 Cert.KernelIdeal.dot_S1x1024_S1024x1024_S1x1024_1_1_0_0_n_n 1024 rfl rfl).symm k) = ix2 n k := funext fun a => Fin.ext (by
    match a with
    | ⟨0, _⟩ => exact dC_rhs_0 _ _
    | ⟨1, _⟩ => exact (dC_rhs_1 _ _).trans hk)
  rw [el, er]

/-! ## The kernel's loads -/

/-- A load of a whole row reads the row. -/
theorem ld_row (x : Vec Ideal Cert.KernelIdeal.S1x1024 .f32) : View.ld x rRow = x :=
  View.ld_unit_zero (S := Cert.KernelIdeal.S1x1024) (by funext a; match a with | ⟨0, _⟩ => rfl | ⟨1, _⟩ => rfl) _ x
/-- A load of the whole encoder array reads it. -/
theorem ld_enc (x : Vec Ideal Cert.KernelIdeal.S512x1024 .f32) : View.ld x rEnc = x :=
  View.ld_unit_zero (S := Cert.KernelIdeal.S512x1024) (by funext a; match a with | ⟨0, _⟩ => rfl | ⟨1, _⟩ => rfl) _ x
/-- The combining matrix's first 1024 columns. -/
theorem ld_combLo (x : Vec Ideal Cert.KernelIdeal.S1024x2048 .f32) (n k : Fin 1024) :
    View.ld x rCombLo (ix2 n k) = x (ix2 n (lo k)) :=
  congrArg x (funext fun a => Fin.ext (by
    match a with
    | ⟨0, _⟩ => show 0 + 1 * n.val = n.val; omega
    | ⟨1, _⟩ => show 0 + 1 * k.val = k.val; omega))
/-- The combining matrix's last 1024 columns. -/
theorem ld_combHi (x : Vec Ideal Cert.KernelIdeal.S1024x2048 .f32) (n k : Fin 1024) :
    View.ld x rCombHi (ix2 n k) = x (ix2 n (hi k)) :=
  congrArg x (funext fun a => Fin.ext (by
    match a with
    | ⟨0, _⟩ => show 0 + 1 * n.val = n.val; omega
    | ⟨1, _⟩ => show 1024 + 1 * k.val = 1024 + k.val; omega))

/-- The embedded row as the matrix unit's operand is the row: a cast to its own shape and a change of format. -/
theorem pay3_apply (x : Vec Ideal Cert.KernelIdeal.S1x1024 .f32) (i : Cert.KernelIdeal.S1x1024.Idx) :
    k0_pay3 (F := Ideal) x i = x i := by
  unfold k0_pay3
  exact congrFun (shapeCast_self x _) i

/-- The attention applied to the encoder outputs at an entry: the sum over the 512 positions of the weight times the
    encoder output. -/
theorem appliedOf_apply (e h : Vec Ideal Cert.KernelIdeal.S1x1024 .f32) (enc : Vec Ideal Cert.KernelIdeal.S512x1024 .f32)
    (aW : Vec Ideal Cert.KernelIdeal.S512x2048 .f32) (ab : Vec Ideal Cert.KernelIdeal.S1x512 .f32) (p : Fin 1) (j : Fin 1024) :
    appliedOf (F := Ideal) e h enc aW ab (ix2 p j)
      = ∑ m : Fin 512, attnOf (F := Ideal) e h aW ab (ix2 p m) * enc (ix2 m j) := by
  unfold appliedOf k0_pay6
  show matmul (F := Ideal) _ none _ _ _ (ix2 p j) = _
  refine (applied_apply _ _ p j).trans ?_
  refine Finset.sum_congr rfl fun m _ => ?_
  refine congrArg₂ (HMul.hMul : EReal → EReal → EReal) rfl ?_
  exact congrFun (ld_enc enc) (ix2 m j)

/-- The kernel's GRU input at an entry. -/
theorem gruIn_apply (e h : Vec Ideal Cert.KernelIdeal.S1x1024 .f32) (enc : Vec Ideal Cert.KernelIdeal.S512x1024 .f32)
    (aW : Vec Ideal Cert.KernelIdeal.S512x2048 .f32) (ab : Vec Ideal Cert.KernelIdeal.S1x512 .f32)
    (cW : Vec Ideal Cert.KernelIdeal.S1024x2048 .f32) (cb : Vec Ideal Cert.KernelIdeal.S1x1024 .f32) (p : Fin 1) (n : Fin 1024) :
    gruInOf (F := Ideal) e h enc aW ab cW cb (ix2 p n)
      = max (((∑ k : Fin 1024, e (ix2 p k) * cW (ix2 n (lo k)))
            + ∑ k : Fin 1024, (∑ m : Fin 512, attnOf (F := Ideal) e h aW ab (ix2 p m) * enc (ix2 m k)) * cW (ix2 n (hi k)))
          + cb (ix2 p n)) 0 := by
  unfold gruInOf k0_pay9
  refine congrArg₂ (max : EReal → EReal → EReal) ?_ ?_
  · refine congrArg₂ (HAdd.hAdd : EReal → EReal → EReal) ?_ ?_
    · refine congrArg₂ (HAdd.hAdd : EReal → EReal → EReal) ?_ ?_
      · refine (combine_apply _ _ p n).trans ?_
        refine Finset.sum_congr rfl fun k _ => ?_
        exact congrArg₂ (HMul.hMul : EReal → EReal → EReal)
          ((pay3_apply _ _).trans (congrFun (ld_row e) (ix2 p k))) (ld_combLo cW n k)
      · refine (combine_apply _ _ p n).trans ?_
        refine Finset.sum_congr rfl fun k _ => ?_
        exact congrArg₂ (HMul.hMul : EReal → EReal → EReal)
          (appliedOf_apply e h enc aW ab p k) (ld_combHi cW n k)
    · exact (congrFun (shapeCast_self _ _) (ix2 p n)).trans (congrFun (ld_row cb) (ix2 p n))
  · exact Ideal.ofBits_zero_f32

/-! ## The reference's joined row, at an index of each half -/

/-- The joined row at an index of the first half is the first row there. -/
theorem cat_lo (u v : Cert.ReferenceIdeal.S1x1024.Idx → EReal)
    (hc : Shape.Concatenates [Cert.ReferenceIdeal.S1x1024, Cert.ReferenceIdeal.S1x1024] Cert.ReferenceIdeal.S1x2048 1) (p : Fin 1) (k : Fin 1024) :
    concatenate Cert.ReferenceIdeal.S1x2048 1 [⟨Cert.ReferenceIdeal.S1x1024, u⟩, ⟨Cert.ReferenceIdeal.S1x1024, v⟩] hc (ix2 p (lo k)) = u (ix2 p k) :=
  concatenate_pair_apply_left 1 u v hc (ix2 p (lo k)) rfl (ix2 p k) (fun b => match b with | ⟨0, _⟩ => rfl | ⟨1, _⟩ => rfl)

/-- The joined row at an index of the second half is the second row, 1024 earlier. -/
theorem cat_hi (u v : Cert.ReferenceIdeal.S1x1024.Idx → EReal)
    (hc : Shape.Concatenates [Cert.ReferenceIdeal.S1x1024, Cert.ReferenceIdeal.S1x1024] Cert.ReferenceIdeal.S1x2048 1) (p : Fin 1) (k : Fin 1024) :
    concatenate Cert.ReferenceIdeal.S1x2048 1 [⟨Cert.ReferenceIdeal.S1x1024, u⟩, ⟨Cert.ReferenceIdeal.S1x1024, v⟩] hc (ix2 p (hi k)) = v (ix2 p k) :=
  concatenate_pair_apply_right 1 u v hc (ix2 p (hi k)) rfl rfl (ix2 p k)
    (fun b hb => match b, hb with | ⟨0, _⟩, _ => rfl | ⟨1, _⟩, hb => absurd rfl hb)
    (by show k.val + 1024 = 1024 + k.val; omega)

/-! ## The reference's relu(combine) at an entry -/

/-- The reference's GRU input at an entry: the sum over the 2048 joined indices, split at 1024. -/
theorem ref_apply (x0 : (⟨Cert.ReferenceIdeal.S1x1, .i32⟩ : BufTy).Contents (Elt Ideal))
    (x1 : (⟨Cert.ReferenceIdeal.S1x1x1024, .f32⟩ : BufTy).Contents (Elt Ideal))
    (x2 : (⟨Cert.ReferenceIdeal.S512x1024, .f32⟩ : BufTy).Contents (Elt Ideal))
    (x3 : (⟨Cert.ReferenceIdeal.S50257x1024, .f32⟩ : BufTy).Contents (Elt Ideal))
    (x4 : (⟨Cert.ReferenceIdeal.S512x2048, .f32⟩ : BufTy).Contents (Elt Ideal))
    (x5 : (⟨Cert.ReferenceIdeal.S512, .f32⟩ : BufTy).Contents (Elt Ideal))
    (x6 : (⟨Cert.ReferenceIdeal.S1024x2048, .f32⟩ : BufTy).Contents (Elt Ideal))
    (x7 : (⟨Cert.ReferenceIdeal.S1024, .f32⟩ : BufTy).Contents (Elt Ideal)) (p : Fin 1) (n : Fin 1024) :
    val_main_v33 (F := Ideal) x0 x1 x2 x3 x4 x5 x6 x7 (ix2 p n)
      = max (((∑ k : Fin 1024, val_main_v9 (F := Ideal) x0 x3 (ix2 p k) * x6 (ix2 n (lo k)))
            + ∑ k : Fin 1024, (∑ m : Fin 512, val_main_v26 (F := Ideal) x0 x1 x3 x4 x5 (ix2 p m) * x2 (ix2 m k)) * x6 (ix2 n (hi k)))
          + x7 (ix1 n)) 0 := by
  rw [val_main_v33_apply, val_main_v32_apply, val_main_v30_apply, val_main_v31_apply, val_main_call0_v0_apply, val_main_call0_cst_apply]
  refine congrArg₂ (max : EReal → EReal → EReal) (congrArg₂ (HAdd.hAdd : EReal → EReal → EReal) ?_ ?_) Ideal.ofBits_zero_f32
  · refine (sum_split _).trans (congrArg₂ (HAdd.hAdd : EReal → EReal → EReal)
      (Finset.sum_congr rfl fun k _ => ?_) (Finset.sum_congr rfl fun k _ => ?_))
    · have el : lidx_main_v30 (ix2 p n) (lo k) = ix2 p (lo k) :=
        funext fun a => match a with | ⟨0, _⟩ => rfl | ⟨1, _⟩ => rfl
      have er : idx_main_v29 (ridx_main_v30 (ix2 p n) (lo k)) = ix2 n (lo k) :=
        funext fun a => match a with | ⟨0, _⟩ => rfl | ⟨1, _⟩ => rfl
      rw [el, val_main_v29_apply, er]
      unfold val_main_v28
      exact congrArg (· * x6 (ix2 n (lo k))) (cat_lo _ _ _ p k)
    · have el : lidx_main_v30 (ix2 p n) (hi k) = ix2 p (hi k) :=
        funext fun a => match a with | ⟨0, _⟩ => rfl | ⟨1, _⟩ => rfl
      have er : idx_main_v29 (ridx_main_v30 (ix2 p n) (hi k)) = ix2 n (hi k) :=
        funext fun a => match a with | ⟨0, _⟩ => rfl | ⟨1, _⟩ => rfl
      rw [el, val_main_v29_apply, er]
      unfold val_main_v28
      refine congrArg (· * x6 (ix2 n (hi k))) ((cat_hi _ _ _ p k).trans ?_)
      rw [val_main_v27_apply]
      refine Finset.sum_congr rfl fun m _ => ?_
      have e1 : lidx_main_v27 (ix2 p k) m = ix2 p m :=
        funext fun a => match a with | ⟨0, _⟩ => rfl | ⟨1, _⟩ => rfl
      have e2 : ridx_main_v27 (ix2 p k) m = ix2 m k :=
        funext fun a => match a with | ⟨0, _⟩ => rfl | ⟨1, _⟩ => rfl
      rw [e1, e2]
  · exact congrArg x7 (funext fun a => match a with | ⟨0, _⟩ => rfl)

/-! ## The two sides' operands agree -/

/-- The reference's embedded row is the kernel's: the two reshapes undo each other, and the slice's second start is
    the constant zero on both sides (0 < 0 is false). -/
theorem v9_eq_kE (x0 : (⟨Cert.KernelIdeal.S1x1, .i32⟩ : BufTy).Contents (Elt Ideal))
    (x3 : (⟨Cert.KernelIdeal.S50257x1024, .f32⟩ : BufTy).Contents (Elt Ideal)) :
    val_main_v9 (F := Ideal) x0 x3 = kE (F := Ideal) x0 x3 := by
  have h6 : val_main_v6 (F := Ideal) = constantI Cert.KernelIdeal.S_ 32 0#32 := funext fun i => by
    rw [val_main_v6_apply, val_main_v4_apply, val_main_c_1_apply, val_main_c_2_apply, val_main_c_5_apply]
    rfl
  unfold val_main_v9 val_main_v8
  rw [shapeCast_shapeCast]
  unfold val_main_v7
  rw [h6]
  rfl

/-- The combining bias as a row reads the bias at the column. -/
theorem kCb_apply (x7 : (⟨Cert.KernelIdeal.S1024, .f32⟩ : BufTy).Contents (Elt Ideal)) (p : Fin 1) (n : Fin 1024) :
    kCb (F := Ideal) x7 (ix2 p n) = x7 (ix1 n) := by
  unfold kCb
  exact shapeCast_apply x7 _ (ix2 p n) (ix1 n)
    (by rw [Shape.rowMajor_val_one, Shape.rowMajor_val_two]; have := p.isLt; show n.val = p.val * 1024 + n.val; omega)

end Cert.Bridge.GruIn

namespace Cert.Bridge

open Idealize.ShloMosaic Idealize.ShloMosaic.TcCoe Idealize.ShloMosaic.ValueIdx
open Cert.KernelIdeal.Hand
open Cert.ReferenceIdeal.Read

-- the argument arrays, at the exact reals, typed as the kernel program types them
variable (x0 : (⟨Cert.KernelIdeal.S1x1, .i32⟩ : BufTy).Contents (Elt Ideal))
  (x1 : (⟨Cert.KernelIdeal.S1x1x1024, .f32⟩ : BufTy).Contents (Elt Ideal))
  (x2 : (⟨Cert.KernelIdeal.S512x1024, .f32⟩ : BufTy).Contents (Elt Ideal))
  (x3 : (⟨Cert.KernelIdeal.S50257x1024, .f32⟩ : BufTy).Contents (Elt Ideal))
  (x4 : (⟨Cert.KernelIdeal.S512x2048, .f32⟩ : BufTy).Contents (Elt Ideal))
  (x5 : (⟨Cert.KernelIdeal.S512, .f32⟩ : BufTy).Contents (Elt Ideal))
  (x6 : (⟨Cert.KernelIdeal.S1024x2048, .f32⟩ : BufTy).Contents (Elt Ideal))
  (x7 : (⟨Cert.KernelIdeal.S1024, .f32⟩ : BufTy).Contents (Elt Ideal))
  (x8 x9 : (⟨Cert.KernelIdeal.S3072x1024, .f32⟩ : BufTy).Contents (Elt Ideal))
  (x10 x11 : (⟨Cert.KernelIdeal.S3072, .f32⟩ : BufTy).Contents (Elt Ideal))
  (x12 : (⟨Cert.KernelIdeal.S50257x1024, .f32⟩ : BufTy).Contents (Elt Ideal))
  (x13 : (⟨Cert.KernelIdeal.S50257, .f32⟩ : BufTy).Contents (Elt Ideal))

/-- The kernel's GRU input is the reference's relu(combine), given that the attention weights agree. -/
theorem gruIn_eq
    (hattn : attnOf (F := Ideal) (kE x0 x3) (kH x1) x4 (kAb x5) = val_main_v26 (F := Ideal) x0 x1 x3 x4 x5) :
    gruInOf (F := Ideal) (kE x0 x3) (kH x1) x2 x4 (kAb x5) x6 (kCb x7) = val_main_v33 (F := Ideal) x0 x1 x2 x3 x4 x5 x6 x7 := by
  funext i
  obtain ⟨p, n, rfl⟩ : ∃ (p : Fin 1) (n : Fin 1024), i = ix2 p n := ⟨i 0, i 1, eq_ix2 i⟩
  refine (GruIn.gruIn_apply _ _ _ _ _ _ _ p n).trans ?_
  refine Eq.trans ?_ (GruIn.ref_apply x0 x1 x2 x3 x4 x5 x6 x7 p n).symm
  rw [hattn, GruIn.v9_eq_kE, GruIn.kCb_apply]

end Cert.Bridge

end
-- ==== Proof.Bridge.Hnew.lean ====
/-
  The new hidden state. The reference multiplies the GRU's input and the hidden row by the whole transposed gate
  matrices and slices the three gates out of the products; the kernel multiplies by each gate's row block: entry n of
  gate g on both sides is the sum over k of the row's entry k times the matrix's entry (1024 g + n, k), plus the bias's
  entry 1024 g + n. The logistic function is 1 / (1 + exp (-x)) on both sides, tanh the same function, and
  (1 - z) * n + z * h is spelt alike.
-/
import proofs.«414457_j10170482557153_3_alg».proof.Proof.KI.Fold
import proofs.«414457_j10170482557153_3_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.ShloMosaic.ValueIdx
open Cert.KernelIdeal.Hand
open Cert.ReferenceIdeal.Read
open Cert.KernelIdeal.Gen (k0_pay1 k0_pay2 k0_pay3 k0_pay4 k0_pay7 k0_pay8 k0_pay9 k0_pay10 k0_pay11 k0_pay12 k0_pay13)

namespace Hnew

/-! ## The kernel's matrix product at an index

The matrix unit contracts the row's axis 1 with the matrix's axis 1: entry (p, q) of the product is the sum over k of
the row's entry (p, k) times the matrix's entry (q, k). -/

theorem lhs_kdot_0 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.lhsIdx i q 0).val = (i 0).val := by
  unfold DotDims.lhsIdx
  rw [dif_neg (show ¬(0 : Fin Cert.KernelIdeal.S1x1024.rank) ∈ Cert.KernelIdeal.dot_S1x1024_S1024x1024_S1x1024_1_1_0_0_n_n.lhsBatch by decide), dif_pos (show (0 : Fin Cert.KernelIdeal.S1x1024.rank) ∈ Cert.KernelIdeal.dot_S1x1024_S1024x1024_S1x1024_1_1_0_0_n_n.lhsNonContracting by decide)]
  rfl
theorem lhs_kdot_1 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.lhsIdx i q 1).val = (q ⟨0, by decide⟩).val :=
  Cert.KernelIdeal.dot_S1x1024_S1024x1024_S1x1024_1_1_0_0_n_n.lhsIdx_val_of_single rfl i q
theorem rhs_kdot_0 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.rhsIdx i q 0).val = (i 1).val := by
  unfold DotDims.rhsIdx
  rw [dif_neg (show ¬(0 : Fin Cert.KernelIdeal.S1024x1024.rank) ∈ Cert.KernelIdeal.dot_S1x1024_S1024x1024_S1x1024_1_1_0_0_n_n.rhsBatch by decide), dif_pos (show (0 : Fin Cert.KernelIdeal.S1024x1024.rank) ∈ Cert.KernelIdeal.dot_S1x1024_S1024x1024_S1x1024_1_1_0_0_n_n.rhsNonContracting by decide)]
  rfl
theorem rhs_kdot_1 (i : Cert.KernelIdeal.S1x1024.Idx) (q : Cert.KernelIdeal.dot_S1x1024_S1024x1024_S1x1024_1_1_0_0_n_n.contr.Idx) :
    (Cert.KernelIdeal.dot_S1x1024_S1024x1024_S1x1024_1_1_0_0_n_n.rhsIdx i q 1).val = (q ⟨0, by decide⟩).val :=
  Cert.KernelIdeal.dot_S1x1024_S1024x1024_S1x1024_1_1_0_0_n_n.rhsIdx_val_of_single rfl i q

/-- The product into a zero accumulator, at (p, q): the sum over k of row (p, k) times matrix (q, k). -/
theorem kmatmul_apply {φ₁ φ₂ : FTy} (g : FVec Ideal Cert.KernelIdeal.S1x1024 φ₁) (M : FVec Ideal Cert.KernelIdeal.S1024x1024 φ₂)
    (p : Fin 1) (q : Fin 1024) :
    matmul Cert.KernelIdeal.dot_S1x1024_S1024x1024_S1x1024_1_1_0_0_n_n none g M
        (constant (F := Ideal) Cert.KernelIdeal.S1x1024 .f32 0x00000000#32) (ix2 p q)
      = ∑ k : Fin 1024, g (ix2 p k) * M (ix2 q k) := by
  refine (Ideal.matmul_constant_zero_apply Cert.KernelIdeal.dot_S1x1024_S1024x1024_S1x1024_1_1_0_0_n_n none g M (ix2 p q)).trans ?_
  rw [← Equiv.sum_comp (contrEquiv1 Cert.KernelIdeal.dot_S1x1024_S1024x1024_S1x1024_1_1_0_0_n_n 1024 rfl rfl).symm]
  refine Finset.sum_congr rfl fun k _ => ?_
  have hk := contrEquiv1_symm_val Cert.KernelIdeal.dot_S1x1024_S1024x1024_S1x1024_1_1_0_0_n_n 1024 rfl rfl k
  have el : Cert.KernelIdeal.dot_S1x1024_S1024x1024_S1x1024_1_1_0_0_n_n.lhsIdx (ix2 p q) ((contrEquiv1 Cert.KernelIdeal.dot_S1x1024_S1024x1024_S1x1024_1_1_0_0_n_n 1024 rfl rfl).symm k) = ix2 p k := funext fun a => Fin.ext (by
    match a with
    | ⟨0, _⟩ => exact lhs_kdot_0 _ _
    | ⟨1, _⟩ => exact (lhs_kdot_1 _ _).trans hk)
  have er : Cert.KernelIdeal.dot_S1x1024_S1024x1024_S1x1024_1_1_0_0_n_n.rhsIdx (ix2 p q) ((contrEquiv1 Cert.KernelIdeal.dot_S1x1024_S1024x1024_S1x1024_1_1_0_0_n_n 1024 rfl rfl).symm k) = ix2 q k := funext fun a => Fin.ext (by
    match a with
    | ⟨0, _⟩ => exact rhs_kdot_0 _ _
    | ⟨1, _⟩ => exact (rhs_kdot_1 _ _).trans hk)
  rw [el, er]

/-! ## The kernel's loads of a gate's row block and bias block -/

/-- The block of 1024 rows from row o of a [3072, 1024] matrix, at (q, k): the matrix at (o + q, k). -/
theorem ld_rows (W : Vec Ideal Cert.KernelIdeal.S3072x1024 .f32) (o : Nat)
    (inb : ∀ a, (![o, 0] : Fin 2 → Nat) a + Cert.KernelIdeal.S1024x1024.size a ≤ Cert.KernelIdeal.S3072x1024.size a)
    (q k : Fin 1024) (r : Fin 3072) (hr : r.val = o + q.val) :
    View.ld W (Rect.unit (s := Cert.KernelIdeal.S3072x1024) ![o, 0] Cert.KernelIdeal.S1024x1024.size inb) (ix2 q k) = W (ix2 r k) := by
  refine congrArg W (funext fun a => Fin.ext ?_)
  match a with
  | ⟨0, _⟩ => show o + 1 * q.val = r.val; omega
  | ⟨1, _⟩ => show 0 + 1 * k.val = k.val; omega

/-- The block of 1024 columns from column o of a [1, 3072] row, at (p, q): the row at (p, o + q). -/
theorem ld_cols (b : Vec Ideal Cert.KernelIdeal.S1x3072 .f32) (o : Nat)
    (inb : ∀ a, (![0, o] : Fin 2 → Nat) a + Cert.KernelIdeal.S1x1024.size a ≤ Cert.KernelIdeal.S1x3072.size a)
    (p : Fin 1) (q : Fin 1024) (r : Fin 3072) (hr : r.val = o + q.val) :
    View.ld b (Rect.unit (s := Cert.KernelIdeal.S1x3072) ![0, o] Cert.KernelIdeal.S1x1024.size inb) (ix2 p q) = b (ix2 p r) := by
  refine congrArg b (funext fun a => Fin.ext ?_)
  match a with
  | ⟨0, _⟩ => show 0 + 1 * p.val = p.val; omega
  | ⟨1, _⟩ => show o + 1 * q.val = r.val; omega

/-- The whole-row load of a [1, 1024] row is the row. -/
theorem ld_row (h : Vec Ideal Cert.KernelIdeal.S1x1024 .f32) : View.ld h rRow = h := by
  funext i
  refine congrArg h (funext fun a => Fin.ext ?_)
  match a with
  | ⟨0, _⟩ => show 0 + 1 * (i 0).val = (i 0).val; omega
  | ⟨1, _⟩ => show 0 + 1 * (i 1).val = (i 1).val; omega

/-! ## One entry of the new hidden state, from the six pre-activations and the hidden row's entry -/

/-- (1 - z) * n + z * h with r = logistic (i0 + h0), z = logistic (i1 + h1), n = tanh (i2 + r * h2); `one` is the
    extended real the word of the constant 1 denotes. -/
def cell (one i0 h0 i1 h1 i2 h2 h : EReal) : EReal :=
  (one - Ideal.logistic (i1 + h1)) * Ideal.tanh (i2 + Ideal.logistic (i0 + h0) * h2) + Ideal.logistic (i1 + h1) * h

/-- A gate's pre-activation at row r of the gate matrix: the sum over k of the row's entry k times the matrix's
    entry (r, k), plus the bias's entry r. -/
def pre (g : Cert.KernelIdeal.S1x1024.Idx → EReal) (W : Cert.KernelIdeal.S3072x1024.Idx → EReal)
    (b : Cert.KernelIdeal.S3072.Idx → EReal) (p : Fin 1) (r : Fin 3072) : EReal :=
  (∑ k : Fin 1024, g (ix2 p k) * W (ix2 r k)) + b (ix1 r)

/-- The word of the constant 1 denotes 1. -/
theorem one_f32 : Ideal.ofBits .f32 0x3F800000#32 = 1 := IdealRules.sign_bit.ideal_onePat .f32

/-! ## The kernel's payloads at an index -/

/-- A gate's product and bias as the kernel spells them, at (p, q): the sum over k of row (p, k) times block (q, k),
    plus the bias block's entry (p, q). -/
theorem gate_apply {φ : FTy} (g : FVec Ideal Cert.KernelIdeal.S1x1024 φ) (W : Vec Ideal Cert.KernelIdeal.S1024x1024 .f32)
    (b : Vec Ideal Cert.KernelIdeal.S1x1024 .f32) (hb : FTy.bits .bf16 < FTy.bits .f32)
    (hs : Cert.KernelIdeal.S1x1024.ShapeCasts Cert.KernelIdeal.S1x1024) (p : Fin 1) (q : Fin 1024) :
    addf (matmul Cert.KernelIdeal.dot_S1x1024_S1024x1024_S1x1024_1_1_0_0_n_n none g (truncf .bf16 W hb)
          (constant (F := Ideal) Cert.KernelIdeal.S1x1024 .f32 0x00000000#32))
        (shapeCast Cert.KernelIdeal.S1x1024 b hs) (ix2 p q)
      = (∑ k : Fin 1024, g (ix2 p k) * W (ix2 q k)) + b (ix2 p q) := by
  have h1 : matmul Cert.KernelIdeal.dot_S1x1024_S1024x1024_S1x1024_1_1_0_0_n_n none g (truncf .bf16 W hb)
      (constant (F := Ideal) Cert.KernelIdeal.S1x1024 .f32 0x00000000#32) (ix2 p q)
        = ∑ k : Fin 1024, g (ix2 p k) * W (ix2 q k) :=
    kmatmul_apply g (truncf .bf16 W hb) p q
  have s1 : shapeCast Cert.KernelIdeal.S1x1024 b hs (ix2 p q) = b (ix2 p q) :=
    congrFun (shapeCast_self b hs) (ix2 p q)
  rw [addf_apply, h1, s1]

theorem k0_pay2_eq (v2 : Vec Ideal Cert.KernelIdeal.S1x1024 .f32) : k0_pay2 v2 = v2 := by
  unfold k0_pay2
  exact shapeCast_self v2 _

theorem k0_pay4_apply (v2 : Vec Ideal Cert.KernelIdeal.S1x1024 .f32) (i : Cert.KernelIdeal.S1x1024.Idx) :
    k0_pay4 v2 i = v2 i := by
  unfold k0_pay4
  exact congrFun (k0_pay2_eq v2) i

theorem k0_pay10_apply (v4 v31 : FVec Ideal Cert.KernelIdeal.S1x1024 .bf16) (v33 v35 : FVec Ideal Cert.KernelIdeal.S1024x1024 .bf16)
    (cst_19 : FVec Ideal Cert.KernelIdeal.S1x1024 .f32) (v39 : Vec Ideal Cert.KernelIdeal.S1x1024 .f32)
    (v45 : Vec Ideal Cert.KernelIdeal.S1024x1024 .f32) (v50 : Vec Ideal Cert.KernelIdeal.S1x1024 .f32) (p : Fin 1) (q : Fin 1024) :
    k0_pay10 v4 v31 v33 v35 cst_19 v39 v45 v50 (ix2 p q)
      = (∑ k : Fin 1024, k0_pay9 v4 v31 v33 v35 cst_19 v39 (ix2 p k) * v45 (ix2 q k)) + v50 (ix2 p q) := by
  unfold k0_pay10
  exact gate_apply (k0_pay9 v4 v31 v33 v35 cst_19 v39) v45 v50 _ _ p q

theorem k0_pay12_apply (v4 v31 : FVec Ideal Cert.KernelIdeal.S1x1024 .bf16) (v33 v35 : FVec Ideal Cert.KernelIdeal.S1024x1024 .bf16)
    (cst_19 : FVec Ideal Cert.KernelIdeal.S1x1024 .f32) (v39 : Vec Ideal Cert.KernelIdeal.S1x1024 .f32)
    (v57 : Vec Ideal Cert.KernelIdeal.S1024x1024 .f32) (v62 : Vec Ideal Cert.KernelIdeal.S1x1024 .f32) (p : Fin 1) (q : Fin 1024) :
    k0_pay12 v4 v31 v33 v35 cst_19 v39 v57 v62 (ix2 p q)
      = (∑ k : Fin 1024, k0_pay9 v4 v31 v33 v35 cst_19 v39 (ix2 p k) * v57 (ix2 q k)) + v62 (ix2 p q) := by
  unfold k0_pay12
  exact gate_apply (k0_pay9 v4 v31 v33 v35 cst_19 v39) v57 v62 _ _ p q

theorem k0_pay11_apply (v5 : FVec Ideal Cert.KernelIdeal.S1x1024 .bf16) (v47 : Vec Ideal Cert.KernelIdeal.S1024x1024 .f32)
    (v54 : Vec Ideal Cert.KernelIdeal.S1x1024 .f32) (p : Fin 1) (q : Fin 1024) :
    k0_pay11 v5 v47 v54 (ix2 p q) = (∑ k : Fin 1024, v5 (ix2 p k) * v47 (ix2 q k)) + v54 (ix2 p q) := by
  unfold k0_pay11
  exact gate_apply v5 v47 v54 _ _ p q

theorem k0_pay13_apply (v5 : FVec Ideal Cert.KernelIdeal.S1x1024 .bf16) (v59 : Vec Ideal Cert.KernelIdeal.S1024x1024 .f32)
    (v66 : Vec Ideal Cert.KernelIdeal.S1x1024 .f32) (p : Fin 1) (q : Fin 1024) :
    k0_pay13 v5 v59 v66 (ix2 p q) = (∑ k : Fin 1024, v5 (ix2 p k) * v59 (ix2 q k)) + v66 (ix2 p q) := by
  unfold k0_pay13
  exact gate_apply v5 v59 v66 _ _ p q

/-- The last payload at (p, q): the entry of the new hidden state from the first two gates' pre-activations as
    passed in, the third gate's as computed here, and the hidden row's entry. -/
theorem k0_pay1_apply (v3 : FVec Ideal Cert.KernelIdeal.S1x1024 .f32) (v5 v44 : FVec Ideal Cert.KernelIdeal.S1x1024 .bf16)
    (v52 v56 v64 v68 : FVec Ideal Cert.KernelIdeal.S1x1024 .f32) (v69 v71 : Vec Ideal Cert.KernelIdeal.S1024x1024 .f32)
    (v74 v78 : Vec Ideal Cert.KernelIdeal.S1x1024 .f32) (p : Fin 1) (q : Fin 1024) :
    k0_pay1 v3 v5 v44 v52 v56 v64 v68 v69 v71 v74 v78 (ix2 p q)
      = cell (Ideal.ofBits .f32 0x3F800000#32) (v52 (ix2 p q)) (v56 (ix2 p q)) (v64 (ix2 p q)) (v68 (ix2 p q))
          ((∑ k : Fin 1024, v44 (ix2 p k) * v69 (ix2 q k)) + v74 (ix2 p q))
          ((∑ k : Fin 1024, v5 (ix2 p k) * v71 (ix2 q k)) + v78 (ix2 p q))
          (v3 (ix2 p q)) := by
  rw [← gate_apply v44 v69 v74 (by decide) Cert.KernelIdeal.Facts₀.shapeCasts_S1x1024_S1x1024 p q,
    ← gate_apply v5 v71 v78 (by decide) Cert.KernelIdeal.Facts₀.shapeCasts_S1x1024_S1x1024 p q]
  rfl

/-! ## The reference's gates at an index

The reference multiplies the row by the whole transposed [3072, 1024] matrix, adds the broadcast bias and slices: entry
(p, r) of the sum is the pre-activation at row r, and the slice of gate g reads it at r = 1024 g + q. -/

/-- Row q, 1024 + q, 2048 + q of a gate matrix: gate 0's, 1's and 2's row for entry q. -/
abbrev row0 (q : Fin 1024) : Fin 3072 := ⟨q.val, Nat.lt_of_lt_of_le q.isLt (by decide)⟩
abbrev row1 (q : Fin 1024) : Fin 3072 := ⟨1024 + q.val, by have := q.isLt; omega⟩
abbrev row2 (q : Fin 1024) : Fin 3072 := ⟨2048 + q.val, by have := q.isLt; omega⟩

theorem ref_v37_apply (x0 : (⟨Cert.KernelIdeal.S1x1, .i32⟩ : BufTy).Contents (Elt Ideal))
    (x1 : (⟨Cert.KernelIdeal.S1x1x1024, .f32⟩ : BufTy).Contents (Elt Ideal))
    (x2 : (⟨Cert.KernelIdeal.S512x1024, .f32⟩ : BufTy).Contents (Elt Ideal))
    (x3 : (⟨Cert.KernelIdeal.S50257x1024, .f32⟩ : BufTy).Contents (Elt Ideal))
    (x4 : (⟨Cert.KernelIdeal.S512x2048, .f32⟩ : BufTy).Contents (Elt Ideal))
    (x5 : (⟨Cert.KernelIdeal.S512, .f32⟩ : BufTy).Contents (Elt Ideal))
    (x6 : (⟨Cert.KernelIdeal.S1024x2048, .f32⟩ : BufTy).Contents (Elt Ideal))
    (x7 : (⟨Cert.KernelIdeal.S1024, .f32⟩ : BufTy).Contents (Elt Ideal))
    (x8 : (⟨Cert.KernelIdeal.S3072x1024, .f32⟩ : BufTy).Contents (Elt Ideal)) (x10 : (⟨Cert.KernelIdeal.S3072, .f32⟩ : BufTy).Contents (Elt Ideal)) (p : Fin 1) (r : Fin 3072) :
    val_main_v37 (F := Ideal) x0 x1 x2 x3 x4 x5 x6 x7 x8 x10 (ix2 p r)
      = pre (val_main_v33 (F := Ideal) x0 x1 x2 x3 x4 x5 x6 x7) x8 x10 p r := by
  rw [val_main_v37_apply, val_main_v35_apply, val_main_v36_apply, Ideal.addf_def]
  unfold pre
  refine congrArg₂ (fun a b : EReal => a + b) (Finset.sum_congr rfl fun k _ => ?_) (congrArg x10 (funext fun a => ?_))
  · rw [val_main_v34_apply]
    refine congrArg₂ (fun a b : EReal => a * b) (congrArg _ (funext fun a => ?_)) (congrArg x8 (funext fun a => ?_))
    · match a with
      | ⟨0, _⟩ => rfl
      | ⟨1, _⟩ => rfl
    · match a with
      | ⟨0, _⟩ => rfl
      | ⟨1, _⟩ => rfl
  · match a with
    | ⟨0, _⟩ => rfl

theorem ref_v41_apply (x1 : (⟨Cert.KernelIdeal.S1x1x1024, .f32⟩ : BufTy).Contents (Elt Ideal))
    (x9 : (⟨Cert.KernelIdeal.S3072x1024, .f32⟩ : BufTy).Contents (Elt Ideal)) (x11 : (⟨Cert.KernelIdeal.S3072, .f32⟩ : BufTy).Contents (Elt Ideal)) (p : Fin 1) (r : Fin 3072) :
    val_main_v41 (F := Ideal) x1 x9 x11 (ix2 p r)
      = pre (val_main_v10 (F := Ideal) x1) x9 x11 p r := by
  rw [val_main_v41_apply, val_main_v39_apply, val_main_v40_apply, Ideal.addf_def]
  unfold pre
  refine congrArg₂ (fun a b : EReal => a + b) (Finset.sum_congr rfl fun k _ => ?_) (congrArg x11 (funext fun a => ?_))
  · rw [val_main_v38_apply]
    refine congrArg₂ (fun a b : EReal => a * b) (congrArg _ (funext fun a => ?_)) (congrArg x9 (funext fun a => ?_))
    · match a with
      | ⟨0, _⟩ => rfl
      | ⟨1, _⟩ => rfl
    · match a with
      | ⟨0, _⟩ => rfl
      | ⟨1, _⟩ => rfl
  · match a with
    | ⟨0, _⟩ => rfl

theorem ref_v42_apply (x0 : (⟨Cert.KernelIdeal.S1x1, .i32⟩ : BufTy).Contents (Elt Ideal))
    (x1 : (⟨Cert.KernelIdeal.S1x1x1024, .f32⟩ : BufTy).Contents (Elt Ideal))
    (x2 : (⟨Cert.KernelIdeal.S512x1024, .f32⟩ : BufTy).Contents (Elt Ideal))
    (x3 : (⟨Cert.KernelIdeal.S50257x1024, .f32⟩ : BufTy).Contents (Elt Ideal))
    (x4 : (⟨Cert.KernelIdeal.S512x2048, .f32⟩ : BufTy).Contents (Elt Ideal))
    (x5 : (⟨Cert.KernelIdeal.S512, .f32⟩ : BufTy).Contents (Elt Ideal))
    (x6 : (⟨Cert.KernelIdeal.S1024x2048, .f32⟩ : BufTy).Contents (Elt Ideal))
    (x7 : (⟨Cert.KernelIdeal.S1024, .f32⟩ : BufTy).Contents (Elt Ideal))
    (x8 : (⟨Cert.KernelIdeal.S3072x1024, .f32⟩ : BufTy).Contents (Elt Ideal)) (x10 : (⟨Cert.KernelIdeal.S3072, .f32⟩ : BufTy).Contents (Elt Ideal)) (p : Fin 1) (q : Fin 1024) :
    val_main_v42 (F := Ideal) x0 x1 x2 x3 x4 x5 x6 x7 x8 x10 (ix2 p q)
      = pre (val_main_v33 (F := Ideal) x0 x1 x2 x3 x4 x5 x6 x7) x8 x10 p (row0 q) := by
  rw [val_main_v42_apply]
  refine (congrArg (val_main_v37 (F := Ideal) x0 x1 x2 x3 x4 x5 x6 x7 x8 x10) (funext fun a => ?_)).trans (ref_v37_apply x0 x1 x2 x3 x4 x5 x6 x7 x8 x10 p _)
  match a with
  | ⟨0, _⟩ => rfl
  | ⟨1, _⟩ => rfl

theorem ref_v43_apply (x0 : (⟨Cert.KernelIdeal.S1x1, .i32⟩ : BufTy).Contents (Elt Ideal))
    (x1 : (⟨Cert.KernelIdeal.S1x1x1024, .f32⟩ : BufTy).Contents (Elt Ideal))
    (x2 : (⟨Cert.KernelIdeal.S512x1024, .f32⟩ : BufTy).Contents (Elt Ideal))
    (x3 : (⟨Cert.KernelIdeal.S50257x1024, .f32⟩ : BufTy).Contents (Elt Ideal))
    (x4 : (⟨Cert.KernelIdeal.S512x2048, .f32⟩ : BufTy).Contents (Elt Ideal))
    (x5 : (⟨Cert.KernelIdeal.S512, .f32⟩ : BufTy).Contents (Elt Ideal))
    (x6 : (⟨Cert.KernelIdeal.S1024x2048, .f32⟩ : BufTy).Contents (Elt Ideal))
    (x7 : (⟨Cert.KernelIdeal.S1024, .f32⟩ : BufTy).Contents (Elt Ideal))
    (x8 : (⟨Cert.KernelIdeal.S3072x1024, .f32⟩ : BufTy).Contents (Elt Ideal)) (x10 : (⟨Cert.KernelIdeal.S3072, .f32⟩ : BufTy).Contents (Elt Ideal)) (p : Fin 1) (q : Fin 1024) :
    val_main_v43 (F := Ideal) x0 x1 x2 x3 x4 x5 x6 x7 x8 x10 (ix2 p q)
      = pre (val_main_v33 (F := Ideal) x0 x1 x2 x3 x4 x5 x6 x7) x8 x10 p (row1 q) := by
  rw [val_main_v43_apply]
  refine (congrArg (val_main_v37 (F := Ideal) x0 x1 x2 x3 x4 x5 x6 x7 x8 x10) (funext fun a => ?_)).trans (ref_v37_apply x0 x1 x2 x3 x4 x5 x6 x7 x8 x10 p _)
  match a with
  | ⟨0, _⟩ => rfl
  | ⟨1, _⟩ => rfl

theorem ref_v44_apply (x0 : (⟨Cert.KernelIdeal.S1x1, .i32⟩ : BufTy).Contents (Elt Ideal))
    (x1 : (⟨Cert.KernelIdeal.S1x1x1024, .f32⟩ : BufTy).Contents (Elt Ideal))
    (x2 : (⟨Cert.KernelIdeal.S512x1024, .f32⟩ : BufTy).Contents (Elt Ideal))
    (x3 : (⟨Cert.KernelIdeal.S50257x1024, .f32⟩ : BufTy).Contents (Elt Ideal))
    (x4 : (⟨Cert.KernelIdeal.S512x2048, .f32⟩ : BufTy).Contents (Elt Ideal))
    (x5 : (⟨Cert.KernelIdeal.S512, .f32⟩ : BufTy).Contents (Elt Ideal))
    (x6 : (⟨Cert.KernelIdeal.S1024x2048, .f32⟩ : BufTy).Contents (Elt Ideal))
    (x7 : (⟨Cert.KernelIdeal.S1024, .f32⟩ : BufTy).Contents (Elt Ideal))
    (x8 : (⟨Cert.KernelIdeal.S3072x1024, .f32⟩ : BufTy).Contents (Elt Ideal)) (x10 : (⟨Cert.KernelIdeal.S3072, .f32⟩ : BufTy).Contents (Elt Ideal)) (p : Fin 1) (q : Fin 1024) :
    val_main_v44 (F := Ideal) x0 x1 x2 x3 x4 x5 x6 x7 x8 x10 (ix2 p q)
      = pre (val_main_v33 (F := Ideal) x0 x1 x2 x3 x4 x5 x6 x7) x8 x10 p (row2 q) := by
  rw [val_main_v44_apply]
  refine (congrArg (val_main_v37 (F := Ideal) x0 x1 x2 x3 x4 x5 x6 x7 x8 x10) (funext fun a => ?_)).trans (ref_v37_apply x0 x1 x2 x3 x4 x5 x6 x7 x8 x10 p _)
  match a with
  | ⟨0, _⟩ => rfl
  | ⟨1, _⟩ => rfl

theorem ref_v45_apply (x1 : (⟨Cert.KernelIdeal.S1x1x1024, .f32⟩ : BufTy).Contents (Elt Ideal))
    (x9 : (⟨Cert.KernelIdeal.S3072x1024, .f32⟩ : BufTy).Contents (Elt Ideal)) (x11 : (⟨Cert.KernelIdeal.S3072, .f32⟩ : BufTy).Contents (Elt Ideal)) (p : Fin 1) (q : Fin 1024) :
    val_main_v45 (F := Ideal) x1 x9 x11 (ix2 p q)
      = pre (val_main_v10 (F := Ideal) x1) x9 x11 p (row0 q) := by
  rw [val_main_v45_apply]
  refine (congrArg (val_main_v41 (F := Ideal) x1 x9 x11) (funext fun a => ?_)).trans (ref_v41_apply x1 x9 x11 p _)
  match a with
  | ⟨0, _⟩ => rfl
  | ⟨1, _⟩ => rfl

theorem ref_v46_apply (x1 : (⟨Cert.KernelIdeal.S1x1x1024, .f32⟩ : BufTy).Contents (Elt Ideal))
    (x9 : (⟨Cert.KernelIdeal.S3072x1024, .f32⟩ : BufTy).Contents (Elt Ideal)) (x11 : (⟨Cert.KernelIdeal.S3072, .f32⟩ : BufTy).Contents (Elt Ideal)) (p : Fin 1) (q : Fin 1024) :
    val_main_v46 (F := Ideal) x1 x9 x11 (ix2 p q)
      = pre (val_main_v10 (F := Ideal) x1) x9 x11 p (row1 q) := by
  rw [val_main_v46_apply]
  refine (congrArg (val_main_v41 (F := Ideal) x1 x9 x11) (funext fun a => ?_)).trans (ref_v41_apply x1 x9 x11 p _)
  match a with
  | ⟨0, _⟩ => rfl
  | ⟨1, _⟩ => rfl

theorem ref_v47_apply (x1 : (⟨Cert.KernelIdeal.S1x1x1024, .f32⟩ : BufTy).Contents (Elt Ideal))
    (x9 : (⟨Cert.KernelIdeal.S3072x1024, .f32⟩ : BufTy).Contents (Elt Ideal)) (x11 : (⟨Cert.KernelIdeal.S3072, .f32⟩ : BufTy).Contents (Elt Ideal)) (p : Fin 1) (q : Fin 1024) :
    val_main_v47 (F := Ideal) x1 x9 x11 (ix2 p q)
      = pre (val_main_v10 (F := Ideal) x1) x9 x11 p (row2 q) := by
  rw [val_main_v47_apply]
  refine (congrArg (val_main_v41 (F := Ideal) x1 x9 x11) (funext fun a => ?_)).trans (ref_v41_apply x1 x9 x11 p _)
  match a with
  | ⟨0, _⟩ => rfl
  | ⟨1, _⟩ => rfl

/-- The reference spells the logistic function with the word of the constant 1. -/
theorem logistic_spelt (x : EReal) :
    Ideal.div (Ideal.ofBits .f32 0x3F800000#32) (Ideal.ofBits .f32 0x3F800000#32 + Ideal.exp (-x)) = Ideal.logistic x := by
  rw [one_f32]; rfl

/-- The reference's new hidden state at an index, from its six gate slices and the hidden row's entry. -/
theorem ref_v69_apply (x0 : (⟨Cert.KernelIdeal.S1x1, .i32⟩ : BufTy).Contents (Elt Ideal))
    (x1 : (⟨Cert.KernelIdeal.S1x1x1024, .f32⟩ : BufTy).Contents (Elt Ideal))
    (x2 : (⟨Cert.KernelIdeal.S512x1024, .f32⟩ : BufTy).Contents (Elt Ideal))
    (x3 : (⟨Cert.KernelIdeal.S50257x1024, .f32⟩ : BufTy).Contents (Elt Ideal))
    (x4 : (⟨Cert.KernelIdeal.S512x2048, .f32⟩ : BufTy).Contents (Elt Ideal))
    (x5 : (⟨Cert.KernelIdeal.S512, .f32⟩ : BufTy).Contents (Elt Ideal))
    (x6 : (⟨Cert.KernelIdeal.S1024x2048, .f32⟩ : BufTy).Contents (Elt Ideal))
    (x7 : (⟨Cert.KernelIdeal.S1024, .f32⟩ : BufTy).Contents (Elt Ideal))
    (x8 x9 : (⟨Cert.KernelIdeal.S3072x1024, .f32⟩ : BufTy).Contents (Elt Ideal))
    (x10 x11 : (⟨Cert.KernelIdeal.S3072, .f32⟩ : BufTy).Contents (Elt Ideal)) (i : Cert.KernelIdeal.S1x1024.Idx) :
    val_main_v69 (F := Ideal) x0 x1 x2 x3 x4 x5 x6 x7 x8 x9 x10 x11 i
      = cell (Ideal.ofBits .f32 0x3F800000#32)
          (val_main_v42 (F := Ideal) x0 x1 x2 x3 x4 x5 x6 x7 x8 x10 i) (val_main_v45 (F := Ideal) x1 x9 x11 i)
          (val_main_v43 (F := Ideal) x0 x1 x2 x3 x4 x5 x6 x7 x8 x10 i) (val_main_v46 (F := Ideal) x1 x9 x11 i)
          (val_main_v44 (F := Ideal) x0 x1 x2 x3 x4 x5 x6 x7 x8 x10 i) (val_main_v47 (F := Ideal) x1 x9 x11 i)
          (val_main_v10 (F := Ideal) x1 i) := by
  rw [val_main_v69_apply, val_main_v67_apply, val_main_v68_apply, val_main_v66_apply, val_main_v65_apply, val_main_cst_12_apply,
    val_main_v64_apply, val_main_v63_apply, val_main_v62_apply, val_main_v61_apply, val_main_v60_apply, val_main_cst_11_apply,
    val_main_v59_apply, val_main_v58_apply, val_main_cst_10_apply, val_main_v57_apply, val_main_v56_apply, val_main_v55_apply,
    val_main_v54_apply, val_main_v53_apply, val_main_cst_9_apply, val_main_v52_apply, val_main_v51_apply, val_main_cst_8_apply,
    val_main_v50_apply, val_main_v49_apply, val_main_v48_apply]
  simp only [Ideal.addf_def, Ideal.subf_def, Ideal.mulf_def, Ideal.hostDivf_def, Ideal.hostUnary_exp_def, Ideal.hostUnary_tanh_def,
    Ideal.hostNegf_def, Ideal.negf_def, Ideal.ofBits_def, logistic_spelt]
  rfl

/-! ## The kernel's gates are the same pre-activations -/

/-- A gate's product and bias from the blocks the kernel loads, at (p, q): the pre-activation at row r = o + q. -/
theorem kpre (g : Cert.KernelIdeal.S1x1024.Idx → EReal) (W : Vec Ideal Cert.KernelIdeal.S3072x1024 .f32)
    (b : Vec Ideal Cert.KernelIdeal.S3072 .f32) (o : Nat)
    (inbW : ∀ a, (![o, 0] : Fin 2 → Nat) a + Cert.KernelIdeal.S1024x1024.size a ≤ Cert.KernelIdeal.S3072x1024.size a)
    (inbB : ∀ a, (![0, o] : Fin 2 → Nat) a + Cert.KernelIdeal.S1x1024.size a ≤ Cert.KernelIdeal.S1x3072.size a)
    (p : Fin 1) (q : Fin 1024) (r : Fin 3072) (hr : r.val = o + q.val) :
    (∑ k : Fin 1024, g (ix2 p k)
          * View.ld W (Rect.unit (s := Cert.KernelIdeal.S3072x1024) ![o, 0] Cert.KernelIdeal.S1024x1024.size inbW) (ix2 q k))
        + View.ld (kB3 (F := Ideal) b) (Rect.unit (s := Cert.KernelIdeal.S1x3072) ![0, o] Cert.KernelIdeal.S1x1024.size inbB) (ix2 p q)
      = pre g W b p r := by
  unfold pre
  refine congrArg₂ (fun a b : EReal => a + b)
    (Finset.sum_congr rfl fun k _ => congrArg (fun t : EReal => g (ix2 p k) * t) (ld_rows W o inbW q k r hr)) ?_
  refine (ld_cols (kB3 (F := Ideal) b) o inbB p q r hr).trans ?_
  unfold kB3
  exact shapeCast_a_1a_apply b _ p r

end Hnew

open Hnew

-- the argument arrays, at the exact reals, typed as the kernel program types them
variable (x0 : (⟨Cert.KernelIdeal.S1x1, .i32⟩ : BufTy).Contents (Elt Ideal))
  (x1 : (⟨Cert.KernelIdeal.S1x1x1024, .f32⟩ : BufTy).Contents (Elt Ideal))
  (x2 : (⟨Cert.KernelIdeal.S512x1024, .f32⟩ : BufTy).Contents (Elt Ideal))
  (x3 : (⟨Cert.KernelIdeal.S50257x1024, .f32⟩ : BufTy).Contents (Elt Ideal))
  (x4 : (⟨Cert.KernelIdeal.S512x2048, .f32⟩ : BufTy).Contents (Elt Ideal))
  (x5 : (⟨Cert.KernelIdeal.S512, .f32⟩ : BufTy).Contents (Elt Ideal))
  (x6 : (⟨Cert.KernelIdeal.S1024x2048, .f32⟩ : BufTy).Contents (Elt Ideal))
  (x7 : (⟨Cert.KernelIdeal.S1024, .f32⟩ : BufTy).Contents (Elt Ideal))
  (x8 x9 : (⟨Cert.KernelIdeal.S3072x1024, .f32⟩ : BufTy).Contents (Elt Ideal))
  (x10 x11 : (⟨Cert.KernelIdeal.S3072, .f32⟩ : BufTy).Contents (Elt Ideal))
  (x12 : (⟨Cert.KernelIdeal.S50257x1024, .f32⟩ : BufTy).Contents (Elt Ideal))
  (x13 : (⟨Cert.KernelIdeal.S50257, .f32⟩ : BufTy).Contents (Elt Ideal))

/-- The kernel's new hidden state is the reference's, given that the GRU's input agrees. -/
theorem hnew_eq
    (hgru : gruInOf (F := Ideal) (kE x0 x3) (kH x1) x2 x4 (kAb x5) x6 (kCb x7) = val_main_v33 (F := Ideal) x0 x1 x2 x3 x4 x5 x6 x7) :
    hnewOf (F := Ideal) (kE x0 x3) (kH x1) x2 x4 (kAb x5) x6 (kCb x7) x8 x9 (kB3 x10) (kB3 x11)
      = val_main_v69 (F := Ideal) x0 x1 x2 x3 x4 x5 x6 x7 x8 x9 x10 x11 := by
  funext i
  obtain ⟨p, q, rfl⟩ : ∃ (p : Fin 1) (q : Fin 1024), i = ix2 p q := ⟨i 0, i 1, eq_ix2 i⟩
  -- the GRU's input as the gates' payloads spell it
  have hgru' := hgru
  unfold gruInOf at hgru'
  -- the hidden row as the kernel's first payloads leave it is the reference's reshaped row
  have hk2 : k0_pay2 (View.ld (kH (F := Ideal) x1) rRow) = val_main_v10 (F := Ideal) x1 :=
    (k0_pay2_eq _).trans (ld_row (kH (F := Ideal) x1))
  have hk4 : k0_pay4 (View.ld (kH (F := Ideal) x1) rRow) = val_main_v10 (F := Ideal) x1 :=
    funext fun j => (k0_pay4_apply _ j).trans (congrFun (ld_row (kH (F := Ideal) x1)) j)
  rw [ref_v69_apply, ref_v42_apply, ref_v43_apply, ref_v44_apply, ref_v45_apply, ref_v46_apply, ref_v47_apply]
  unfold hnewOf
  rw [k0_pay1_apply, k0_pay10_apply, k0_pay11_apply, k0_pay12_apply, k0_pay13_apply, hk2, hk4, hgru, hgru']
  rw [kpre (val_main_v33 (F := Ideal) x0 x1 x2 x3 x4 x5 x6 x7) x8 x10 0 _ _ p q (row0 q) (Nat.zero_add _).symm,
    kpre (val_main_v10 (F := Ideal) x1) x9 x11 0 _ _ p q (row0 q) (Nat.zero_add _).symm,
    kpre (val_main_v33 (F := Ideal) x0 x1 x2 x3 x4 x5 x6 x7) x8 x10 1024 _ _ p q (row1 q) rfl,
    kpre (val_main_v10 (F := Ideal) x1) x9 x11 1024 _ _ p q (row1 q) rfl,
    kpre (val_main_v33 (F := Ideal) x0 x1 x2 x3 x4 x5 x6 x7) x8 x10 2048 _ _ p q (row2 q) rfl,
    kpre (val_main_v10 (F := Ideal) x1) x9 x11 2048 _ _ p q (row2 q) rfl]

end Cert.Bridge

end
-- ==== Proof.Bridge.Logits.lean ====
/-
  The logits, their log_softmax, and the hidden state's broadcast. Entry j of the logits is the sum over k of the new
  hidden state's entry k times out_W's entry (j, k), plus out_b's entry j: the kernel computes it tile by tile, the
  reference as one product with the transposed matrix. log_softmax is the same line of operations on both sides.
-/
import proofs.«414457_j10170482557153_3_alg».proof.Proof.KI.Fold
import proofs.«414457_j10170482557153_3_alg».proof.Proof.RefRun
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.ShloMosaic.ValueIdx
open Cert.KernelIdeal.Hand
open Cert.ReferenceIdeal.Read

-- the argument arrays, at the exact reals, typed as the kernel program types them
variable (x0 : (⟨Cert.KernelIdeal.S1x1, .i32⟩ : BufTy).Contents (Elt Ideal))
  (x1 : (⟨Cert.KernelIdeal.S1x1x1024, .f32⟩ : BufTy).Contents (Elt Ideal))
  (x2 : (⟨Cert.KernelIdeal.S512x1024, .f32⟩ : BufTy).Contents (Elt Ideal))
  (x3 : (⟨Cert.KernelIdeal.S50257x1024, .f32⟩ : BufTy).Contents (Elt Ideal))
  (x4 : (⟨Cert.KernelIdeal.S512x2048, .f32⟩ : BufTy).Contents (Elt Ideal))
  (x5 : (⟨Cert.KernelIdeal.S512, .f32⟩ : BufTy).Contents (Elt Ideal))
  (x6 : (⟨Cert.KernelIdeal.S1024x2048, .f32⟩ : BufTy).Contents (Elt Ideal))
  (x7 : (⟨Cert.KernelIdeal.S1024, .f32⟩ : BufTy).Contents (Elt Ideal))
  (x8 x9 : (⟨Cert.KernelIdeal.S3072x1024, .f32⟩ : BufTy).Contents (Elt Ideal))
  (x10 x11 : (⟨Cert.KernelIdeal.S3072, .f32⟩ : BufTy).Contents (Elt Ideal))
  (x12 : (⟨Cert.KernelIdeal.S50257x1024, .f32⟩ : BufTy).Contents (Elt Ideal))
  (x13 : (⟨Cert.KernelIdeal.S50257, .f32⟩ : BufTy).Contents (Elt Ideal))

/-- Entry j of the reference's logits, read as the kernel's tiles compute it. -/
theorem logits_eq (hn : Vec Ideal Cert.KernelIdeal.S1x1024 .f32)
    (hhn : hn = val_main_v69 (F := Ideal) x0 x1 x2 x3 x4 x5 x6 x7 x8 x9 x10 x11) (j : Fin 50257) :
    (∑ k : Fin 1024, (hn (ix2 (0 : Fin 1) k) : EReal) * x12 (ix2 j k)) + kOb x13 (ix2 (0 : Fin 1) j)
      = val_main_v73 (F := Ideal) x0 x1 x2 x3 x4 x5 x6 x7 x8 x9 x10 x11 x12 x13 (ix2 (0 : Fin 1) j) := by
  subst hhn
  -- the reference's entry: the product's entry plus the broadcast bias's entry
  rw [val_main_v73_apply, val_main_v71_apply, val_main_v72_apply]
  refine congrArg₂ (fun a b : EReal => a + b) (Finset.sum_congr rfl fun k _ => ?_) ?_
  · -- the transposed matrix at (k, j) is the matrix at (j, k)
    rw [val_main_v70_apply]
    refine congrArg₂ (fun a b : EReal => a * b) (congrArg _ ?_) (congrArg _ ?_)
    · exact funext fun a => Fin.ext (by match a with | ⟨0, _⟩ => rfl | ⟨1, _⟩ => rfl)
    · exact funext fun a => Fin.ext (by match a with | ⟨0, _⟩ => rfl | ⟨1, _⟩ => rfl)
  · -- the bias as a row, at (0, j), is the bias at j
    unfold kOb
    exact shapeCast_apply x13 _ (ix2 (0 : Fin 1) j) (idx_main_v72 (ix2 (0 : Fin 1) j)) (by
      rw [Shape.rowMajor_val_two, Shape.rowMajor_val_one]; show j.val = 0 * 50257 + j.val; omega)

/-- log_softmax of the reference's logits, as the kernel program's host line computes it, is the reference's result. -/
theorem lsm_eq :
    lsm (F := Ideal) (val_main_v73 (F := Ideal) x0 x1 x2 x3 x4 x5 x6 x7 x8 x9 x10 x11 x12 x13)
      = val_main_v74 (F := Ideal) x0 x1 x2 x3 x4 x5 x6 x7 x8 x9 x10 x11 x12 x13 := by
  -- both sides are the same line of operations over the logits: x - max - log (sum (exp (x - max)))
  unfold val_main_v74 val_main_call1_v10 val_main_call1_v9 val_main_call1_v8 val_main_call1_v7 val_main_call1_v6
    val_main_call1_v5 val_main_call1_v4 val_main_call1_v3 val_main_call1_v2 val_main_call1_v1 val_main_call1_v0
    val_main_call1_cst val_main_call1_cst_0 val_main_call1_cst_1
  generalize val_main_v73 (F := Ideal) x0 x1 x2 x3 x4 x5 x6 x7 x8 x9 x10 x11 x12 x13 = y
  unfold lsm
  with_reducible rfl

end Cert.Bridge

end
-- ==== Proof.lean ====
/-
  The certificate of an attention decoder step (an embedding lookup, Bahdanau attention over 512 encoder positions, one
  GRU step, a projection onto 50257 vocabulary entries and log_softmax) computed by two kernels against its plain
  reference. At the exact reals both programs compute the same functions of the arguments: the kernels split each
  product with a 2048-column matrix into the two products with its halves, take the GRU's gates from row blocks of the
  gate matrices instead of slicing the whole products, and compute the logits in sixteen tiles of 3200 columns, the last
  overhanging the 50257 columns by 943; each is a regrouping of the same finite sums, and no entry inside the arrays
  reads a word past their ends. The word-level kernel program's frame is proved with the logits array held at contents
  nothing names (KB/Run.lean); the idealized kernel program's run names every result (KI/Run.lean, KI/ValueA.lean,
  KI/ValueB.lean); the bridge to the reference's stages is Bridge/*.lean; the reference's run is read back at its stages stretch by stretch
  (Ref/Run.lean).
-/
import proofs.«414457_j10170482557153_3_alg».proof.Defs
import proofs.«414457_j10170482557153_3_alg».proof.Proof.Gen.Kernel
import proofs.«414457_j10170482557153_3_alg».proof.Proof.Gen.Kernel.Skeleton
import proofs.«414457_j10170482557153_3_alg».proof.Proof.Gen.Kernel.Launch
import proofs.«414457_j10170482557153_3_alg».proof.Proof.Gen.Kernel.Regions
import proofs.«414457_j10170482557153_3_alg».proof.Proof.Gen.Kernel.Points
import proofs.«414457_j10170482557153_3_alg».proof.Proof.Gen.KernelIdeal
import proofs.«414457_j10170482557153_3_alg».proof.Proof.Gen.KernelIdeal.Skeleton
import proofs.«414457_j10170482557153_3_alg».proof.Proof.Gen.KernelIdeal.Launch
import proofs.«414457_j10170482557153_3_alg».proof.Proof.Gen.KernelIdeal.Regions
import proofs.«414457_j10170482557153_3_alg».proof.Proof.Gen.KernelIdeal.Points
import proofs.«414457_j10170482557153_3_alg».proof.Proof.Gen.ReferenceIdeal
import proofs.«414457_j10170482557153_3_alg».proof.Proof.Gen.Pre_finite_inputs
import proofs.«414457_j10170482557153_3_alg».proof.Proof.KB.Run
import proofs.«414457_j10170482557153_3_alg».proof.Proof.KI.Run
import proofs.«414457_j10170482557153_3_alg».proof.Proof.KI.ValueA
import proofs.«414457_j10170482557153_3_alg».proof.Proof.KI.ValueB
import proofs.«414457_j10170482557153_3_alg».proof.Proof.Bridge.Attn
import proofs.«414457_j10170482557153_3_alg».proof.Proof.Bridge.GruIn
import proofs.«414457_j10170482557153_3_alg».proof.Proof.Bridge.Hnew
import proofs.«414457_j10170482557153_3_alg».proof.Proof.Bridge.Logits
import proofs.«414457_j10170482557153_3_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.KernelIdeal.Hand Cert.ReferenceIdeal.Read

/-- An unscoped TensorCore buffer of the idealized kernel program is among those the run's last state names. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

section Kernel

variable (m : (ℓ : Loc Cert.KernelIdeal.nD Cert.KernelIdeal.τ Cert.KernelIdeal.sig) → Buf (Elt Ideal) ℓ)

/-- The new hidden state the first kernel leaves is the reference's. -/
theorem hnew_ref (c : Dev Cert.KernelIdeal.nD) :
    W2 m c Cert.KernelIdeal.main_v11_0 = val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [W2_hnew m c]
  exact Cert.Bridge.hnew_eq _ _ _ _ _ _ _ _ _ _ _ _ (Cert.Bridge.gruIn_eq _ _ _ _ _ _ _ _ (Cert.Bridge.attn_eq _ _ _ _ _))

/-- The logits array the second kernel leaves is the reference's. -/
theorem logits_ref (c : Dev Cert.KernelIdeal.nD) :
    W3 m c Cert.KernelIdeal.main_v12 = val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  funext i
  obtain ⟨p, j, rfl⟩ : ∃ (p : Fin 1) (j : Fin 50257), i = ix2 p j := ⟨i 0, i 1, eq_ix2 i⟩
  obtain rfl : p = 0 := Subsingleton.elim _ _
  rw [W3_logits_col m c j, (W2_operands m c).1, (W2_operands m c).2]
  exact Cert.Bridge.logits_eq _ _ _ _ _ _ _ _ _ _ _ _ _ _ (W2 m c Cert.KernelIdeal.main_v11_0) (hnew_ref m c) j

/-- The idealized kernel program's run with its three results at the reference's stages of the launch arguments. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v13) = val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v14) = val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_v11_1) = val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) := by
  refine (θ_run (Cert.KernelIdeal.defs (F := Ideal)) _ _).mono (fun r h c => ?_) (run_all m ρ)
  have hA := W5_args m c
  refine ⟨?_, ?_, ?_, ?_⟩
  · rw [h c _ (mem_uc Cert.KernelIdeal.main_v13 (by decide)), W5_out m c, logits_ref m c]
    exact Cert.Bridge.lsm_eq _ _ _ _ _ _ _ _ _ _ _ _ _ _
  · rw [h c _ (mem_uc Cert.KernelIdeal.main_v14 (by decide)), W5_hid m c, hnew_ref m c]; rfl
  · rw [h c _ (mem_uc Cert.KernelIdeal.main_v11_1 (by decide)), W5_attn m c]
    exact Cert.Bridge.attn_eq _ _ _ _ _
  · exact ⟨(h c _ (mem_uc Cert.KernelIdeal.main_arg0 (by decide))).trans hA.1,
      (h c _ (mem_uc Cert.KernelIdeal.main_arg1 (by decide))).trans hA.2.1,
      (h c _ (mem_uc Cert.KernelIdeal.main_arg2 (by decide))).trans hA.2.2.1,
      (h c _ (mem_uc Cert.KernelIdeal.main_arg3 (by decide))).trans hA.2.2.2.1,
      (h c _ (mem_uc Cert.KernelIdeal.main_arg4 (by decide))).trans hA.2.2.2.2.1,
      (h c _ (mem_uc Cert.KernelIdeal.main_arg5 (by decide))).trans hA.2.2.2.2.2.1,
      (h c _ (mem_uc Cert.KernelIdeal.main_arg6 (by decide))).trans hA.2.2.2.2.2.2.1,
      (h c _ (mem_uc Cert.KernelIdeal.main_arg7 (by decide))).trans hA.2.2.2.2.2.2.2.1,
      (h c _ (mem_uc Cert.KernelIdeal.main_arg8 (by decide))).trans hA.2.2.2.2.2.2.2.2.1,
      (h c _ (mem_uc Cert.KernelIdeal.main_arg9 (by decide))).trans hA.2.2.2.2.2.2.2.2.2.1,
      (h c _ (mem_uc Cert.KernelIdeal.main_arg10 (by decide))).trans hA.2.2.2.2.2.2.2.2.2.2.1,
      (h c _ (mem_uc Cert.KernelIdeal.main_arg11 (by decide))).trans hA.2.2.2.2.2.2.2.2.2.2.2.1,
      (h c _ (mem_uc Cert.KernelIdeal.main_arg12 (by decide))).trans hA.2.2.2.2.2.2.2.2.2.2.2.2.1,
      (h c _ (mem_uc Cert.KernelIdeal.main_arg13 (by decide))).trans hA.2.2.2.2.2.2.2.2.2.2.2.2.2⟩

end Kernel

/-- The idealized kernel program's frame: its run, read at the arguments. -/
theorem frame_kernelIdeal : Cert.frame_KernelIdeal := fun m ρ _ =>
  (θ_run (Cert.KernelIdeal.defs (F := Ideal)) _ _).mono (fun _ h c => (h c).2.2.2) (kernel_run m ρ)

/-- The reference's frame: its run, the results dropped. -/
theorem frame_referenceIdeal : Cert.frame_ReferenceIdeal := fun m ρ _ =>
  (θ_run (Cert.ReferenceIdeal.defs (F := Ideal)) _ _).mono (fun _ h c => (h c).2.2.2) (Cert.ReferenceIdeal.HandRun.run (F := Ideal) m ρ)

/-- At the exact reals the two programs, run from memories agreeing on the arguments, end with equal results: the
    kernel program's are the reference's stages of its launch arguments (`kernel_run`), the reference's are its
    stages of its own (its run), and the arguments agree. -/
theorem algebraic : Cert.algebraic_KernelIdeal_ReferenceIdeal := by
  intro m ρ m' ρ' _ hagree
  refine ⟨_, _, _, kernel_run m ρ, ?_⟩
  refine (θ_run (Cert.ReferenceIdeal.defs (F := Ideal)) _ _).mono (fun r h c => ?_) (Cert.ReferenceIdeal.HandRun.run (F := Ideal) m' ρ')
  obtain ⟨e0, e1, e2, e3, e4, e5, e6, e7, e8, e9, e10, e11, e12, e13⟩ := hagree c
  refine ⟨?_, ?_, ?_, (h c).2.2.2⟩
  · rw [(h c).1, e0, e1, e2, e3, e4, e5, e6, e7, e8, e9, e10, e11, e12, e13]
  · rw [(h c).2.1, e0, e1, e2, e3, e4, e5, e6, e7, e8, e9, e10, e11]
  · rw [(h c).2.2.1, e0, e1, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
